-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8192x1024 : Shape := ⟨2, ![8192, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S8192x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S8192x1024 : Shape := ⟨2, ![8192, 1024]⟩
abbrev S1024x1024 : Shape := ⟨2, ![1024, 1024]⟩
abbrev S1024x2048 : Shape := ⟨2, ![1024, 2048]⟩
abbrev S8192x2048 : Shape := ⟨2, ![8192, 2048]⟩
abbrev S2048x1024 : Shape := ⟨2, ![2048, 1024]⟩
abbrev S2048x2048 : Shape := ⟨2, ![2048, 2048]⟩
abbrev S1024x1 : Shape := ⟨2, ![1024, 1]⟩
abbrev S1024 : Shape := ⟨1, ![1024]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x2048, .f32⟩
  | .hbm, ⟨8, _⟩ => ⟨S1024x2048, .bf16⟩
  | .hbm, ⟨9, _⟩ => ⟨S8192x1024, .bf16⟩
  | .hbm, ⟨10, _⟩ => ⟨S8192x2048, .bf16⟩
  | .hbm, ⟨11, _⟩ => ⟨S8192x1024, .f32⟩
  | .hbm, ⟨12, _⟩ => ⟨S4x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S2048x2048, .bf16⟩
  | .local _ .vmem, ⟨4, _⟩ => ⟨S2048x2048, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_21 : BitVec 32 := 0#32
  let v42 : BitVec 1 := Scalar.cmpi .ne v41 c0_i32_21
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x2048x1024_S8192x1024 : S4x2048x1024.ShapeCasts S8192x1024
  transposes_S1024x1024_S1024x1024_1_0 : S1024x1024.Transposes [1, 0] S1024x1024
  concatenates_S1024x1024_S1024x1024_S1024x2048_d1 : Shape.Concatenates [S1024x1024, S1024x1024] S1024x2048 1
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  packedbf16_S2048x2048_S2048x2048_0_0 : (Rect.unit (s := S2048x2048) ![0, 0] S2048x2048.size inb_S2048x2048_S2048x2048_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  shapeCasts_S8192x1024_S4x2048x1024 : S8192x1024.ShapeCasts S4x2048x1024
  dot_S2048x1024_S1024x2048_S2048x2048_1_0_0_1_n_n_wf : DotDims.WF S2048x1024 S1024x2048 S2048x2048 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .bf16 = 32 ∨ (Rect.block (s := S8192x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x2048.size a
  hwx0_2 : ∀ i : grid0.Coords, EltTy.bits .bf16 = 32 ∨ (Rect.block (s := S8192x2048) S2048x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x2048.size a
  hwx1_1 : ∀ i : grid1.Coords, EltTy.bits .bf16 = 32 ∨ (Rect.block (s := S8192x2048) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x2048.size a
  hwx1_2 : ∀ i : grid1.Coords, EltTy.bits .bf16 = 32 ∨ (Rect.block (s := S8192x2048) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v5) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S8192x1024 : Shape := ⟨2, ![8192, 1024]⟩
abbrev S1024x1024 : Shape := ⟨2, ![1024, 1024]⟩
abbrev S4x2048x8192 : Shape := ⟨3, ![4, 2048, 8192]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S4x2048x8192, .f32⟩
  | .hbm, ⟨9, _⟩ => ⟨S_, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048x1, .f32⟩
  | .hbm, ⟨15, _⟩ => ⟨S4x2048x8192, .f32⟩
  | .hbm, ⟨16, _⟩ => ⟨S4x2048x8192, .f32⟩
  | .hbm, ⟨17, _⟩ => ⟨S4x2048x8192, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S4x2048x8192, .f32⟩
  | .hbm, ⟨22, _⟩ => ⟨S4x2048x8192, .f32⟩
  | .hbm, ⟨23, _⟩ => ⟨S4x2048x1024, .f32⟩
  | .hbm, ⟨24, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S1024x1024_S1024x1024_1_0 : S1024x1024.Transposes [1, 0] S1024x1024
  reducesTo_S4x2048x8192_S4x2048_d2 : S4x2048x8192.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x8192_0_1_2 : S4x2048x1.BroadcastsInDim S4x2048x8192 (![0, 1, 2] : Fin 3 → Fin S4x2048x8192.rank)
  dot_S8192x1024_S1024x1024_S8192x1024_1_0_0_1_n_n_wf : DotDims.WF S8192x1024 S1024x1024 S8192x1024 [1] [0] [0] [1] [] []
  dot_S4x2048x1024_S8192x1024_S4x2048x8192_2_1_01_0_n_n_wf : DotDims.WF S4x2048x1024 S8192x1024 S4x2048x8192 [2] [1] [0, 1] [0] [] []
  dot_S4x2048x8192_S8192x1024_S4x2048x1024_2_0_01_1_n_n_wf : DotDims.WF S4x2048x8192 S8192x1024 S4x2048x1024 [2] [0] [0, 1] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S4x2048x1024_S8192x1024_S4x2048x8192_2_1_01_0_n_n : DotDims S4x2048x1024 S8192x1024 S4x2048x8192 where
  lhsContracting := [2]
  rhsContracting := [1]
  lhsNonContracting := [0, 1]
  rhsNonContracting := [0]
  lhsBatch := []
  rhsBatch := []
  wf := dot_S4x2048x1024_S8192x1024_S4x2048x8192_2_1_01_0_n_n_wf
def dot_S4x2048x8192_S8192x1024_S4x2048x1024_2_0_01_1_n_n : DotDims S4x2048x8192 S8192x1024 S4x2048x1024 where
  lhsContracting := [2]
  rhsContracting := [0]
  lhsNonContracting := [0, 1]
  rhsNonContracting := [1]
  lhsBatch := []
  rhsBatch := []
  wf := dot_S4x2048x8192_S8192x1024_S4x2048x1024_2_0_01_1_n_n_wf

class Facts : Prop extends Facts₀ where

variable [Facts]
-- ==== Proof.R0Body.lean ====
/-
  Region 0, the projection call, at any float instance and at any contents `V` of the core's buffers when the
  region is entered. At grid point `t` the body loads the block of rows `2048 t … 2048 t + 2047` of the
  memory matrix and the whole concatenated weight matrix, multiplies them into a zero accumulator, narrows
  the product and stores it as the block of the same rows of the result. So the result's staging buffer
  after the body is one function of the two input blocks; the inputs' buffers are left as found; nothing
  else is touched.
-/
import proofs.«136249_g33603824124095_fold_wed_c4_546_3_alg».proof.Proof.Gen.KernelIdeal.Launch
import proofs.«136249_g33603824124095_fold_wed_c4_546_3_alg».proof.Proof.Gen.KernelIdeal.Skeleton
import proofs.«136249_g33603824124095_fold_wed_c4_546_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole result block. -/
abbrev rOut : Rect S2048x2048 := Rect.unit (s := S2048x2048) ![0, 0] S2048x2048.size inb_S2048x2048_S2048x2048_0_0

/-- The two rectangles the body loads through: each input block whole. -/
abbrev rIn0 : Rect S2048x1024 := Rect.unit (s := S2048x1024) ![0, 0] S2048x1024.size inb_S2048x1024_S2048x1024_0_0
abbrev rIn1 : Rect S1024x2048 := Rect.unit (s := S1024x2048) ![0, 0] S1024x2048.size inb_S1024x2048_S1024x2048_0_0

/-- The result window's staging buffer after the body, from the two input blocks: the one store's payload of the two
    blocks as the body loads them (each through its whole rectangle). -/
def out0_2 (x0 : Vec F S2048x1024 .bf16) (x1 : Vec F S1024x2048 .bf16) : Vec F S2048x2048 .bf16 :=
  View.canon [⟨rOut, k0_pay1 (View.ld x0 rIn0) (View.ld x1 rIn1)⟩]

/-- The one store covers the buffer. -/
theorem cover0_2 (p0 : Vec F S2048x2048 .bf16) (y : S2048x2048.Idx) :
    ∃ pc ∈ ([⟨rOut, p0⟩] : List (View.Piece (Elt F) S2048x2048 .bf16)), y ∈ pc.1.set :=
  View.cover_of_tiled [⟨rOut, p0⟩] S2048x2048.size (by rfl) y

set_option maxHeartbeats 1000000 in
/-- The body on whole staging memrefs, the inputs' at contents `x0`, `x1` and the result's at anything, runs to the
    continuation holding the inputs' as they were and the result's at `out0_2 x0 x1`. -/
theorem sound_kernel0 (c : Dev nD) (E : Set ℕ) (i : grid0.Coords) (arg1 : Memref sig .tc .vmem S2048x1024 .bf16) (harg1 : arg1.IsWhole)
    (arg2 : Memref sig .tc .vmem S1024x2048 .bf16) (harg2 : arg2.IsWhole) (arg3 : Memref sig .tc .vmem S2048x2048 .bf16) (harg3 : arg3.IsWhole)
    (x0 : Vec F S2048x1024 .bf16) (x1 : Vec F S1024x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the result's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.R1Body.lean ====
/-
  Region 1, the attention call, at any float instance and at any contents `V` of the core's buffers when the region
  is entered. The grid is 8 query blocks by 8 key/value blocks; point `t` is query block `t / 8`, key/value block
  `t % 8`. Three scratch buffers are carried from point to point: the unnormalised output `acc`, the running row
  maximum `mx` and the running row sum `l`. At a point with `t % 8 = 0` the body first resets them (zero, minus
  infinity, zero); at every point it rescales them by the exponential of the old maximum minus the new one and adds
  the block's contribution; at a point with `t % 8 = 7` it also stores the query block plus `acc / l` as the output
  block. The output window is idle at the other points.
-/
import proofs.«136249_g33603824124095_fold_wed_c4_546_3_alg».proof.Proof.Gen.KernelIdeal.Launch
import proofs.«136249_g33603824124095_fold_wed_c4_546_3_alg».proof.Proof.Gen.KernelIdeal.Skeleton
import proofs.«136249_g33603824124095_fold_wed_c4_546_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The carried state and one step of it -/

/-- The three carried scratch contents: `acc`, the running maximum, the running sum. -/
abbrev St (F : FTy → Type) [FloatOps F] : Type := Vec F S1024x1024 .f32 × Vec F S1024x1 .f32 × Vec F S1024x1 .f32

/-- What the reset stores: zero, minus infinity, zero. -/
def init1 : St F := (k1_pay3 (F := F), k1_pay4 (F := F), k1_pay5 (F := F))

/-- One point's update of the carried state from the query block `x`, the key block `k` and the value block `v`. -/
def step1 (x : Vec F S1024x1024 .f32) (k v : Vec F S1024x1024 .bf16) (s : St F) : St F :=
  (k1_pay1 (k1_pay12 x k s.2.1 s.1) (k1_pay13 x k s.2.1) v, k1_pay11 x k s.2.1, k1_pay10 x k s.2.1 s.2.2)

/-- The output block the last key/value block's point stores: the query block plus `acc / l`. -/
def outOf (x : Vec F S1024x1024 .f32) (s : St F) : Vec F S1024x1024 .f32 := k1_pay2 x s.1 s.2.2

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state after the body at position `n`: a fresh start at the first key/value block of a query block,
    else one step on from what the point before left. -/
def stAt1 (c : Dev nD) : (n : ℕ) → n < cfg1.N → St F
  | 0, hn => step1 (iblk1 V c 0 ⟨0, hn⟩) (iblk1 V c 1 ⟨0, hn⟩) (iblk1 V c 2 ⟨0, hn⟩) init1
  | n + 1, hn =>
    if (n + 1) % 8 = 0 then step1 (iblk1 V c 0 ⟨n + 1, hn⟩) (iblk1 V c 1 ⟨n + 1, hn⟩) (iblk1 V c 2 ⟨n + 1, hn⟩) init1
    else step1 (iblk1 V c 0 ⟨n + 1, hn⟩) (iblk1 V c 1 ⟨n + 1, hn⟩) (iblk1 V c 2 ⟨n + 1, hn⟩) (stAt1 c n (Nat.lt_of_succ_lt hn))

theorem stAt1_reset (c : Dev nD) (t : Fin cfg1.N) (h : t.val % 8 = 0) :
    stAt1 V c t.val t.isLt = step1 (iblk1 V c 0 t) (iblk1 V c 1 t) (iblk1 V c 2 t) init1 := by
  obtain ⟨n, hn⟩ := t
  cases n with
  | zero => exact rfl
  | succ n => exact (if_pos h).trans rfl

theorem stAt1_next (c : Dev nD) (t : Fin cfg1.N) (h : ¬ t.val % 8 = 0) :
    stAt1 V c t.val t.isLt = step1 (iblk1 V c 0 t) (iblk1 V c 1 t) (iblk1 V c 2 t)
      (stAt1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The body's branch conditions, decided over the grid -/

/-- The reset branch's condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The output branch's condition. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The scratch memrefs and the invariant between points -/

abbrev scAcc : Memref sig .tc .vmem S1024x1024 .f32 := Memref.whole cc1_scratch0
abbrev scMx : Memref sig .tc .vmem S1024x1 .f32 := Memref.whole cc1_scratch1
abbrev scL : Memref sig .tc .vmem S1024x1 .f32 := Memref.whole cc1_scratch2

/-- The scoped buffers that are neither a staging buffer of this call nor one of its scratch buffers (the other call's
    five staging buffers), each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Eight conjuncts, the first five grouped apart from the last three. -/
theorem sep_five_three (A1 A2 A3 A4 A5 S0 S1 S2 : sProp 𝕄) :
    iprop(A1 ∗ A2 ∗ A3 ∗ A4 ∗ A5 ∗ S0 ∗ S1 ∗ S2) = iprop((A1 ∗ A2 ∗ A3 ∗ A4 ∗ A5) ∗ S0 ∗ S1 ∗ S2) := by
  have h₁ : iprop(A1 ∗ A2 ∗ A3 ∗ A4 ∗ A5 ∗ S0 ∗ S1 ∗ S2) ⊢ iprop((A1 ∗ A2 ∗ A3 ∗ A4 ∗ A5) ∗ S0 ∗ S1 ∗ S2) := by
    iintro ⟨H1, H2, H3, H4, H5, H6, H7, H8⟩
    isplitl [H1 H2 H3 H4 H5]
    · isplitl [H1]; · iexact H1
      isplitl [H2]; · iexact H2
      isplitl [H3]; · iexact H3
      isplitl [H4]; · iexact H4
      iexact H5
    isplitl [H6]; · iexact H6
    isplitl [H7]; · iexact H7
    iexact H8
  have h₂ : iprop((A1 ∗ A2 ∗ A3 ∗ A4 ∗ A5) ∗ S0 ∗ S1 ∗ S2) ⊢ iprop(A1 ∗ A2 ∗ A3 ∗ A4 ∗ A5 ∗ S0 ∗ S1 ∗ S2) := by
    iintro ⟨⟨H1, H2, H3, H4, H5⟩, H6, H7, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  exact BI.equiv_iff.mp ⟨h₁, h₂⟩

/-- The class invariant with the three scratch buffers as memrefs owned at some contents. -/
theorem PhiA1_eq (c : Dev nD) :
    (Pipeline.ΦA spec1 c : sProp 𝕄)
      = iprop(iprop(otherScoped (F := F) c ∗ (∃ d, owns (c : Thread nD τ) scAcc fullShare d) ∗ (∃ d, owns (c : Thread nD τ) scMx fullShare d)
          ∗ (∃ d, owns (c : Thread nD τ) scL fullShare d)) ∗ (∃ r, prngReg c r)) := by
  unfold Pipeline.ΦA; rw [scopedRest1_eq]; unfold otherScoped; simp only [scAcc, scMx, scL, owns_whole]
  rw [sep_five_three]; rfl

/-- The invariant before position `n`: before the first point the class's; afterwards the three scratch buffers at what
    the point before left, the other scoped buffers at anything, the generator register at some state. -/
def PhiS (c : Dev nD) : (n : ℕ) → n ≤ cfg1.N → sProp 𝕄
  | 0, _ => Pipeline.ΦA spec1 c
  | n + 1, hn => iprop(iprop(otherScoped (F := F) c ∗ owns (c : Thread nD τ) scAcc fullShare (stAt1 V c n hn).1
      ∗ owns (c : Thread nD τ) scMx fullShare (stAt1 V c n hn).2.1 ∗ owns (c : Thread nD τ) scL fullShare (stAt1 V c n hn).2.2) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the three scratch buffers at that point's state. -/
theorem PhiS_succ (c : Dev nD) (n : ℕ) (hn : n < cfg1.N) :
    PhiS V c (n + 1) hn = iprop(iprop(otherScoped (F := F) c ∗ owns (c : Thread nD τ) scAcc fullShare (stAt1 V c n hn).1
      ∗ owns (c : Thread nD τ) scMx fullShare (stAt1 V c n hn).2.1 ∗ owns (c : Thread nD τ) scL fullShare (stAt1 V c n hn).2.2) ∗ (∃ r, prngReg c r)) := rfl

/-- Before a point that is not the first: the three scratch buffers at what the point before left. -/
theorem PhiS_pos (c : Dev nD) (n : ℕ) (h : n ≤ cfg1.N) (hz : n ≠ 0) :
    PhiS V c n h = iprop(iprop(otherScoped (F := F) c ∗ owns (c : Thread nD τ) scAcc fullShare (stAt1 V c (n - 1) (by omega)).1
      ∗ owns (c : Thread nD τ) scMx fullShare (stAt1 V c (n - 1) (by omega)).2.1
      ∗ owns (c : Thread nD τ) scL fullShare (stAt1 V c (n - 1) (by omega)).2.2) ∗ (∃ r, prngReg c r)) := by
  cases n with
  | zero => exact absurd rfl hz
  | succ n => rfl

/-! ## The proof data -/

/-- The proof data of pipeline 1 on core `c`. The key window and the value window read one array, each at half of its
    share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf (iblk1 V c 0 t) (stAt1 V c t.val t.isLt)
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf (iblk1 V c 0 t) (stAt1 V c t.val t.isLt) := by dsimp only [dat1]

theorem share1_0 (c : Dev nD) : (dat1 V c).share 0 = fullShare := by
  unfold Dat.share; rw [if_neg (by decide)]; dsimp only [dat1]
theorem share1_1 (c : Dev nD) : (dat1 V c).share 1 = fullShare.left := by
  unfold Dat.share; rw [if_neg (by decide)]; dsimp only [dat1]
theorem share1_2 (c : Dev nD) : (dat1 V c).share 2 = fullShare.right := by
  unfold Dat.share; rw [if_neg (by decide)]; dsimp only [dat1]
theorem share1_3 (c : Dev nD) : (dat1 V c).share 3 = fullShare := by
  unfold Dat.share; rw [if_pos (by decide)]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body on whole memrefs, one triple per control case -/

/-- The zero offsets, as the printed rectangles spell them, are zero. -/
theorem hz2 : (![0, 0] : Fin 2 → Nat) = fun _ => 0 := funext fun a => by fin_cases a <;> rfl

/-- A list of stores whose last is through the buffer's whole rectangle covers the buffer. -/
theorem cover_head {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

set_option maxHeartbeats 1000000 in
/-- Case B, neither branch taken: the three scratch buffers at the carried state `s` are left at `step1 x k v s`; the
    inputs' buffers and the output's are handed back as found. -/
theorem run1_B (c : Dev nD) (E : Set ℕ) (i : grid1.Coords) (hc0 : ¬cond1_0 i) (hc1 : ¬cond1_1 i)
    (arg2 : Memref sig .tc .vmem S1024x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1 .f32) (harg7 : arg7.IsWhole)
    (arg8 : Memref sig .tc .vmem S1024x1 .f32) (harg8 : arg8.IsWhole)
    (x : Vec F S1024x1024 .f32) (k v : Vec F S1024x1024 .bf16) (o : Vec F S1024x1024 .f32) (s : St F) (K : PUnit → sProp 𝕄) :
    iprop(owns (c : Thread nD τ) arg2 fullShare x ∗ owns (c : Thread nD τ) arg3 fullShare k ∗ owns (c : Thread nD τ) arg4 fullShare v
        ∗ owns (c : Thread nD τ) arg5 fullShare o
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x ∗ owns (c : Thread nD τ) arg3 fullShare k ∗ owns (c : Thread nD τ) arg4 fullShare v
            ∗ owns (c : Thread nD τ) arg5 fullShare o
            ∗ owns (c : Thread nD τ) arg6 fullShare (step1 x k v s).1 ∗ owns (c : Thread nD τ) arg7 fullShare (step1 x k v s).2.1
            ∗ owns (c : Thread nD τ) arg8 fullShare (step1 x k v s).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  isplitl [H6]
  · iexists _; isplitr
    swap; · iexact H6
    ipureintro
    sl_unfold_words
    rw [View.read_writes_eq_canon _ _ _ (cover_head hz2 _ _ _), View.canon_cons_unit_zero (S := S1024x1024) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2, step1]
  isplitl [H7]
  · iexists _; isplitr
    swap; · iexact H7
    ipureintro
    sl_unfold_words
    rw [View.read_writes_eq_canon _ _ _ (cover_head hz2 _ _ _), View.canon_cons_unit_zero (S := S1024x1) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2, step1]
  iexists _; isplitr
  swap; · iexact H8
  ipureintro
  sl_unfold_words
  rw [View.read_writes_eq_canon _ _ _ (cover_head hz2 _ _ _), View.canon_cons_unit_zero (S := S1024x1) hz2]
  simp only [View.readAt_eq_ld, harg2.read_unread, harg3.read_unread, harg4.read_unread, harg6.read_unread, harg7.read_unread,
    harg8.read_unread, View.ld_unit_zero (S := S1024x1024) hz2, View.ld_unit_zero (S := S1024x1) hz2, step1]

set_option maxHeartbeats 1000000 in
/-- Case C, the output branch alone: the three scratch buffers at the carried state `s` are left at `step1 x k v s`, and the
    output's buffer, at anything, is left at `outOf x (step1 x k v s)`; the inputs' buffers are handed back as found. -/
theorem run1_C (c : Dev nD) (E : Set ℕ) (i : grid1.Coords) (hc0 : ¬cond1_0 i) (hc1 : cond1_1 i)
    (arg2 : Memref sig .tc .vmem S1024x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1 .f32) (harg7 : arg7.IsWhole)
    (arg8 : Memref sig .tc .vmem S1024x1 .f32) (harg8 : arg8.IsWhole)
    (x : Vec F S1024x1024 .f32) (k v : Vec F S1024x1024 .bf16) (s : St F) (K : PUnit → sProp 𝕄) :
    iprop(owns (c : Thread nD τ) arg2 fullShare x ∗ owns (c : Thread nD τ) arg3 fullShare k ∗ owns (c : Thread nD τ) arg4 fullShare v
        ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x ∗ owns (c : Thread nD τ) arg3 fullShare k ∗ owns (c : Thread nD τ) arg4 fullShare v
            ∗ owns (c : Thread nD τ) arg5 fullShare (outOf x (step1 x k v s))
            ∗ owns (c : Thread nD τ) arg6 fullShare (step1 x k v s).1 ∗ owns (c : Thread nD τ) arg7 fullShare (step1 x k v s).2.1
            ∗ owns (c : Thread nD τ) arg8 fullShare (step1 x k v s).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (cover_head hz2 _ _ _), View.canon_cons_unit_zero (S := S1024x1024) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2,
      View.readCov_unit_zero (S := S1024x1024) _ hz2, View.readCov_unit_zero (S := S1024x1) _ hz2, step1, outOf]
  isplitl [H6]
  · iexists _; isplitr
    swap; · iexact H6
    ipureintro
    sl_unfold_words
    rw [View.read_writes_eq_canon _ _ _ (cover_head hz2 _ _ _), View.canon_cons_unit_zero (S := S1024x1024) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2,
      View.readCov_unit_zero (S := S1024x1024) _ hz2, View.readCov_unit_zero (S := S1024x1) _ hz2, step1]
  isplitl [H7]
  · iexists _; isplitr
    swap; · iexact H7
    ipureintro
    sl_unfold_words
    rw [View.read_writes_eq_canon _ _ _ (cover_head hz2 _ _ _), View.canon_cons_unit_zero (S := S1024x1) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2,
      View.readCov_unit_zero (S := S1024x1024) _ hz2, View.readCov_unit_zero (S := S1024x1) _ hz2, step1]
  iexists _; isplitr
  swap; · iexact H8
  ipureintro
  sl_unfold_words
  rw [View.read_writes_eq_canon _ _ _ (cover_head hz2 _ _ _), View.canon_cons_unit_zero (S := S1024x1) hz2]
  simp only [View.readAt_eq_ld, harg2.read_unread, harg3.read_unread, harg4.read_unread, harg6.read_unread, harg7.read_unread,
    harg8.read_unread, View.ld_unit_zero (S := S1024x1024) hz2, View.ld_unit_zero (S := S1024x1) hz2,
    View.readCov_unit_zero (S := S1024x1024) _ hz2, View.readCov_unit_zero (S := S1024x1) _ hz2, step1]

set_option maxHeartbeats 1000000 in
/-- Case A, the reset branch alone: the three scratch buffers, at anything, are reset and left at `step1 x k v init1`; the
    inputs' buffers and the output's are handed back as found. -/
theorem run1_A (c : Dev nD) (E : Set ℕ) (i : grid1.Coords) (hc0 : cond1_0 i) (hc1 : ¬cond1_1 i)
    (arg2 : Memref sig .tc .vmem S1024x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1 .f32) (harg7 : arg7.IsWhole)
    (arg8 : Memref sig .tc .vmem S1024x1 .f32) (harg8 : arg8.IsWhole)
    (x : Vec F S1024x1024 .f32) (k v : Vec F S1024x1024 .bf16) (o : Vec F S1024x1024 .f32) (K : PUnit → sProp 𝕄) :
    iprop(owns (c : Thread nD τ) arg2 fullShare x ∗ owns (c : Thread nD τ) arg3 fullShare k ∗ owns (c : Thread nD τ) arg4 fullShare v
        ∗ owns (c : Thread nD τ) arg5 fullShare o
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare k ∗ owns (c : Thread nD τ) arg4 fullShare v
            ∗ owns (c : Thread nD τ) arg5 fullShare o
            ∗ owns (c : Thread nD τ) arg6 fullShare (step1 x k v (init1 (F := F))).1 ∗ owns (c : Thread nD τ) arg7 fullShare (step1 x k v (init1 (F := F))).2.1
            ∗ owns (c : Thread nD τ) arg8 fullShare (step1 x k v (init1 (F := F))).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  isplitl [H6]
  · iexists _; isplitr
    swap; · iexact H6
    ipureintro
    sl_unfold_words
    rw [View.read_writes_eq_canon _ _ _ (cover_head hz2 _ _ _), View.canon_cons_unit_zero (S := S1024x1024) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2,
      View.readCov_unit_zero (S := S1024x1024) _ hz2, View.readCov_unit_zero (S := S1024x1) _ hz2, step1, init1]
  isplitl [H7]
  · iexists _; isplitr
    swap; · iexact H7
    ipureintro
    sl_unfold_words
    rw [View.read_writes_eq_canon _ _ _ (cover_head hz2 _ _ _), View.canon_cons_unit_zero (S := S1024x1) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2,
      View.readCov_unit_zero (S := S1024x1024) _ hz2, View.readCov_unit_zero (S := S1024x1) _ hz2, step1, init1]
  iexists _; isplitr
  swap; · iexact H8
  ipureintro
  sl_unfold_words
  rw [View.read_writes_eq_canon _ _ _ (cover_head hz2 _ _ _), View.canon_cons_unit_zero (S := S1024x1) hz2]
  simp only [View.readAt_eq_ld, harg2.read_unread, harg3.read_unread, harg4.read_unread, harg6.read_unread, harg7.read_unread,
    harg8.read_unread, View.ld_unit_zero (S := S1024x1024) hz2, View.ld_unit_zero (S := S1024x1) hz2,
    View.readCov_unit_zero (S := S1024x1024) _ hz2, View.readCov_unit_zero (S := S1024x1) _ hz2, step1, init1]

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output branch is not taken the output window is idle, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is taken the output window is live. -/
theorem liveAt1_3 : ∀ t : Fin cfg1.N, cond1_1 (grid1.coords t) → cfg1.idle 3 (grid1.coords t) = false := by decide +kernel

/-- Each window's current staging memref at point `t`, spelt as the pipeline passes it to the body. -/
abbrev ms1_0 (t : Fin cfg1.N) : Memref sig .tc .vmem S1024x1024 .f32 := win1_0.stage (cfg1.slots t 0)
abbrev ms1_1 (t : Fin cfg1.N) : Memref sig .tc .vmem S1024x1024 .bf16 := win1_1.stage (cfg1.slots t 1)
abbrev ms1_2 (t : Fin cfg1.N) : Memref sig .tc .vmem S1024x1024 .bf16 := win1_2.stage (cfg1.slots t 2)
abbrev ms1_3 (t : Fin cfg1.N) : Memref sig .tc .vmem S1024x1024 .f32 := win1_3.stage (cfg1.slots t 3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point. The inputs' buffers hold their blocks; `t % 8` says which case the point is in; the invariant
    hands the body the scratch buffers at what the point before left (at anything before the first point) and takes them
    back at this point's state; where the output branch is not taken the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [stAt1_reset V c t h0]
    by_cases hz : t.val = 0
    · rw [PhiS_castSucc V c t, PhiS_zero V c _ _ hz, PhiA1_eq]
      iintro ⟨⟨⟨Ho, HA, HM, HL⟩, Hg⟩, Hw, ⟨%d0, H0⟩, ⟨%d1, H1⟩, ⟨%d2, H2⟩, ⟨%d3, H3⟩⟩
      iapply (run1_A c Set.univ (grid1.coords t) hc0 hc1 _ _ _ _ _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HA]; · iexact HA
      isplitl [HM]; · iexact HM
      isplitl [HL]; · iexact HL
      iintro ⟨H0, H1, H2, H3, HA, HM, HL⟩
      isplitl [Ho HA HM HL Hg]
      · isplitl [Ho HA HM HL]
        · isplitl [Ho]; · iexact Ho
          isplitl [HA]; · iexact HA
          isplitl [HM]; · iexact HM
          iexact HL
        iexact Hg
      isplitl [Hw]; · iexact Hw
      isplitl [H0]; · iexact H0
      isplitl [H1]; · iexact H1
      isplitl [H2]; · iexact H2
      iexists _; iexact H3
    · rw [PhiS_castSucc V c t, PhiS_pos V c _ _ hz]
      iintro ⟨⟨⟨Ho, HA, HM, HL⟩, Hg⟩, Hw, ⟨%d0, H0⟩, ⟨%d1, H1⟩, ⟨%d2, H2⟩, ⟨%d3, H3⟩⟩
      iapply (run1_A c Set.univ (grid1.coords t) hc0 hc1 _ _ _ _ _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HA]; · iexists _; iexact HA
      isplitl [HM]; · iexists _; iexact HM
      isplitl [HL]; · iexists _; iexact HL
      iintro ⟨H0, H1, H2, H3, HA, HM, HL⟩
      isplitl [Ho HA HM HL Hg]
      · isplitl [Ho HA HM HL]
        · isplitl [Ho]; · iexact Ho
          isplitl [HA]; · iexact HA
          isplitl [HM]; · iexact HM
          iexact HL
        iexact Hg
      isplitl [Hw]; · iexact Hw
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    rw [stAt1_next V c t h0]
    rw [PhiS_castSucc V c t, PhiS_pos V c _ _ hz]
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, stAt1_next V c t h0]
      iintro ⟨⟨⟨Ho, HA, HM, HL⟩, Hg⟩, Hw, ⟨%d0, H0⟩, ⟨%d1, H1⟩, ⟨%d2, H2⟩, ⟨%d3, H3⟩⟩
      iapply (run1_C c Set.univ (grid1.coords t) hc0 hc1 _ _ _ _ _ _ _ _ _ _ _ _ _ _
        (iblk1 V c 0 t) (iblk1 V c 1 t) (iblk1 V c 2 t)
        (stAt1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HA]; · iexact HA
      isplitl [HM]; · iexact HM
      isplitl [HL]; · iexact HL
      iintro ⟨H0, H1, H2, H3, HA, HM, HL⟩
      isplitl [Ho HA HM HL Hg]
      · isplitl [Ho HA HM HL]
        · isplitl [Ho]; · iexact Ho
          isplitl [HA]; · iexact HA
          isplitl [HM]; · iexact HM
          iexact HL
        iexact Hg
      isplitl [Hw]; · iexact Hw
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨Ho, HA, HM, HL⟩, Hg⟩, Hw, ⟨%d0, H0⟩, ⟨%d1, H1⟩, ⟨%d2, H2⟩, ⟨%d3, H3⟩⟩
      iapply (run1_B c Set.univ (grid1.coords t) hc0 hc1 _ _ _ _ _ _ _ _ _ _ _ _ _ _
        (iblk1 V c 0 t) (iblk1 V c 1 t) (iblk1 V c 2 t) ((dat1 V c).before 3 t d3)
        (stAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HA]; · iexact HA
      isplitl [HM]; · iexact HM
      isplitl [HL]; · iexact HL
      iintro ⟨H0, H1, H2, H3, HA, HM, HL⟩
      isplitl [Ho HA HM HL Hg]
      · isplitl [Ho HA HM HL]
        · isplitl [Ho]; · iexact Ho
          isplitl [HA]; · iexact HA
          isplitl [HM]; · iexact HM
          iexact HL
        iexact Hg
      isplitl [Hw]; · iexact Hw
      isplitl [H0]; · iexact H0
      isplitl [H1]; · iexact H1
      isplitl [H2]; · iexact H2
      iexists _; iexact H3

/-! ## The body obligation and the invariant's two ends -/

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ho, HA, HM, HL⟩, Hg⟩
  isplitr [Hg]
  · isplitl [Ho]; · iexact Ho
    isplitl [HA]; · iexists _; iexact HA
    isplitl [HM]; · iexists _; iexact HM
    iexists _; iexact HL
  iexact Hg

/-- After the last point the invariant gives the class's back: the scratch contents are forgotten. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.R1

end
-- ==== Proof.Regs.lean ====
/-
  The whole run of the kernel's program, at any float instance: the host operations before the two calls, the projection
  call, the attention call, the closing reshape. Between two items the core holds every unscoped buffer at a known
  valuation: the launch memory, then what the host operations compute from it, then the projection's result array
  replaced by what its write-backs leave, then the attention's result array likewise, then the reshape of that. The
  attention call reads the projection's result through TWO windows (its left half of columns as keys, its right half as
  values), so on entry that array's ownership is cut into two halves, one per window, and joined again on exit.
  Every weakly fair execution terminates; the final memory has the result at the last valuation and the four arguments
  as launched.
-/
import proofs.«136249_g33603824124095_fold_wed_c4_546_3_alg».proof.Proof.R0Body
import proofs.«136249_g33603824124095_fold_wed_c4_546_3_alg».proof.Proof.R1Body
import proofs.«136249_g33603824124095_fold_wed_c4_546_3_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the two calls leave, and the valuations between the items -/

/-- The buffers as the projection call finds them: the launch memory after the host operations before it. -/
abbrev Vf1 (c : Dev nD) (b : Ref sig .tc) : Buf (Elt F) ((c : Thread nD τ).loc b) := Gen.V1 m c b

/-- What the projection call leaves in its result array. -/
def o6 (c : Dev nD) : Buf (Elt F) ((c : Thread nD τ).loc main_v6) := (R0.dat0 (Vf1 m) c).arrAt 2 cfg0.N

/-- The unknowns of the generated valuations with the projection's result filled in. -/
def outs6 : Gen.Outs (F := F) := fun _ r c => if h : r = main_v6 then h ▸ o6 m c else m ((c : Thread nD τ).loc r)

/-- The buffers as the attention call finds them. -/
abbrev Vf2 (c : Dev nD) (b : Ref sig .tc) : Buf (Elt F) ((c : Thread nD τ).loc b) := Gen.V2 m (outs6 m) c b

/-- What the attention call leaves in its result array. -/
def o7 (c : Dev nD) : Buf (Elt F) ((c : Thread nD τ).loc main_v7) := (R1.dat1 (Vf2 m) c).arrAt 3 cfg1.N

/-- Both results filled in. -/
def outsK : Gen.Outs (F := F) := fun _ r c =>
  if h : r = main_v6 then h ▸ o6 m c else if h' : r = main_v7 then h' ▸ o7 m c else m ((c : Thread nD τ).loc r)

theorem outsK_v6 (n : ℕ) (c : Dev nD) : outsK m n main_v6 c = o6 m c := by
  unfold outsK; rw [dif_pos rfl]
theorem outs6_v6 (n : ℕ) (c : Dev nD) : outs6 m n main_v6 c = o6 m c := by
  unfold outs6; rw [dif_pos rfl]
theorem outsK_v7 (n : ℕ) (c : Dev nD) : outsK m n main_v7 c = o7 m c := by
  unfold outsK; rw [dif_neg (by decide), dif_pos rfl]

/-- The valuation after the projection call does not depend on the attention's result. -/
theorem V2_outsK (c : Dev nD) : Gen.V2 m (outsK m) c = Gen.V2 m (outs6 m) c := by
  unfold Gen.V2; rw [outsK_v6, outs6_v6]

/-- As the attention call finds it, the projection's result array holds what the projection call left there; -/
theorem Vf2_v6 (c : Dev nD) : Vf2 m c main_v6 = o6 m c := by
  show Gen.V2 m (outs6 m) c main_v6 = o6 m c
  unfold Gen.V2; rw [Function.update_self, outs6_v6]

/-- every other buffer what the host operations before the calls computed. -/
theorem Vf2_of (c : Dev nD) (r : Ref sig .tc) (h : r ∉ ([main_v6] : List (Ref sig .tc))) : Vf2 m c r = Gen.V1 m c r :=
  Gen.V2_of m (outs6 m) c r h

/-! ## The proof data family and what rides beside the buffers -/

abbrev adm : (p : Fin 2) → (pcfgs (F := F) p).Adm := fun p => (cfgs p).toPCfg_adm

/-- Every pipeline's proof data, each at its call's entry contents: a literal match. -/
def pdats : (p : Fin 2) → (c : Dev nD) → Dat τ (Elt F) Unit ℕ (UR sig nD τ) ℕ (Pipeline.pin (pcfgs (F := F)) adm p) c
  | ⟨0, _⟩ => fun c => R0.dat0 (Vf1 m) c
  | ⟨1, _⟩ => fun c => R1.dat1 (Vf2 m) c

abbrev 𝒱₀ : Variants := Variants.none
abbrev L : GSem nD τ sig → Finset Unit := fun _ => ∅
abbrev lv : GSem nD τ sig → Unit → ℕ := fun _ _ => 0

/-- What rides beside the buffers through every item: the generator register at some state, and the core owing nothing. -/
abbrev R (c : Dev nD) : sProp 𝕄 := iprop((∃ r, prngReg c r) ∗ ∃ W, owes (c : Thread nD τ) (0 : CellTallies nD τ sig Unit) W)

/-! ## The projection call as a segment -/

theorem hF0 (c : Dev nD) (w : Fin cfg0.W) : (pdats m 0 c).arrAt w cfg0.N = Gen.V2 m (outsK m) c (Pipeline.arrRef spec0 w) := by
  match w with
  | ⟨0, _⟩ =>
    exact (((R0.dat0 (Vf1 m) c).arrAt_in 0 rfl _).trans (R0.A_eq0 (Vf1 m) c 0)).trans (Gen.V2_of m (outsK m) c main_v5 (by decide)).symm
  | ⟨1, _⟩ =>
    exact (((R0.dat0 (Vf1 m) c).arrAt_in 1 rfl _).trans (R0.A_eq0 (Vf1 m) c 1)).trans (Gen.V2_of m (outsK m) c main_v4 (by decide)).symm
  | ⟨2, _⟩ =>
    show o6 m c = Gen.V2 m (outsK m) c main_v6
    unfold Gen.V2; rw [Function.update_self, outsK_v6]

theorem hrest0 (c : Dev nD) : ∀ b, b ∉ Finset.univ.image (Pipeline.arrRef spec0) → Gen.V2 m (outsK m) c b = Gen.V1 m c b := by
  intro b hb
  refine Gen.V2_of m (outsK m) c b fun h => hb ?_
  rw [List.mem_singleton] at h; subst h
  exact Finset.mem_image.mpr ⟨2, Finset.mem_univ _, rfl⟩

set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (Vf1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vf1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vf1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vf1 m c) (fun b => Gen.V2 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention call as a segment: one array behind two windows -/

/-- The buffers behind the attention call's four windows: the reshaped queries, the projection's result (twice), its own result. -/
theorem image1 : Finset.univ.image (Pipeline.arrRef spec1) = {main_v0, main_v6, main_v7} := by decide

/-- Those three buffers, each whole at the full share. -/
theorem arrBufs1 (c : Dev nD) (V : (b : Ref sig .tc) → Buf (Elt F) ((c : Thread nD τ).loc b)) :
    (Pipeline.arrBufs spec1 c V : sProp 𝕄)
      = iprop((((c : Thread nD τ).loc main_v0) ↦{fullShare} V main_v0) ∗ (((c : Thread nD τ).loc main_v6) ↦{fullShare} V main_v6)
          ∗ (((c : Thread nD τ).loc main_v7) ↦{fullShare} V main_v7)) := by
  unfold Pipeline.arrBufs
  rw [image1, BI.bigSep_insert (by decide), BI.bigSep_insert (by decide), BI.bigSep_singleton]
  rfl

/-- The call's arrays at contents `G`: the queries whole, the projection's result once at the left half share (the key
    window) and once at the right half (the value window), the result whole. -/
theorem arrays1_eq (c : Dev nD) (G : (w : Fin cfg1.W) → Buf (Elt F) ((cfg1.win w).arr.view.loc (c.tc : Thread nD τ))) :
    ((R1.dat1 (Vf2 m) c).arrays G : sProp 𝕄)
      = iprop((((c : Thread nD τ).loc main_v0) ↦{fullShare} G 0) ∗ (((c : Thread nD τ).loc main_v6) ↦{fullShare.left} G 1)
          ∗ (((c : Thread nD τ).loc main_v6) ↦{fullShare.right} G 2) ∗ (((c : Thread nD τ).loc main_v7) ↦{fullShare} G 3)) := by
  unfold Dat.arrays
  rw [bigSep_W1, R1.share1_0, R1.share1_1, R1.share1_2, R1.share1_3,
    (arr_whole1 0).set_eq_univ, (arr_whole1 1).set_eq_univ, (arr_whole1 3).set_eq_univ]

/-- ENTRY: the core's unscoped buffers at `V` are the call's arrays at contents read off `V`, the projection's result cut
    into its two half shares, and the unscoped rest. -/
theorem entry1 (c : Dev nD) (V : (b : Ref sig .tc) → Buf (Elt F) ((c : Thread nD τ).loc b))
    (G : (w : Fin cfg1.W) → Buf (Elt F) ((cfg1.win w).arr.view.loc (c.tc : Thread nD τ))) (hG : ∀ w, G w = V (Pipeline.arrRef spec1 w)) :
    (unscopedBufs c V : sProp 𝕄) ⊢ iprop((R1.dat1 (Vf2 m) c).arrays G ∗ Pipeline.unscopedRest spec1 c V) := by
  have h0 : G 0 = V main_v0 := hG 0
  have h1 : G 1 = V main_v6 := hG 1
  have h2 : G 2 = V main_v6 := hG 2
  have h3 : G 3 = V main_v7 := hG 3
  rw [Pipeline.unscopedBufs_split₀ cfgs 1 winFacts₀1.arr_unscoped c V]
  refine sep_mono ?_ .rfl
  show (Pipeline.arrBufs spec1 c V : sProp 𝕄) ⊢ _
  rw [arrBufs1, arrays1_eq, h0, h1, h2, h3]
  iintro ⟨H0, H6, H7⟩
  ihave H6' := (pointsTo_share (PosShare.mem_left_op_right fullShare)).1 $$ H6
  icases H6' with ⟨H6l, H6r⟩
  isplitl [H0]; · iexact H0
  isplitl [H6l]; · iexact H6l
  isplitl [H6r]; · iexact H6r
  iexact H7

/-- EXIT: the call's arrays at contents `G` and the unscoped rest at `V` are the core's unscoped buffers at any valuation `V'`
    that has the arrays at `G` and agrees with `V` off them: the two halves of the projection's result, holding the same
    contents, are one whole again. -/
theorem exit1 (c : Dev nD) (V V' : (b : Ref sig .tc) → Buf (Elt F) ((c : Thread nD τ).loc b))
    (G : (w : Fin cfg1.W) → Buf (Elt F) ((cfg1.win w).arr.view.loc (c.tc : Thread nD τ))) (hG : ∀ w, G w = V' (Pipeline.arrRef spec1 w))
    (hrest : ∀ b, b ∉ Finset.univ.image (Pipeline.arrRef spec1) → V' b = V b) :
    iprop((R1.dat1 (Vf2 m) c).arrays G ∗ Pipeline.unscopedRest spec1 c V) ⊢ (unscopedBufs c V' : sProp 𝕄) := by
  have h0 : G 0 = V' main_v0 := hG 0
  have h1 : G 1 = V' main_v6 := hG 1
  have h2 : G 2 = V' main_v6 := hG 2
  have h3 : G 3 = V' main_v7 := hG 3
  rw [Pipeline.unscopedBufs_split₀ cfgs 1 winFacts₀1.arr_unscoped c V']
  refine sep_mono ?_ (Entails.of_eq ?_)
  · show _ ⊢ (Pipeline.arrBufs spec1 c V' : sProp 𝕄)
    rw [arrBufs1, arrays1_eq, h0, h1, h2, h3]
    iintro ⟨H0, H6l, H6r, H7⟩
    isplitl [H0]; · iexact H0
    isplitl [H6l H6r]
    · iapply (pointsTo_share (PosShare.mem_left_op_right fullShare)).2
      isplitl [H6l]; · iexact H6l
      iexact H6r
    iexact H7
  · unfold Pipeline.unscopedRest
    exact bigSep_congr fun b hb => by rw [hrest b (Finset.mem_sdiff.mp hb).2]

theorem hF1 (c : Dev nD) (w : Fin cfg1.W) : (R1.dat1 (Vf2 m) c).arrAt w cfg1.N = Gen.V3 m (outsK m) c (Pipeline.arrRef spec1 w) := by
  match w with
  | ⟨0, _⟩ =>
    exact (((R1.dat1 (Vf2 m) c).arrAt_in 0 rfl _).trans (R1.A_eq1 (Vf2 m) c 0)).trans
      (((Gen.V3_of m (outsK m) c main_v0 (by decide)).trans (congrFun (V2_outsK m c) _)).symm)
  | ⟨1, _⟩ =>
    exact (((R1.dat1 (Vf2 m) c).arrAt_in 1 rfl _).trans (R1.A_eq1 (Vf2 m) c 1)).trans
      (((Gen.V3_of m (outsK m) c main_v6 (by decide)).trans (congrFun (V2_outsK m c) _)).symm)
  | ⟨2, _⟩ =>
    exact (((R1.dat1 (Vf2 m) c).arrAt_in 2 rfl _).trans (R1.A_eq1 (Vf2 m) c 2)).trans
      (((Gen.V3_of m (outsK m) c main_v6 (by decide)).trans (congrFun (V2_outsK m c) _)).symm)
  | ⟨3, _⟩ =>
    show o7 m c = Gen.V3 m (outsK m) c main_v7
    unfold Gen.V3; rw [Function.update_self, outsK_v7]

theorem hrest1 (c : Dev nD) : ∀ b, b ∉ Finset.univ.image (Pipeline.arrRef spec1) → Gen.V3 m (outsK m) c b = Vf2 m c b := by
  intro b hb
  refine (Gen.V3_of m (outsK m) c b fun h => hb ?_).trans (congrFun (V2_outsK m c) _)
  rw [List.mem_singleton] at h; subst h
  exact Finset.mem_image.mpr ⟨3, Finset.mem_univ _, rfl⟩

set_option backward.isDefEq.respectTransparency.types false in
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (Vf2 m) c).loose
  hwaits := Pipeline.hwaits_of_owed_zero _ _ _ _ L lv 1 fun _ _ => rfl
  pre c := iprop(StableHlo.held (c : Thread nD τ) (Pipeline.ucRefs τ sig) (Gen.V2 m (outsK m) c) ∗ R c)
  post c := iprop(StableHlo.held (c : Thread nD τ) (Pipeline.ucRefs τ sig) (Gen.V3 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (Vf2 m c)
  hentry c := by
    rw [Pipeline.ownSems0_none, V2_outsK]
    have hsplit : (unscopedBufs c (Vf2 m c) : sProp 𝕄)
        ⊢ iprop((pdats m 1 c).arrays ((pdats m 1 c).arrAt · 0) ∗ Pipeline.unscopedRest spec1 c (Vf2 m c)) :=
      entry1 m c (Vf2 m c) ((R1.dat1 (Vf2 m) c).arrAt · 0) (fun w => R1.A_eq1 (Vf2 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin1 (Vf2 m) c)
    unfold Pipeline.ΦA
    iintro ⟨Hp, -, Hr⟩
    isplitl [Hr]; · iexact Hr
    iexact Hp
  hout c := by
    rw [Pipeline.ownSems0_none]
    refine (R1.hout1 (Vf2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vf2 m c))
        ⊢ (unscopedBufs c (fun b => Gen.V3 m (outsK m) c b) : sProp 𝕄) :=
      exit1 m c (Vf2 m c) (fun b => Gen.V3 m (outsK m) c b) ((R1.dat1 (Vf2 m) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The last thread state without the `owes`: every unscoped buffer at the last valuation, the generator register at some state. -/
abbrev Tlast (c : Dev nD) : sProp 𝕄 :=
  iprop(StableHlo.held (c : Thread nD τ) (Pipeline.ucRefs τ sig) (Gen.V4 m (outsK m) c) ∗ ∃ r, prngReg c r)

/-- The last item's thread state regrouped: the buffers and the generator register on one side, the core owing nothing on the other. -/
theorem last_regroup (c : Dev nD) :
    iprop(StableHlo.held (c : Thread nD τ) (Pipeline.ucRefs τ sig) (Gen.V4 m (outsK m) c) ∗ R c)
      ⊢ (iprop(Tlast m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, and the final memory
    holds the result at the last valuation and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v8) = Gen.V4 m (outsK m) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_dev (pcfgs (F := F)) adm (pdats m) () cellOf_inj emb₁ defs₀ 𝒱₀ L lv m ρ main
    (Gen.segs m (outsK m) 𝒱₀ L lv (fun _ => R) () (pdats m) (reg0 m) (reg1 m))
    (fun c Q => by
      rewrite [main_chain c, Seg.run_eq_chain,
        show (Gen.segs m (outsK m) 𝒱₀ L lv (fun _ => R) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tlast m)
    (hch := fun c => ⟨.rfl, .rfl, .rfl, .rfl, last_regroup m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outsK m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outsK m) c) s')
      isplitl [Hh] <;> iassumption)
    (hQ := fun s h c =>
      ⟨h c _ (mem_uc main_v8 (by decide)),
        (h c _ (mem_uc main_arg0 (by decide))).trans (Gen.V4_main_arg0 m (outsK m) c),
        (h c _ (mem_uc main_arg1 (by decide))).trans (Gen.V4_main_arg1 m (outsK m) c),
        (h c _ (mem_uc main_arg2 (by decide))).trans (Gen.V4_main_arg2 m (outsK m) c),
        (h c _ (mem_uc main_arg3 (by decide))).trans (Gen.V4_main_arg3 m (outsK m) c)⟩)

end Cert.KernelIdeal.Run

end
-- ==== Proof.Bits.R0Body.lean ====
/-
  Region 0, the projection call, at any float instance and at any contents `V` of the core's buffers when the
  region is entered. At grid point `t` the body loads the block of rows `2048 t … 2048 t + 2047` of the
  memory matrix and the whole concatenated weight matrix, multiplies them into a zero accumulator, narrows
  the product and stores it as the block of the same rows of the result. So the result's staging buffer
  after the body is one function of the two input blocks; the inputs' buffers are left as found; nothing
  else is touched.
-/
import proofs.«136249_g33603824124095_fold_wed_c4_546_3_alg».proof.Proof.Gen.Kernel.Launch
import proofs.«136249_g33603824124095_fold_wed_c4_546_3_alg».proof.Proof.Gen.Kernel.Skeleton
import proofs.«136249_g33603824124095_fold_wed_c4_546_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole result block. -/
abbrev rOut : Rect S2048x2048 := Rect.unit (s := S2048x2048) ![0, 0] S2048x2048.size inb_S2048x2048_S2048x2048_0_0

/-- The two rectangles the body loads through: each input block whole. -/
abbrev rIn0 : Rect S2048x1024 := Rect.unit (s := S2048x1024) ![0, 0] S2048x1024.size inb_S2048x1024_S2048x1024_0_0
abbrev rIn1 : Rect S1024x2048 := Rect.unit (s := S1024x2048) ![0, 0] S1024x2048.size inb_S1024x2048_S1024x2048_0_0

/-- The result window's staging buffer after the body, from the two input blocks: the one store's payload of the two
    blocks as the body loads them (each through its whole rectangle). -/
def out0_2 (x0 : Vec F S2048x1024 .bf16) (x1 : Vec F S1024x2048 .bf16) : Vec F S2048x2048 .bf16 :=
  View.canon [⟨rOut, k0_pay1 (View.ld x0 rIn0) (View.ld x1 rIn1)⟩]

/-- The one store covers the buffer. -/
theorem cover0_2 (p0 : Vec F S2048x2048 .bf16) (y : S2048x2048.Idx) :
    ∃ pc ∈ ([⟨rOut, p0⟩] : List (View.Piece (Elt F) S2048x2048 .bf16)), y ∈ pc.1.set :=
  View.cover_of_tiled [⟨rOut, p0⟩] S2048x2048.size (by rfl) y

set_option maxHeartbeats 1000000 in
/-- The body on whole staging memrefs, the inputs' at contents `x0`, `x1` and the result's at anything, runs to the
    continuation holding the inputs' as they were and the result's at `out0_2 x0 x1`. -/
theorem sound_kernel0 (c : Dev nD) (E : Set ℕ) (i : grid0.Coords) (arg1 : Memref sig .tc .vmem S2048x1024 .bf16) (harg1 : arg1.IsWhole)
    (arg2 : Memref sig .tc .vmem S1024x2048 .bf16) (harg2 : arg2.IsWhole) (arg3 : Memref sig .tc .vmem S2048x2048 .bf16) (harg3 : arg3.IsWhole)
    (x0 : Vec F S2048x1024 .bf16) (x1 : Vec F S1024x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the result's at `out0_2` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.Bits.R1Body.lean ====
/-
  Region 1, the attention call, at any float instance and at any contents `V` of the core's buffers when the region
  is entered. The grid is 8 query blocks by 8 key/value blocks; point `t` is query block `t / 8`, key/value block
  `t % 8`. Three scratch buffers are carried from point to point: the unnormalised output `acc`, the running row
  maximum `mx` and the running row sum `l`. At a point with `t % 8 = 0` the body first resets them (zero, minus
  infinity, zero); at every point it rescales them by the exponential of the old maximum minus the new one and adds
  the block's contribution; at a point with `t % 8 = 7` it also stores the query block plus `acc / l` as the output
  block. The output window is idle at the other points.
-/
import proofs.«136249_g33603824124095_fold_wed_c4_546_3_alg».proof.Proof.Gen.Kernel.Launch
import proofs.«136249_g33603824124095_fold_wed_c4_546_3_alg».proof.Proof.Gen.Kernel.Skeleton
import proofs.«136249_g33603824124095_fold_wed_c4_546_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The carried state and one step of it -/

/-- The three carried scratch contents: `acc`, the running maximum, the running sum. -/
abbrev St (F : FTy → Type) [FloatOps F] : Type := Vec F S1024x1024 .f32 × Vec F S1024x1 .f32 × Vec F S1024x1 .f32

/-- What the reset stores: zero, minus infinity, zero. -/
def init1 : St F := (k1_pay3 (F := F), k1_pay4 (F := F), k1_pay5 (F := F))

/-- One point's update of the carried state from the query block `x`, the key block `k` and the value block `v`. -/
def step1 (x : Vec F S1024x1024 .f32) (k v : Vec F S1024x1024 .bf16) (s : St F) : St F :=
  (k1_pay1 (k1_pay12 x k s.2.1 s.1) (k1_pay13 x k s.2.1) v, k1_pay11 x k s.2.1, k1_pay10 x k s.2.1 s.2.2)

/-- The output block the last key/value block's point stores: the query block plus `acc / l`. -/
def outOf (x : Vec F S1024x1024 .f32) (s : St F) : Vec F S1024x1024 .f32 := k1_pay2 x s.1 s.2.2

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state after the body at position `n`: a fresh start at the first key/value block of a query block,
    else one step on from what the point before left. -/
def stAt1 (c : Dev nD) : (n : ℕ) → n < cfg1.N → St F
  | 0, hn => step1 (iblk1 V c 0 ⟨0, hn⟩) (iblk1 V c 1 ⟨0, hn⟩) (iblk1 V c 2 ⟨0, hn⟩) init1
  | n + 1, hn =>
    if (n + 1) % 8 = 0 then step1 (iblk1 V c 0 ⟨n + 1, hn⟩) (iblk1 V c 1 ⟨n + 1, hn⟩) (iblk1 V c 2 ⟨n + 1, hn⟩) init1
    else step1 (iblk1 V c 0 ⟨n + 1, hn⟩) (iblk1 V c 1 ⟨n + 1, hn⟩) (iblk1 V c 2 ⟨n + 1, hn⟩) (stAt1 c n (Nat.lt_of_succ_lt hn))

theorem stAt1_reset (c : Dev nD) (t : Fin cfg1.N) (h : t.val % 8 = 0) :
    stAt1 V c t.val t.isLt = step1 (iblk1 V c 0 t) (iblk1 V c 1 t) (iblk1 V c 2 t) init1 := by
  obtain ⟨n, hn⟩ := t
  cases n with
  | zero => exact rfl
  | succ n => exact (if_pos h).trans rfl

theorem stAt1_next (c : Dev nD) (t : Fin cfg1.N) (h : ¬ t.val % 8 = 0) :
    stAt1 V c t.val t.isLt = step1 (iblk1 V c 0 t) (iblk1 V c 1 t) (iblk1 V c 2 t)
      (stAt1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The body's branch conditions, decided over the grid -/

/-- The reset branch's condition, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The output branch's condition. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The scratch memrefs and the invariant between points -/

abbrev scAcc : Memref sig .tc .vmem S1024x1024 .f32 := Memref.whole cc1_scratch0
abbrev scMx : Memref sig .tc .vmem S1024x1 .f32 := Memref.whole cc1_scratch1
abbrev scL : Memref sig .tc .vmem S1024x1 .f32 := Memref.whole cc1_scratch2

/-- The scoped buffers that are neither a staging buffer of this call nor one of its scratch buffers (the other call's
    five staging buffers), each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Eight conjuncts, the first five grouped apart from the last three. -/
theorem sep_five_three (A1 A2 A3 A4 A5 S0 S1 S2 : sProp 𝕄) :
    iprop(A1 ∗ A2 ∗ A3 ∗ A4 ∗ A5 ∗ S0 ∗ S1 ∗ S2) = iprop((A1 ∗ A2 ∗ A3 ∗ A4 ∗ A5) ∗ S0 ∗ S1 ∗ S2) := by
  have h₁ : iprop(A1 ∗ A2 ∗ A3 ∗ A4 ∗ A5 ∗ S0 ∗ S1 ∗ S2) ⊢ iprop((A1 ∗ A2 ∗ A3 ∗ A4 ∗ A5) ∗ S0 ∗ S1 ∗ S2) := by
    iintro ⟨H1, H2, H3, H4, H5, H6, H7, H8⟩
    isplitl [H1 H2 H3 H4 H5]
    · isplitl [H1]; · iexact H1
      isplitl [H2]; · iexact H2
      isplitl [H3]; · iexact H3
      isplitl [H4]; · iexact H4
      iexact H5
    isplitl [H6]; · iexact H6
    isplitl [H7]; · iexact H7
    iexact H8
  have h₂ : iprop((A1 ∗ A2 ∗ A3 ∗ A4 ∗ A5) ∗ S0 ∗ S1 ∗ S2) ⊢ iprop(A1 ∗ A2 ∗ A3 ∗ A4 ∗ A5 ∗ S0 ∗ S1 ∗ S2) := by
    iintro ⟨⟨H1, H2, H3, H4, H5⟩, H6, H7, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  exact BI.equiv_iff.mp ⟨h₁, h₂⟩

/-- The class invariant with the three scratch buffers as memrefs owned at some contents. -/
theorem PhiA1_eq (c : Dev nD) :
    (Pipeline.ΦA spec1 c : sProp 𝕄)
      = iprop(iprop(otherScoped (F := F) c ∗ (∃ d, owns (c : Thread nD τ) scAcc fullShare d) ∗ (∃ d, owns (c : Thread nD τ) scMx fullShare d)
          ∗ (∃ d, owns (c : Thread nD τ) scL fullShare d)) ∗ (∃ r, prngReg c r)) := by
  unfold Pipeline.ΦA; rw [scopedRest1_eq]; unfold otherScoped; simp only [scAcc, scMx, scL, owns_whole]
  rw [sep_five_three]; rfl

/-- The invariant before position `n`: before the first point the class's; afterwards the three scratch buffers at what
    the point before left, the other scoped buffers at anything, the generator register at some state. -/
def PhiS (c : Dev nD) : (n : ℕ) → n ≤ cfg1.N → sProp 𝕄
  | 0, _ => Pipeline.ΦA spec1 c
  | n + 1, hn => iprop(iprop(otherScoped (F := F) c ∗ owns (c : Thread nD τ) scAcc fullShare (stAt1 V c n hn).1
      ∗ owns (c : Thread nD τ) scMx fullShare (stAt1 V c n hn).2.1 ∗ owns (c : Thread nD τ) scL fullShare (stAt1 V c n hn).2.2) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the three scratch buffers at that point's state. -/
theorem PhiS_succ (c : Dev nD) (n : ℕ) (hn : n < cfg1.N) :
    PhiS V c (n + 1) hn = iprop(iprop(otherScoped (F := F) c ∗ owns (c : Thread nD τ) scAcc fullShare (stAt1 V c n hn).1
      ∗ owns (c : Thread nD τ) scMx fullShare (stAt1 V c n hn).2.1 ∗ owns (c : Thread nD τ) scL fullShare (stAt1 V c n hn).2.2) ∗ (∃ r, prngReg c r)) := rfl

/-- Before a point that is not the first: the three scratch buffers at what the point before left. -/
theorem PhiS_pos (c : Dev nD) (n : ℕ) (h : n ≤ cfg1.N) (hz : n ≠ 0) :
    PhiS V c n h = iprop(iprop(otherScoped (F := F) c ∗ owns (c : Thread nD τ) scAcc fullShare (stAt1 V c (n - 1) (by omega)).1
      ∗ owns (c : Thread nD τ) scMx fullShare (stAt1 V c (n - 1) (by omega)).2.1
      ∗ owns (c : Thread nD τ) scL fullShare (stAt1 V c (n - 1) (by omega)).2.2) ∗ (∃ r, prngReg c r)) := by
  cases n with
  | zero => exact absurd rfl hz
  | succ n => rfl

/-! ## The proof data -/

/-- The proof data of pipeline 1 on core `c`. The key window and the value window read one array, each at half of its
    share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf (iblk1 V c 0 t) (stAt1 V c t.val t.isLt)
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf (iblk1 V c 0 t) (stAt1 V c t.val t.isLt) := by dsimp only [dat1]

theorem share1_0 (c : Dev nD) : (dat1 V c).share 0 = fullShare := by
  unfold Dat.share; rw [if_neg (by decide)]; dsimp only [dat1]
theorem share1_1 (c : Dev nD) : (dat1 V c).share 1 = fullShare.left := by
  unfold Dat.share; rw [if_neg (by decide)]; dsimp only [dat1]
theorem share1_2 (c : Dev nD) : (dat1 V c).share 2 = fullShare.right := by
  unfold Dat.share; rw [if_neg (by decide)]; dsimp only [dat1]
theorem share1_3 (c : Dev nD) : (dat1 V c).share 3 = fullShare := by
  unfold Dat.share; rw [if_pos (by decide)]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body on whole memrefs, one triple per control case -/

/-- The zero offsets, as the printed rectangles spell them, are zero. -/
theorem hz2 : (![0, 0] : Fin 2 → Nat) = fun _ => 0 := funext fun a => by fin_cases a <;> rfl

/-- A list of stores whose last is through the buffer's whole rectangle covers the buffer. -/
theorem cover_head {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons.mpr (Or.inl rfl), View.mem_set_unit_zero h inb y⟩

set_option maxHeartbeats 1000000 in
/-- Case B, neither branch taken: the three scratch buffers at the carried state `s` are left at `step1 x k v s`; the
    inputs' buffers and the output's are handed back as found. -/
theorem run1_B (c : Dev nD) (E : Set ℕ) (i : grid1.Coords) (hc0 : ¬cond1_0 i) (hc1 : ¬cond1_1 i)
    (arg2 : Memref sig .tc .vmem S1024x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1 .f32) (harg7 : arg7.IsWhole)
    (arg8 : Memref sig .tc .vmem S1024x1 .f32) (harg8 : arg8.IsWhole)
    (x : Vec F S1024x1024 .f32) (k v : Vec F S1024x1024 .bf16) (o : Vec F S1024x1024 .f32) (s : St F) (K : PUnit → sProp 𝕄) :
    iprop(owns (c : Thread nD τ) arg2 fullShare x ∗ owns (c : Thread nD τ) arg3 fullShare k ∗ owns (c : Thread nD τ) arg4 fullShare v
        ∗ owns (c : Thread nD τ) arg5 fullShare o
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x ∗ owns (c : Thread nD τ) arg3 fullShare k ∗ owns (c : Thread nD τ) arg4 fullShare v
            ∗ owns (c : Thread nD τ) arg5 fullShare o
            ∗ owns (c : Thread nD τ) arg6 fullShare (step1 x k v s).1 ∗ owns (c : Thread nD τ) arg7 fullShare (step1 x k v s).2.1
            ∗ owns (c : Thread nD τ) arg8 fullShare (step1 x k v s).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  isplitl [H6]
  · iexists _; isplitr
    swap; · iexact H6
    ipureintro
    sl_unfold_words
    rw [View.read_writes_eq_canon _ _ _ (cover_head hz2 _ _ _), View.canon_cons_unit_zero (S := S1024x1024) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2, step1]
  isplitl [H7]
  · iexists _; isplitr
    swap; · iexact H7
    ipureintro
    sl_unfold_words
    rw [View.read_writes_eq_canon _ _ _ (cover_head hz2 _ _ _), View.canon_cons_unit_zero (S := S1024x1) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2, step1]
  iexists _; isplitr
  swap; · iexact H8
  ipureintro
  sl_unfold_words
  rw [View.read_writes_eq_canon _ _ _ (cover_head hz2 _ _ _), View.canon_cons_unit_zero (S := S1024x1) hz2]
  simp only [View.readAt_eq_ld, harg2.read_unread, harg3.read_unread, harg4.read_unread, harg6.read_unread, harg7.read_unread,
    harg8.read_unread, View.ld_unit_zero (S := S1024x1024) hz2, View.ld_unit_zero (S := S1024x1) hz2, step1]

set_option maxHeartbeats 1000000 in
/-- Case C, the output branch alone: the three scratch buffers at the carried state `s` are left at `step1 x k v s`, and the
    output's buffer, at anything, is left at `outOf x (step1 x k v s)`; the inputs' buffers are handed back as found. -/
theorem run1_C (c : Dev nD) (E : Set ℕ) (i : grid1.Coords) (hc0 : ¬cond1_0 i) (hc1 : cond1_1 i)
    (arg2 : Memref sig .tc .vmem S1024x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1 .f32) (harg7 : arg7.IsWhole)
    (arg8 : Memref sig .tc .vmem S1024x1 .f32) (harg8 : arg8.IsWhole)
    (x : Vec F S1024x1024 .f32) (k v : Vec F S1024x1024 .bf16) (s : St F) (K : PUnit → sProp 𝕄) :
    iprop(owns (c : Thread nD τ) arg2 fullShare x ∗ owns (c : Thread nD τ) arg3 fullShare k ∗ owns (c : Thread nD τ) arg4 fullShare v
        ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x ∗ owns (c : Thread nD τ) arg3 fullShare k ∗ owns (c : Thread nD τ) arg4 fullShare v
            ∗ owns (c : Thread nD τ) arg5 fullShare (outOf x (step1 x k v s))
            ∗ owns (c : Thread nD τ) arg6 fullShare (step1 x k v s).1 ∗ owns (c : Thread nD τ) arg7 fullShare (step1 x k v s).2.1
            ∗ owns (c : Thread nD τ) arg8 fullShare (step1 x k v s).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (cover_head hz2 _ _ _), View.canon_cons_unit_zero (S := S1024x1024) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2,
      View.readCov_unit_zero (S := S1024x1024) _ hz2, View.readCov_unit_zero (S := S1024x1) _ hz2, step1, outOf]
  isplitl [H6]
  · iexists _; isplitr
    swap; · iexact H6
    ipureintro
    sl_unfold_words
    rw [View.read_writes_eq_canon _ _ _ (cover_head hz2 _ _ _), View.canon_cons_unit_zero (S := S1024x1024) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2,
      View.readCov_unit_zero (S := S1024x1024) _ hz2, View.readCov_unit_zero (S := S1024x1) _ hz2, step1]
  isplitl [H7]
  · iexists _; isplitr
    swap; · iexact H7
    ipureintro
    sl_unfold_words
    rw [View.read_writes_eq_canon _ _ _ (cover_head hz2 _ _ _), View.canon_cons_unit_zero (S := S1024x1) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2,
      View.readCov_unit_zero (S := S1024x1024) _ hz2, View.readCov_unit_zero (S := S1024x1) _ hz2, step1]
  iexists _; isplitr
  swap; · iexact H8
  ipureintro
  sl_unfold_words
  rw [View.read_writes_eq_canon _ _ _ (cover_head hz2 _ _ _), View.canon_cons_unit_zero (S := S1024x1) hz2]
  simp only [View.readAt_eq_ld, harg2.read_unread, harg3.read_unread, harg4.read_unread, harg6.read_unread, harg7.read_unread,
    harg8.read_unread, View.ld_unit_zero (S := S1024x1024) hz2, View.ld_unit_zero (S := S1024x1) hz2,
    View.readCov_unit_zero (S := S1024x1024) _ hz2, View.readCov_unit_zero (S := S1024x1) _ hz2, step1]

set_option maxHeartbeats 1000000 in
/-- Case A, the reset branch alone: the three scratch buffers, at anything, are reset and left at `step1 x k v init1`; the
    inputs' buffers and the output's are handed back as found. -/
theorem run1_A (c : Dev nD) (E : Set ℕ) (i : grid1.Coords) (hc0 : cond1_0 i) (hc1 : ¬cond1_1 i)
    (arg2 : Memref sig .tc .vmem S1024x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1 .f32) (harg7 : arg7.IsWhole)
    (arg8 : Memref sig .tc .vmem S1024x1 .f32) (harg8 : arg8.IsWhole)
    (x : Vec F S1024x1024 .f32) (k v : Vec F S1024x1024 .bf16) (o : Vec F S1024x1024 .f32) (K : PUnit → sProp 𝕄) :
    iprop(owns (c : Thread nD τ) arg2 fullShare x ∗ owns (c : Thread nD τ) arg3 fullShare k ∗ owns (c : Thread nD τ) arg4 fullShare v
        ∗ owns (c : Thread nD τ) arg5 fullShare o
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare k ∗ owns (c : Thread nD τ) arg4 fullShare v
            ∗ owns (c : Thread nD τ) arg5 fullShare o
            ∗ owns (c : Thread nD τ) arg6 fullShare (step1 x k v (init1 (F := F))).1 ∗ owns (c : Thread nD τ) arg7 fullShare (step1 x k v (init1 (F := F))).2.1
            ∗ owns (c : Thread nD τ) arg8 fullShare (step1 x k v (init1 (F := F))).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  isplitl [H6]
  · iexists _; isplitr
    swap; · iexact H6
    ipureintro
    sl_unfold_words
    rw [View.read_writes_eq_canon _ _ _ (cover_head hz2 _ _ _), View.canon_cons_unit_zero (S := S1024x1024) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2,
      View.readCov_unit_zero (S := S1024x1024) _ hz2, View.readCov_unit_zero (S := S1024x1) _ hz2, step1, init1]
  isplitl [H7]
  · iexists _; isplitr
    swap; · iexact H7
    ipureintro
    sl_unfold_words
    rw [View.read_writes_eq_canon _ _ _ (cover_head hz2 _ _ _), View.canon_cons_unit_zero (S := S1024x1) hz2]
    simp only [View.readAt_eq_ld, harg2.read_unread, harg3.read_unread, harg4.read_unread, harg6.read_unread, harg7.read_unread,
      harg8.read_unread, View.ld_unit_zero (S := S1024x1024) hz2, View.ld_unit_zero (S := S1024x1) hz2,
      View.readCov_unit_zero (S := S1024x1024) _ hz2, View.readCov_unit_zero (S := S1024x1) _ hz2, step1, init1]
  iexists _; isplitr
  swap; · iexact H8
  ipureintro
  sl_unfold_words
  rw [View.read_writes_eq_canon _ _ _ (cover_head hz2 _ _ _), View.canon_cons_unit_zero (S := S1024x1) hz2]
  simp only [View.readAt_eq_ld, harg2.read_unread, harg3.read_unread, harg4.read_unread, harg6.read_unread, harg7.read_unread,
    harg8.read_unread, View.ld_unit_zero (S := S1024x1024) hz2, View.ld_unit_zero (S := S1024x1) hz2,
    View.readCov_unit_zero (S := S1024x1024) _ hz2, View.readCov_unit_zero (S := S1024x1) _ hz2, step1, init1]

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output branch is not taken the output window is idle, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is taken the output window is live. -/
theorem liveAt1_3 : ∀ t : Fin cfg1.N, cond1_1 (grid1.coords t) → cfg1.idle 3 (grid1.coords t) = false := by decide +kernel

/-- Each window's current staging memref at point `t`, spelt as the pipeline passes it to the body. -/
abbrev ms1_0 (t : Fin cfg1.N) : Memref sig .tc .vmem S1024x1024 .f32 := win1_0.stage (cfg1.slots t 0)
abbrev ms1_1 (t : Fin cfg1.N) : Memref sig .tc .vmem S1024x1024 .bf16 := win1_1.stage (cfg1.slots t 1)
abbrev ms1_2 (t : Fin cfg1.N) : Memref sig .tc .vmem S1024x1024 .bf16 := win1_2.stage (cfg1.slots t 2)
abbrev ms1_3 (t : Fin cfg1.N) : Memref sig .tc .vmem S1024x1024 .f32 := win1_3.stage (cfg1.slots t 3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point. The inputs' buffers hold their blocks; `t % 8` says which case the point is in; the invariant
    hands the body the scratch buffers at what the point before left (at anything before the first point) and takes them
    back at this point's state; where the output branch is not taken the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [stAt1_reset V c t h0]
    by_cases hz : t.val = 0
    · rw [PhiS_castSucc V c t, PhiS_zero V c _ _ hz, PhiA1_eq]
      iintro ⟨⟨⟨Ho, HA, HM, HL⟩, Hg⟩, Hw, ⟨%d0, H0⟩, ⟨%d1, H1⟩, ⟨%d2, H2⟩, ⟨%d3, H3⟩⟩
      iapply (run1_A c Set.univ (grid1.coords t) hc0 hc1 _ _ _ _ _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HA]; · iexact HA
      isplitl [HM]; · iexact HM
      isplitl [HL]; · iexact HL
      iintro ⟨H0, H1, H2, H3, HA, HM, HL⟩
      isplitl [Ho HA HM HL Hg]
      · isplitl [Ho HA HM HL]
        · isplitl [Ho]; · iexact Ho
          isplitl [HA]; · iexact HA
          isplitl [HM]; · iexact HM
          iexact HL
        iexact Hg
      isplitl [Hw]; · iexact Hw
      isplitl [H0]; · iexact H0
      isplitl [H1]; · iexact H1
      isplitl [H2]; · iexact H2
      iexists _; iexact H3
    · rw [PhiS_castSucc V c t, PhiS_pos V c _ _ hz]
      iintro ⟨⟨⟨Ho, HA, HM, HL⟩, Hg⟩, Hw, ⟨%d0, H0⟩, ⟨%d1, H1⟩, ⟨%d2, H2⟩, ⟨%d3, H3⟩⟩
      iapply (run1_A c Set.univ (grid1.coords t) hc0 hc1 _ _ _ _ _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HA]; · iexists _; iexact HA
      isplitl [HM]; · iexists _; iexact HM
      isplitl [HL]; · iexists _; iexact HL
      iintro ⟨H0, H1, H2, H3, HA, HM, HL⟩
      isplitl [Ho HA HM HL Hg]
      · isplitl [Ho HA HM HL]
        · isplitl [Ho]; · iexact Ho
          isplitl [HA]; · iexact HA
          isplitl [HM]; · iexact HM
          iexact HL
        iexact Hg
      isplitl [Hw]; · iexact Hw
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    rw [stAt1_next V c t h0]
    rw [PhiS_castSucc V c t, PhiS_pos V c _ _ hz]
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, stAt1_next V c t h0]
      iintro ⟨⟨⟨Ho, HA, HM, HL⟩, Hg⟩, Hw, ⟨%d0, H0⟩, ⟨%d1, H1⟩, ⟨%d2, H2⟩, ⟨%d3, H3⟩⟩
      iapply (run1_C c Set.univ (grid1.coords t) hc0 hc1 _ _ _ _ _ _ _ _ _ _ _ _ _ _
        (iblk1 V c 0 t) (iblk1 V c 1 t) (iblk1 V c 2 t)
        (stAt1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HA]; · iexact HA
      isplitl [HM]; · iexact HM
      isplitl [HL]; · iexact HL
      iintro ⟨H0, H1, H2, H3, HA, HM, HL⟩
      isplitl [Ho HA HM HL Hg]
      · isplitl [Ho HA HM HL]
        · isplitl [Ho]; · iexact Ho
          isplitl [HA]; · iexact HA
          isplitl [HM]; · iexact HM
          iexact HL
        iexact Hg
      isplitl [Hw]; · iexact Hw
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨Ho, HA, HM, HL⟩, Hg⟩, Hw, ⟨%d0, H0⟩, ⟨%d1, H1⟩, ⟨%d2, H2⟩, ⟨%d3, H3⟩⟩
      iapply (run1_B c Set.univ (grid1.coords t) hc0 hc1 _ _ _ _ _ _ _ _ _ _ _ _ _ _
        (iblk1 V c 0 t) (iblk1 V c 1 t) (iblk1 V c 2 t) ((dat1 V c).before 3 t d3)
        (stAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HA]; · iexact HA
      isplitl [HM]; · iexact HM
      isplitl [HL]; · iexact HL
      iintro ⟨H0, H1, H2, H3, HA, HM, HL⟩
      isplitl [Ho HA HM HL Hg]
      · isplitl [Ho HA HM HL]
        · isplitl [Ho]; · iexact Ho
          isplitl [HA]; · iexact HA
          isplitl [HM]; · iexact HM
          iexact HL
        iexact Hg
      isplitl [Hw]; · iexact Hw
      isplitl [H0]; · iexact H0
      isplitl [H1]; · iexact H1
      isplitl [H2]; · iexact H2
      iexists _; iexact H3

/-! ## The body obligation and the invariant's two ends -/

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ho, HA, HM, HL⟩, Hg⟩
  isplitr [Hg]
  · isplitl [Ho]; · iexact Ho
    isplitl [HA]; · iexists _; iexact HA
    isplitl [HM]; · iexists _; iexact HM
    iexists _; iexact HL
  iexact Hg

/-- After the last point the invariant gives the class's back: the scratch contents are forgotten. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.R1

end
-- ==== Proof.Bits.Regs.lean ====
/-
  The whole run of the kernel's program, at any float instance: the host operations before the two calls, the projection
  call, the attention call, the closing reshape. Between two items the core holds every unscoped buffer at a known
  valuation: the launch memory, then what the host operations compute from it, then the projection's result array
  replaced by what its write-backs leave, then the attention's result array likewise, then the reshape of that. The
  attention call reads the projection's result through TWO windows (its left half of columns as keys, its right half as
  values), so on entry that array's ownership is cut into two halves, one per window, and joined again on exit.
  Every weakly fair execution terminates; the final memory has the result at the last valuation and the four arguments
  as launched.
-/
import proofs.«136249_g33603824124095_fold_wed_c4_546_3_alg».proof.Proof.Bits.R0Body
import proofs.«136249_g33603824124095_fold_wed_c4_546_3_alg».proof.Proof.Bits.R1Body
import proofs.«136249_g33603824124095_fold_wed_c4_546_3_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the two calls leave, and the valuations between the items -/

/-- The buffers as the projection call finds them: the launch memory after the host operations before it. -/
abbrev Vf1 (c : Dev nD) (b : Ref sig .tc) : Buf (Elt F) ((c : Thread nD τ).loc b) := Gen.V1 m c b

/-- What the projection call leaves in its result array. -/
def o6 (c : Dev nD) : Buf (Elt F) ((c : Thread nD τ).loc main_v6) := (R0.dat0 (Vf1 m) c).arrAt 2 cfg0.N

/-- The unknowns of the generated valuations with the projection's result filled in. -/
def outs6 : Gen.Outs (F := F) := fun _ r c => if h : r = main_v6 then h ▸ o6 m c else m ((c : Thread nD τ).loc r)

/-- The buffers as the attention call finds them. -/
abbrev Vf2 (c : Dev nD) (b : Ref sig .tc) : Buf (Elt F) ((c : Thread nD τ).loc b) := Gen.V2 m (outs6 m) c b

/-- What the attention call leaves in its result array. -/
def o7 (c : Dev nD) : Buf (Elt F) ((c : Thread nD τ).loc main_v7) := (R1.dat1 (Vf2 m) c).arrAt 3 cfg1.N

/-- Both results filled in. -/
def outsK : Gen.Outs (F := F) := fun _ r c =>
  if h : r = main_v6 then h ▸ o6 m c else if h' : r = main_v7 then h' ▸ o7 m c else m ((c : Thread nD τ).loc r)

theorem outsK_v6 (n : ℕ) (c : Dev nD) : outsK m n main_v6 c = o6 m c := by
  unfold outsK; rw [dif_pos rfl]
theorem outs6_v6 (n : ℕ) (c : Dev nD) : outs6 m n main_v6 c = o6 m c := by
  unfold outs6; rw [dif_pos rfl]
theorem outsK_v7 (n : ℕ) (c : Dev nD) : outsK m n main_v7 c = o7 m c := by
  unfold outsK; rw [dif_neg (by decide), dif_pos rfl]

/-- The valuation after the projection call does not depend on the attention's result. -/
theorem V2_outsK (c : Dev nD) : Gen.V2 m (outsK m) c = Gen.V2 m (outs6 m) c := by
  unfold Gen.V2; rw [outsK_v6, outs6_v6]

/-- As the attention call finds it, the projection's result array holds what the projection call left there; -/
theorem Vf2_v6 (c : Dev nD) : Vf2 m c main_v6 = o6 m c := by
  show Gen.V2 m (outs6 m) c main_v6 = o6 m c
  unfold Gen.V2; rw [Function.update_self, outs6_v6]

/-- every other buffer what the host operations before the calls computed. -/
theorem Vf2_of (c : Dev nD) (r : Ref sig .tc) (h : r ∉ ([main_v6] : List (Ref sig .tc))) : Vf2 m c r = Gen.V1 m c r :=
  Gen.V2_of m (outs6 m) c r h

/-! ## The proof data family and what rides beside the buffers -/

abbrev adm : (p : Fin 2) → (pcfgs (F := F) p).Adm := fun p => (cfgs p).toPCfg_adm

/-- Every pipeline's proof data, each at its call's entry contents: a literal match. -/
def pdats : (p : Fin 2) → (c : Dev nD) → Dat τ (Elt F) Unit ℕ (UR sig nD τ) ℕ (Pipeline.pin (pcfgs (F := F)) adm p) c
  | ⟨0, _⟩ => fun c => R0.dat0 (Vf1 m) c
  | ⟨1, _⟩ => fun c => R1.dat1 (Vf2 m) c

abbrev 𝒱₀ : Variants := Variants.none
abbrev L : GSem nD τ sig → Finset Unit := fun _ => ∅
abbrev lv : GSem nD τ sig → Unit → ℕ := fun _ _ => 0

/-- What rides beside the buffers through every item: the generator register at some state, and the core owing nothing. -/
abbrev R (c : Dev nD) : sProp 𝕄 := iprop((∃ r, prngReg c r) ∗ ∃ W, owes (c : Thread nD τ) (0 : CellTallies nD τ sig Unit) W)

/-! ## The projection call as a segment -/

theorem hF0 (c : Dev nD) (w : Fin cfg0.W) : (pdats m 0 c).arrAt w cfg0.N = Gen.V2 m (outsK m) c (Pipeline.arrRef spec0 w) := by
  match w with
  | ⟨0, _⟩ =>
    exact (((R0.dat0 (Vf1 m) c).arrAt_in 0 rfl _).trans (R0.A_eq0 (Vf1 m) c 0)).trans (Gen.V2_of m (outsK m) c main_v5 (by decide)).symm
  | ⟨1, _⟩ =>
    exact (((R0.dat0 (Vf1 m) c).arrAt_in 1 rfl _).trans (R0.A_eq0 (Vf1 m) c 1)).trans (Gen.V2_of m (outsK m) c main_v4 (by decide)).symm
  | ⟨2, _⟩ =>
    show o6 m c = Gen.V2 m (outsK m) c main_v6
    unfold Gen.V2; rw [Function.update_self, outsK_v6]

theorem hrest0 (c : Dev nD) : ∀ b, b ∉ Finset.univ.image (Pipeline.arrRef spec0) → Gen.V2 m (outsK m) c b = Gen.V1 m c b := by
  intro b hb
  refine Gen.V2_of m (outsK m) c b fun h => hb ?_
  rw [List.mem_singleton] at h; subst h
  exact Finset.mem_image.mpr ⟨2, Finset.mem_univ _, rfl⟩

set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (Vf1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vf1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vf1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vf1 m c) (fun b => Gen.V2 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention call as a segment: one array behind two windows -/

/-- The buffers behind the attention call's four windows: the reshaped queries, the projection's result (twice), its own result. -/
theorem image1 : Finset.univ.image (Pipeline.arrRef spec1) = {main_v0, main_v6, main_v7} := by decide

/-- Those three buffers, each whole at the full share. -/
theorem arrBufs1 (c : Dev nD) (V : (b : Ref sig .tc) → Buf (Elt F) ((c : Thread nD τ).loc b)) :
    (Pipeline.arrBufs spec1 c V : sProp 𝕄)
      = iprop((((c : Thread nD τ).loc main_v0) ↦{fullShare} V main_v0) ∗ (((c : Thread nD τ).loc main_v6) ↦{fullShare} V main_v6)
          ∗ (((c : Thread nD τ).loc main_v7) ↦{fullShare} V main_v7)) := by
  unfold Pipeline.arrBufs
  rw [image1, BI.bigSep_insert (by decide), BI.bigSep_insert (by decide), BI.bigSep_singleton]
  rfl

/-- The call's arrays at contents `G`: the queries whole, the projection's result once at the left half share (the key
    window) and once at the right half (the value window), the result whole. -/
theorem arrays1_eq (c : Dev nD) (G : (w : Fin cfg1.W) → Buf (Elt F) ((cfg1.win w).arr.view.loc (c.tc : Thread nD τ))) :
    ((R1.dat1 (Vf2 m) c).arrays G : sProp 𝕄)
      = iprop((((c : Thread nD τ).loc main_v0) ↦{fullShare} G 0) ∗ (((c : Thread nD τ).loc main_v6) ↦{fullShare.left} G 1)
          ∗ (((c : Thread nD τ).loc main_v6) ↦{fullShare.right} G 2) ∗ (((c : Thread nD τ).loc main_v7) ↦{fullShare} G 3)) := by
  unfold Dat.arrays
  rw [bigSep_W1, R1.share1_0, R1.share1_1, R1.share1_2, R1.share1_3,
    (arr_whole1 0).set_eq_univ, (arr_whole1 1).set_eq_univ, (arr_whole1 3).set_eq_univ]

/-- ENTRY: the core's unscoped buffers at `V` are the call's arrays at contents read off `V`, the projection's result cut
    into its two half shares, and the unscoped rest. -/
theorem entry1 (c : Dev nD) (V : (b : Ref sig .tc) → Buf (Elt F) ((c : Thread nD τ).loc b))
    (G : (w : Fin cfg1.W) → Buf (Elt F) ((cfg1.win w).arr.view.loc (c.tc : Thread nD τ))) (hG : ∀ w, G w = V (Pipeline.arrRef spec1 w)) :
    (unscopedBufs c V : sProp 𝕄) ⊢ iprop((R1.dat1 (Vf2 m) c).arrays G ∗ Pipeline.unscopedRest spec1 c V) := by
  have h0 : G 0 = V main_v0 := hG 0
  have h1 : G 1 = V main_v6 := hG 1
  have h2 : G 2 = V main_v6 := hG 2
  have h3 : G 3 = V main_v7 := hG 3
  rw [Pipeline.unscopedBufs_split₀ cfgs 1 winFacts₀1.arr_unscoped c V]
  refine sep_mono ?_ .rfl
  show (Pipeline.arrBufs spec1 c V : sProp 𝕄) ⊢ _
  rw [arrBufs1, arrays1_eq, h0, h1, h2, h3]
  iintro ⟨H0, H6, H7⟩
  ihave H6' := (pointsTo_share (PosShare.mem_left_op_right fullShare)).1 $$ H6
  icases H6' with ⟨H6l, H6r⟩
  isplitl [H0]; · iexact H0
  isplitl [H6l]; · iexact H6l
  isplitl [H6r]; · iexact H6r
  iexact H7

/-- EXIT: the call's arrays at contents `G` and the unscoped rest at `V` are the core's unscoped buffers at any valuation `V'`
    that has the arrays at `G` and agrees with `V` off them: the two halves of the projection's result, holding the same
    contents, are one whole again. -/
theorem exit1 (c : Dev nD) (V V' : (b : Ref sig .tc) → Buf (Elt F) ((c : Thread nD τ).loc b))
    (G : (w : Fin cfg1.W) → Buf (Elt F) ((cfg1.win w).arr.view.loc (c.tc : Thread nD τ))) (hG : ∀ w, G w = V' (Pipeline.arrRef spec1 w))
    (hrest : ∀ b, b ∉ Finset.univ.image (Pipeline.arrRef spec1) → V' b = V b) :
    iprop((R1.dat1 (Vf2 m) c).arrays G ∗ Pipeline.unscopedRest spec1 c V) ⊢ (unscopedBufs c V' : sProp 𝕄) := by
  have h0 : G 0 = V' main_v0 := hG 0
  have h1 : G 1 = V' main_v6 := hG 1
  have h2 : G 2 = V' main_v6 := hG 2
  have h3 : G 3 = V' main_v7 := hG 3
  rw [Pipeline.unscopedBufs_split₀ cfgs 1 winFacts₀1.arr_unscoped c V']
  refine sep_mono ?_ (Entails.of_eq ?_)
  · show _ ⊢ (Pipeline.arrBufs spec1 c V' : sProp 𝕄)
    rw [arrBufs1, arrays1_eq, h0, h1, h2, h3]
    iintro ⟨H0, H6l, H6r, H7⟩
    isplitl [H0]; · iexact H0
    isplitl [H6l H6r]
    · iapply (pointsTo_share (PosShare.mem_left_op_right fullShare)).2
      isplitl [H6l]; · iexact H6l
      iexact H6r
    iexact H7
  · unfold Pipeline.unscopedRest
    exact bigSep_congr fun b hb => by rw [hrest b (Finset.mem_sdiff.mp hb).2]

theorem hF1 (c : Dev nD) (w : Fin cfg1.W) : (R1.dat1 (Vf2 m) c).arrAt w cfg1.N = Gen.V3 m (outsK m) c (Pipeline.arrRef spec1 w) := by
  match w with
  | ⟨0, _⟩ =>
    exact (((R1.dat1 (Vf2 m) c).arrAt_in 0 rfl _).trans (R1.A_eq1 (Vf2 m) c 0)).trans
      (((Gen.V3_of m (outsK m) c main_v0 (by decide)).trans (congrFun (V2_outsK m c) _)).symm)
  | ⟨1, _⟩ =>
    exact (((R1.dat1 (Vf2 m) c).arrAt_in 1 rfl _).trans (R1.A_eq1 (Vf2 m) c 1)).trans
      (((Gen.V3_of m (outsK m) c main_v6 (by decide)).trans (congrFun (V2_outsK m c) _)).symm)
  | ⟨2, _⟩ =>
    exact (((R1.dat1 (Vf2 m) c).arrAt_in 2 rfl _).trans (R1.A_eq1 (Vf2 m) c 2)).trans
      (((Gen.V3_of m (outsK m) c main_v6 (by decide)).trans (congrFun (V2_outsK m c) _)).symm)
  | ⟨3, _⟩ =>
    show o7 m c = Gen.V3 m (outsK m) c main_v7
    unfold Gen.V3; rw [Function.update_self, outsK_v7]

theorem hrest1 (c : Dev nD) : ∀ b, b ∉ Finset.univ.image (Pipeline.arrRef spec1) → Gen.V3 m (outsK m) c b = Vf2 m c b := by
  intro b hb
  refine (Gen.V3_of m (outsK m) c b fun h => hb ?_).trans (congrFun (V2_outsK m c) _)
  rw [List.mem_singleton] at h; subst h
  exact Finset.mem_image.mpr ⟨3, Finset.mem_univ _, rfl⟩

set_option backward.isDefEq.respectTransparency.types false in
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (Vf2 m) c).loose
  hwaits := Pipeline.hwaits_of_owed_zero _ _ _ _ L lv 1 fun _ _ => rfl
  pre c := iprop(StableHlo.held (c : Thread nD τ) (Pipeline.ucRefs τ sig) (Gen.V2 m (outsK m) c) ∗ R c)
  post c := iprop(StableHlo.held (c : Thread nD τ) (Pipeline.ucRefs τ sig) (Gen.V3 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (Vf2 m c)
  hentry c := by
    rw [Pipeline.ownSems0_none, V2_outsK]
    have hsplit : (unscopedBufs c (Vf2 m c) : sProp 𝕄)
        ⊢ iprop((pdats m 1 c).arrays ((pdats m 1 c).arrAt · 0) ∗ Pipeline.unscopedRest spec1 c (Vf2 m c)) :=
      entry1 m c (Vf2 m c) ((R1.dat1 (Vf2 m) c).arrAt · 0) (fun w => R1.A_eq1 (Vf2 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin1 (Vf2 m) c)
    unfold Pipeline.ΦA
    iintro ⟨Hp, -, Hr⟩
    isplitl [Hr]; · iexact Hr
    iexact Hp
  hout c := by
    rw [Pipeline.ownSems0_none]
    refine (R1.hout1 (Vf2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vf2 m c))
        ⊢ (unscopedBufs c (fun b => Gen.V3 m (outsK m) c b) : sProp 𝕄) :=
      exit1 m c (Vf2 m c) (fun b => Gen.V3 m (outsK m) c b) ((R1.dat1 (Vf2 m) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The last thread state without the `owes`: every unscoped buffer at the last valuation, the generator register at some state. -/
abbrev Tlast (c : Dev nD) : sProp 𝕄 :=
  iprop(StableHlo.held (c : Thread nD τ) (Pipeline.ucRefs τ sig) (Gen.V4 m (outsK m) c) ∗ ∃ r, prngReg c r)

/-- The last item's thread state regrouped: the buffers and the generator register on one side, the core owing nothing on the other. -/
theorem last_regroup (c : Dev nD) :
    iprop(StableHlo.held (c : Thread nD τ) (Pipeline.ucRefs τ sig) (Gen.V4 m (outsK m) c) ∗ R c)
      ⊢ (iprop(Tlast m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, and the final memory
    holds the result at the last valuation and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v8) = Gen.V4 m (outsK m) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_dev (pcfgs (F := F)) adm (pdats m) () cellOf_inj emb₁ defs₀ 𝒱₀ L lv m ρ main
    (Gen.segs m (outsK m) 𝒱₀ L lv (fun _ => R) () (pdats m) (reg0 m) (reg1 m))
    (fun c Q => by
      rewrite [main_chain c, Seg.run_eq_chain,
        show (Gen.segs m (outsK m) 𝒱₀ L lv (fun _ => R) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tlast m)
    (hch := fun c => ⟨.rfl, .rfl, .rfl, .rfl, last_regroup m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outsK m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outsK m) c) s')
      isplitl [Hh] <;> iassumption)
    (hQ := fun s h c =>
      ⟨h c _ (mem_uc main_v8 (by decide)),
        (h c _ (mem_uc main_arg0 (by decide))).trans (Gen.V4_main_arg0 m (outsK m) c),
        (h c _ (mem_uc main_arg1 (by decide))).trans (Gen.V4_main_arg1 m (outsK m) c),
        (h c _ (mem_uc main_arg2 (by decide))).trans (Gen.V4_main_arg2 m (outsK m) c),
        (h c _ (mem_uc main_arg3 (by decide))).trans (Gen.V4_main_arg3 m (outsK m) c)⟩)

end Cert.Kernel.Run

end
-- ==== Proof.FlashSpec.lean ====
/-
  The online softmax, as pure mathematics on the extended reals. One output entry of the attention is fixed: a row of
  8192 real logits `x`, cut into 8 blocks of 1024, and the matching 8192 real values `v` of one column. The kernel keeps
  a triple (acc, mx, l), starts it at (0, minus infinity, 0) and, block by block, replaces `mx` by the larger of `mx`
  and the block's maximum, multiplies `acc` and `l` by the exponential of the old `mx` minus the new one, and adds the
  block's sums of `exp (x - mx) * v` and of `exp (x - mx)`. After the last block `acc / l` is the softmax-weighted mean
  of `v`: with `M` the maximum of all logits, (the sum of exp (x - M) * v) / (the sum of exp (x - M)), which is also the
  sum of (exp (x - M) / the sum of exp (x - M)) * v, the form the reference computes. The first block's rescaling factor
  is exp (minus infinity) = 0 against a zero state, so nothing but real arithmetic is ever needed after it.
-/
import Idealize.ShloMosaic.PureOps.Ideal
import Mathlib.Analysis.SpecialFunctions.Exp
import Mathlib.Algebra.BigOperators.Fin
import Mathlib.Data.Finset.Fold
import Mathlib.Data.Finset.Lattice.Fold
import Mathlib.Data.Fintype.BigOperators
import Mathlib.Data.EReal.Operations
import Mathlib.Logic.Equiv.Fin.Basic
import Mathlib.Order.MinMax
import Mathlib.Tactic.Ring

noncomputable section

open scoped BigOperators

namespace Cert.Flash

open Idealize.ShloMosaic

/-- The carried triple: acc, mx, l. -/
abbrev S3 : Type := EReal × EReal × EReal

/-- Where a query block starts. -/
def init : S3 := (0, ⊥, 0)

/-- One key/value block of logits `xs` and values `vs`. -/
def step (xs vs : Fin 1024 → EReal) (s : S3) : S3 :=
  (s.1 * Ideal.exp (s.2.1 - max s.2.1 (Finset.univ.fold max ⊥ xs))
      + ∑ b, Ideal.exp (xs b - max s.2.1 (Finset.univ.fold max ⊥ xs)) * vs b,
    max s.2.1 (Finset.univ.fold max ⊥ xs),
    s.2.2 * Ideal.exp (s.2.1 - max s.2.1 (Finset.univ.fold max ⊥ xs))
      + ∑ b, Ideal.exp (xs b - max s.2.1 (Finset.univ.fold max ⊥ xs)))

/-- The triple after the first `j` blocks. -/
def run (x v : Fin 8 → Fin 1024 → EReal) : ℕ → S3
  | 0 => init
  | j + 1 => if h : j < 8 then step (x ⟨j, h⟩) (v ⟨j, h⟩) (run x v j) else run x v j

/-- A row of 8192 read as 8 blocks of 1024: entry `n` is entry `n % 1024` of block `n / 1024`. -/
def flat (x : Fin 8 → Fin 1024 → ℝ) (n : Fin 8192) : ℝ :=
  x ⟨n.val / 1024, by have := n.isLt; omega⟩ ⟨n.val % 1024, Nat.mod_lt _ (by norm_num)⟩

/-- The maximum of a row of 8192 reals. -/
def rowMax (y : Fin 8192 → ℝ) : ℝ := Finset.univ.sup' Finset.univ_nonempty y

/-- The softmax-weighted mean of `w` under the logits `y`. -/
def softMean (y w : Fin 8192 → ℝ) : ℝ :=
  (∑ n, Real.exp (y n - rowMax y) * w n) / (∑ n, Real.exp (y n - rowMax y))

/-! ### Coercions of finite sums and maxima -/

/-- The coercion of a finite real sum is the sum of the coercions. -/
theorem ereal_coe_sum {ι : Type*} (s : Finset ι) (f : ι → ℝ) :
    ((∑ i ∈ s, f i : ℝ) : EReal) = ∑ i ∈ s, ((f i : ℝ) : EReal) := by
  classical
  induction s using Finset.induction_on with
  | empty => simp only [Finset.sum_empty, EReal.coe_zero]
  | insert a s ha ih => rw [Finset.sum_insert ha, Finset.sum_insert ha, EReal.coe_add, ih]

/-- The coercion of the larger of two reals. -/
theorem ereal_coe_max (a b : ℝ) : ((max a b : ℝ) : EReal) = max (a : EReal) (b : EReal) :=
  EReal.coe_strictMono.monotone.map_max

/-- Folding the maximum from minus infinity over real entries gives the coercion of their maximum. -/
theorem fold_max_coe {ι : Type*} [Fintype ι] [Nonempty ι] (y : ι → ℝ) :
    (Finset.univ.fold max ⊥ fun n => ((y n : ℝ) : EReal))
      = ((Finset.univ.sup' Finset.univ_nonempty y : ℝ) : EReal) := by
  rw [Finset.apply_sup'_eq_sup'_comp Finset.univ_nonempty (fun r : ℝ => (r : EReal)) ereal_coe_max,
    Finset.sup'_eq_sup]
  rfl

/-- The maximum of one block. -/
def blockMax (xs : Fin 1024 → ℝ) : ℝ := Finset.univ.sup' Finset.univ_nonempty xs

/-! ### One block, on real data -/

/-- A block applied to a real state gives a real state: the three components in the reals. -/
theorem step_coe (xs vs : Fin 1024 → ℝ) (a m l : ℝ) :
    step (fun b => ((xs b : ℝ) : EReal)) (fun b => ((vs b : ℝ) : EReal)) ((a : EReal), (m : EReal), (l : EReal))
      = (((a * Real.exp (m - max m (blockMax xs))
            + ∑ b, Real.exp (xs b - max m (blockMax xs)) * vs b : ℝ) : EReal),
         ((max m (blockMax xs) : ℝ) : EReal),
         ((l * Real.exp (m - max m (blockMax xs)) + ∑ b, Real.exp (xs b - max m (blockMax xs)) : ℝ) : EReal)) := by
  have hm : max (m : EReal) (Finset.univ.fold max ⊥ fun b => ((xs b : ℝ) : EReal))
      = ((max m (blockMax xs) : ℝ) : EReal) := by
    rw [fold_max_coe, ereal_coe_max, blockMax]
  simp only [step, hm, ← EReal.coe_sub, Ideal.exp_coe, ← EReal.coe_mul, ← ereal_coe_sum, ← EReal.coe_add]

/-- The first block, from the initial state: the rescaling factor is exp (minus infinity) = 0 on a zero state. -/
theorem step_init (xs vs : Fin 1024 → ℝ) :
    step (fun b => ((xs b : ℝ) : EReal)) (fun b => ((vs b : ℝ) : EReal)) init
      = (((∑ b, Real.exp (xs b - blockMax xs) * vs b : ℝ) : EReal), ((blockMax xs : ℝ) : EReal),
         ((∑ b, Real.exp (xs b - blockMax xs) : ℝ) : EReal)) := by
  have hm : max (⊥ : EReal) (Finset.univ.fold max ⊥ fun b => ((xs b : ℝ) : EReal))
      = ((blockMax xs : ℝ) : EReal) := by
    rw [max_bot_left, fold_max_coe, blockMax]
  simp only [step, init, hm, EReal.bot_sub, Ideal.exp_bot, mul_zero, zero_add, ← EReal.coe_sub, Ideal.exp_coe,
    ← EReal.coe_mul, ← ereal_coe_sum]

/-! ### Changing the subtracted constant -/

/-- Sums of exp (x - m) * w over some blocks, times exp (m - m'), are the sums of exp (x - m') * w. -/
theorem rescale_sum_mul (T : Finset (Fin 8)) (f w : Fin 8 → Fin 1024 → ℝ) (m m' : ℝ) :
    (∑ j ∈ T, ∑ b, Real.exp (f j b - m) * w j b) * Real.exp (m - m')
      = ∑ j ∈ T, ∑ b, Real.exp (f j b - m') * w j b := by
  rw [Finset.sum_mul]
  refine Finset.sum_congr rfl fun j _ => ?_
  rw [Finset.sum_mul]
  refine Finset.sum_congr rfl fun b _ => ?_
  have h : f j b - m + (m - m') = f j b - m' := by ring
  rw [mul_right_comm, ← Real.exp_add, h]

/-- The same without the weights. -/
theorem rescale_sum (T : Finset (Fin 8)) (f : Fin 8 → Fin 1024 → ℝ) (m m' : ℝ) :
    (∑ j ∈ T, ∑ b, Real.exp (f j b - m)) * Real.exp (m - m') = ∑ j ∈ T, ∑ b, Real.exp (f j b - m') := by
  rw [Finset.sum_mul]
  refine Finset.sum_congr rfl fun j _ => ?_
  rw [Finset.sum_mul]
  refine Finset.sum_congr rfl fun b _ => ?_
  have h : f j b - m + (m - m') = f j b - m' := by ring
  rw [← Real.exp_add, h]

/-- The weighted mean under exp (y - m) does not depend on the constant m. -/
theorem shift_div {ι : Type*} (s : Finset ι) (y w : ι → ℝ) (m M : ℝ) :
    (∑ i ∈ s, Real.exp (y i - m) * w i) / (∑ i ∈ s, Real.exp (y i - m))
      = (∑ i ∈ s, Real.exp (y i - M) * w i) / (∑ i ∈ s, Real.exp (y i - M)) := by
  have h : ∀ i, Real.exp (y i - m) = Real.exp (M - m) * Real.exp (y i - M) := by
    intro i
    have e : M - m + (y i - M) = y i - m := by ring
    rw [← Real.exp_add, e]
  have h1 : ∑ i ∈ s, Real.exp (y i - m) * w i = Real.exp (M - m) * ∑ i ∈ s, Real.exp (y i - M) * w i := by
    rw [Finset.mul_sum]
    exact Finset.sum_congr rfl fun i _ => by rw [h i, mul_assoc]
  have h2 : ∑ i ∈ s, Real.exp (y i - m) = Real.exp (M - m) * ∑ i ∈ s, Real.exp (y i - M) := by
    rw [Finset.mul_sum]
    exact Finset.sum_congr rfl fun i _ => h i
  rw [h1, h2, mul_div_mul_left _ _ (Real.exp_pos _).ne']

/-! ### The blocks already seen -/

/-- The blocks before block k. -/
def blocksBefore (k : ℕ) : Finset (Fin 8) := Finset.univ.filter fun j => j.val < k

theorem blocksBefore_zero : blocksBefore 0 = ∅ := by
  ext j
  simp only [blocksBefore, Finset.mem_filter, Finset.mem_univ, true_and, Nat.not_lt_zero, Finset.notMem_empty]

theorem blocksBefore_succ (k : ℕ) (hk : k < 8) : blocksBefore (k + 1) = insert (⟨k, hk⟩ : Fin 8) (blocksBefore k) := by
  ext j
  simp only [blocksBefore, Finset.mem_filter, Finset.mem_univ, true_and, Finset.mem_insert, Fin.ext_iff]
  omega

theorem notMem_blocksBefore (k : ℕ) (hk : k < 8) : (⟨k, hk⟩ : Fin 8) ∉ blocksBefore k := by
  simp only [blocksBefore, Finset.mem_filter, Finset.mem_univ, true_and, lt_irrefl, not_false_eq_true]

theorem blocksBefore_eight : blocksBefore 8 = Finset.univ :=
  Finset.filter_true_of_mem fun j _ => j.isLt

theorem run_zero (x v : Fin 8 → Fin 1024 → EReal) : run x v 0 = init := rfl

theorem run_succ (x v : Fin 8 → Fin 1024 → EReal) (k : ℕ) (hk : k < 8) :
    run x v (k + 1) = step (x ⟨k, hk⟩) (v ⟨k, hk⟩) (run x v k) := by
  rw [run, dif_pos hk]

/-- After k + 1 blocks the state is real: with m its middle component, acc and l are the sums of
    exp (x - m) * v and of exp (x - m) over the blocks seen. -/
theorem run_closed (x v : Fin 8 → Fin 1024 → ℝ) (k : ℕ) (hk : k < 8) :
    ∃ a m l : ℝ,
      run (fun j b => ((x j b : ℝ) : EReal)) (fun j b => ((v j b : ℝ) : EReal)) (k + 1)
          = ((a : EReal), (m : EReal), (l : EReal))
      ∧ a = ∑ j ∈ blocksBefore (k + 1), ∑ b, Real.exp (x j b - m) * v j b
      ∧ l = ∑ j ∈ blocksBefore (k + 1), ∑ b, Real.exp (x j b - m) := by
  induction k with
  | zero =>
    have h1 := step_init (x ⟨0, hk⟩) (v ⟨0, hk⟩)
    rw [← run_zero (fun j b => ((x j b : ℝ) : EReal)) (fun j b => ((v j b : ℝ) : EReal)),
      ← run_succ (fun j b => ((x j b : ℝ) : EReal)) (fun j b => ((v j b : ℝ) : EReal)) 0 hk] at h1
    refine ⟨_, _, _, h1, ?_, ?_⟩
    · rw [blocksBefore_succ 0 hk, blocksBefore_zero, Finset.sum_insert (Finset.notMem_empty _), Finset.sum_empty, add_zero]
    · rw [blocksBefore_succ 0 hk, blocksBefore_zero, Finset.sum_insert (Finset.notMem_empty _), Finset.sum_empty, add_zero]
  | succ k ih =>
    obtain ⟨a, m, l, hrun, ha, hl⟩ := ih (by omega)
    have h1 := step_coe (x ⟨k + 1, hk⟩) (v ⟨k + 1, hk⟩) a m l
    rw [← hrun, ← run_succ (fun j b => ((x j b : ℝ) : EReal)) (fun j b => ((v j b : ℝ) : EReal)) (k + 1) hk] at h1
    refine ⟨_, _, _, h1, ?_, ?_⟩
    · rw [blocksBefore_succ (k + 1) hk, Finset.sum_insert (notMem_blocksBefore (k + 1) hk), ha, rescale_sum_mul, add_comm]
    · rw [blocksBefore_succ (k + 1) hk, Finset.sum_insert (notMem_blocksBefore (k + 1) hk), hl, rescale_sum, add_comm]

/-! ### Eight blocks of 1024 as one row of 8192 -/

theorem flat_mk (x : Fin 8 → Fin 1024 → ℝ) (j : Fin 8) (b : Fin 1024) (h : b.val + 1024 * j.val < 8192) :
    flat x ⟨b.val + 1024 * j.val, h⟩ = x j b := by
  have h1 : (b.val + 1024 * j.val) / 1024 = j.val := by have := b.isLt; omega
  have h2 : (b.val + 1024 * j.val) % 1024 = b.val := by have := b.isLt; omega
  exact congrArg₂ x (Fin.ext h1) (Fin.ext h2)

/-- A double sum over blocks and entries is the sum over the row. -/
theorem sum_flat (F : ℝ → ℝ → ℝ) (x v : Fin 8 → Fin 1024 → ℝ) :
    ∑ j : Fin 8, ∑ b : Fin 1024, F (x j b) (v j b) = ∑ n : Fin 8192, F (flat x n) (flat v n) := by
  rw [← Fintype.sum_prod_type' (fun j b => F (x j b) (v j b))]
  refine Fintype.sum_equiv (finProdFinEquiv : Fin 8 × Fin 1024 ≃ Fin 8192) _ _ ?_
  rintro ⟨j, b⟩
  show F (x j b) (v j b) = F (flat x ⟨b.val + 1024 * j.val, _⟩) (flat v ⟨b.val + 1024 * j.val, _⟩)
  rw [flat_mk, flat_mk]

/-- THE KERNEL'S SIDE: after the eight blocks, acc divided by l is the softmax-weighted mean, a real. -/
theorem run_div (x v : Fin 8 → Fin 1024 → ℝ) :
    Ideal.div (run (fun j b => (x j b : EReal)) (fun j b => (v j b : EReal)) 8).1
        (run (fun j b => (x j b : EReal)) (fun j b => (v j b : EReal)) 8).2.2
      = ((softMean (flat x) (flat v) : ℝ) : EReal) := by
  obtain ⟨a, m, l, hrun, ha, hl⟩ : ∃ a m l : ℝ,
      run (fun j b => ((x j b : ℝ) : EReal)) (fun j b => ((v j b : ℝ) : EReal)) 8
          = ((a : EReal), (m : EReal), (l : EReal))
      ∧ a = ∑ j ∈ blocksBefore 8, ∑ b, Real.exp (x j b - m) * v j b
      ∧ l = ∑ j ∈ blocksBefore 8, ∑ b, Real.exp (x j b - m) := run_closed x v 7 (by norm_num)
  rw [blocksBefore_eight] at ha hl
  have ha' : a = ∑ n : Fin 8192, Real.exp (flat x n - m) * flat v n :=
    ha.trans (sum_flat (fun y w => Real.exp (y - m) * w) x v)
  have hl' : l = ∑ n : Fin 8192, Real.exp (flat x n - m) :=
    hl.trans (sum_flat (fun y _ => Real.exp (y - m)) x v)
  have hlpos : 0 < l := by
    rw [hl']
    exact Finset.sum_pos (fun n _ => Real.exp_pos _) Finset.univ_nonempty
  rw [hrun]
  show Ideal.div (a : EReal) (l : EReal) = _
  rw [Ideal.div_coe hlpos.ne', ← EReal.coe_mul, mul_one_div, ha', hl', softMean,
    shift_div Finset.univ (flat x) (flat v) m (rowMax (flat x))]

/-- THE REFERENCE'S SIDE: each weight exp (y n - M) divided by the sum of all of them (that sum taken from a zero
    initial value, the maximum taken against minus infinity), times `w n`, summed: the same real. -/
theorem softmax_sum (y w : Fin 8192 → ℝ) :
    (∑ n, Ideal.div (Ideal.exp ((y n : EReal) - max ⊥ (Finset.univ.fold max ⊥ fun n' => (y n' : EReal))))
        ((0 : EReal) + ∑ n'', Ideal.exp ((y n'' : EReal) - max ⊥ (Finset.univ.fold max ⊥ fun n' => (y n' : EReal)))) * (w n : EReal))
      = ((softMean y w : ℝ) : EReal) := by
  have hm : max (⊥ : EReal) (Finset.univ.fold max ⊥ fun n' => ((y n' : ℝ) : EReal)) = ((rowMax y : ℝ) : EReal) := by
    rw [max_bot_left, fold_max_coe, rowMax]
  have hS : (0 : ℝ) < ∑ n, Real.exp (y n - rowMax y) :=
    Finset.sum_pos (fun n _ => Real.exp_pos _) Finset.univ_nonempty
  simp only [hm, ← EReal.coe_sub, Ideal.exp_coe, zero_add, ← ereal_coe_sum, Ideal.div_coe hS.ne', ← EReal.coe_mul]
  rw [softMean, Finset.sum_div]
  exact congrArg _ (Finset.sum_congr rfl fun n _ => by ring)

end Cert.Flash

end
-- ==== Proof.AttnSpec.lean ====
/-
  The attention's result as one real function of real argument arrays. With M the memory matrix (8192 rows of 1024), Wk and
  Wv the two weight matrices (1024 by 1024) and H the queries (4 by 2048 rows of 1024): key row n has entries
  K(n, d) = sum over j of M(n, j) * Wk(d, j), value row n has entries V(n, d) = sum over j of M(n, j) * Wv(d, j), the logits
  of query row (b, s) are x(n) = sum over d of H(b, s, d) * K(n, d), and the result is
  H(b, s, d) + the softmax-weighted mean, under the logits x, of the values V(·, d).
-/
import proofs.«136249_g33603824124095_fold_wed_c4_546_3_alg».proof.Proof.FlashSpec
import Idealize.ShloMosaic.Lib.ValueIdx

noncomputable section

open scoped BigOperators

namespace Cert.Attn

open Idealize.ShloMosaic Idealize.ShloMosaic.ValueIdx

/-- The shapes of the queries, the memory matrix and a weight matrix. -/
abbrev SH : Shape := ⟨3, ![4, 2048, 1024]⟩
abbrev SM : Shape := ⟨2, ![8192, 1024]⟩
abbrev SW : Shape := ⟨2, ![1024, 1024]⟩

/-- Entry d of the projection of memory row n by the weight matrix W: the key entry for W = Wk, the value entry for W = Wv. -/
def proj (M : SM.Idx → ℝ) (W : SW.Idx → ℝ) (n : Fin 8192) (d : Fin 1024) : ℝ := ∑ j : Fin 1024, M (ix2 n j) * W (ix2 d j)

/-- The logit of query row (b, s) against key row n. -/
def logit (H : SH.Idx → ℝ) (M : SM.Idx → ℝ) (Wk : SW.Idx → ℝ) (b : Fin 4) (s : Fin 2048) (n : Fin 8192) : ℝ :=
  ∑ d : Fin 1024, H (ix3 b s d) * proj M Wk n d

/-- The result entry (b, s, d). -/
def out (H : SH.Idx → ℝ) (M : SM.Idx → ℝ) (Wk Wv : SW.Idx → ℝ) (b : Fin 4) (s : Fin 2048) (d : Fin 1024) : ℝ :=
  H (ix3 b s d) + Cert.Flash.softMean (logit H M Wk b s) (fun n => proj M Wv n d)

end Cert.Attn

end
-- ==== Proof.AttnIdx.lean ====
/-
  The two real arrays the attention call works on, written over the real argument arrays: the queries as 8192 rows of
  1024 (row 2048 b + s is query row (b, s)), and the projection's result as 8192 rows of 2048 (columns 0 to 1023 the key
  entries, columns 1024 to 2047 the value entries).
-/
import proofs.«136249_g33603824124095_fold_wed_c4_546_3_alg».proof.Proof.AttnSpec

noncomputable section

open scoped BigOperators

namespace Cert.Attn

open Idealize.ShloMosaic Idealize.ShloMosaic.ValueIdx

abbrev SQ : Shape := ⟨2, ![8192, 1024]⟩
abbrev SKV : Shape := ⟨2, ![8192, 2048]⟩

/-- The queries as 8192 rows. -/
def Qof (H : SH.Idx → ℝ) (i : SQ.Idx) : ℝ :=
  H (ix3 (⟨(i 0).val / 2048, by have h : (i 0).val < 8192 := (i 0).isLt; omega⟩ : Fin 4)
    (⟨(i 0).val % 2048, Nat.mod_lt _ (by norm_num)⟩ : Fin 2048) (⟨(i 1).val, (i 1).isLt⟩ : Fin 1024))

/-- The projection's result: keys on the left, values on the right. -/
def KVof (M : SM.Idx → ℝ) (Wk Wv : SW.Idx → ℝ) (i : SKV.Idx) : ℝ :=
  if h : (i 1).val < 1024 then proj M Wk ⟨(i 0).val, (i 0).isLt⟩ ⟨(i 1).val, h⟩
  else proj M Wv ⟨(i 0).val, (i 0).isLt⟩ ⟨(i 1).val - 1024, by have h' : (i 1).val < 2048 := (i 1).isLt; omega⟩

theorem Qof_ix (H : SH.Idx → ℝ) (b : Fin 4) (s : Fin 2048) (d : Fin 1024) :
    Qof H (ix2 (⟨2048 * b.val + s.val, by have := b.isLt; have := s.isLt; omega⟩ : Fin 8192) d) = H (ix3 b s d) := by
  have hb : b.val < 4 := b.isLt
  have hs : s.val < 2048 := s.isLt
  -- row 2048 b + s: its quotient by 2048 is b, its remainder s
  have h0 : (2048 * b.val + s.val) / 2048 = b.val := by omega
  have h1 : (2048 * b.val + s.val) % 2048 = s.val := by omega
  unfold Qof
  refine congrArg H ?_
  funext a
  match a with
  | ⟨0, _⟩ => exact Fin.ext h0
  | ⟨1, _⟩ => exact Fin.ext h1
  | ⟨2, _⟩ => rfl

theorem KVof_key (M : SM.Idx → ℝ) (Wk Wv : SW.Idx → ℝ) (n : Fin 8192) (e : Fin 1024) :
    KVof M Wk Wv (ix2 n (⟨e.val, by have := e.isLt; omega⟩ : Fin 2048)) = proj M Wk n e := by
  -- the column is e, below 1024: the left half
  have h : ((ix2 n (⟨e.val, by have := e.isLt; omega⟩ : Fin 2048) : SKV.Idx) 1).val < 1024 := e.isLt
  unfold KVof
  rw [dif_pos h]

theorem KVof_val (M : SM.Idx → ℝ) (Wk Wv : SW.Idx → ℝ) (n : Fin 8192) (d : Fin 1024) :
    KVof M Wk Wv (ix2 n (⟨1024 + d.val, by have := d.isLt; omega⟩ : Fin 2048)) = proj M Wv n d := by
  -- the column is 1024 + d, not below 1024: the right half, at column (1024 + d) - 1024 = d
  have h : ¬ ((ix2 n (⟨1024 + d.val, by have := d.isLt; omega⟩ : Fin 2048) : SKV.Idx) 1).val < 1024 :=
    Nat.not_lt.mpr (Nat.le_add_right 1024 d.val)
  unfold KVof
  rw [dif_neg h]
  refine congrArg (proj M Wv n) (Fin.ext ?_)
  exact Nat.add_sub_cancel_left 1024 d.val

end Cert.Attn

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KVValue.lean ====
/-
  What the projection call computes, entry by entry, at the extended reals, when the argument arrays hold reals. The call
  reads the memory matrix (narrowing a float changes nothing here) and the two weight matrices, transposed and set side
  by side; block of 2048 rows by block it writes their product. So entry (n, q) of its result is the sum over j of
  M(n, j) * Wk(q, j) for q below 1024 and of M(n, j) * Wv(q - 1024, j) from 1024 on.
-/
import proofs.«136249_g33603824124095_fold_wed_c4_546_3_alg».proof.Proof.Regs
import proofs.«136249_g33603824124095_fold_wed_c4_546_3_alg».proof.Proof.AttnIdx
import proofs.«136249_g33603824124095_fold_wed_c4_546_3_alg».proof.Proof.LibPlainDot
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-! ## The two arrays the projection call reads, at an entry -/

/-- The narrowed memory matrix, as a term. -/
theorem V1_v5_eq : (Gen.V1 m c main_v5 : S8192x1024.Idx → EReal)
    = truncf (F := Ideal) (s := S8192x1024) (φ := .f32) .bf16 (m ((c.tc : Thread nD τ).loc main_arg1)) bitsLt_bf16_f32 := by
  dsimp only [Gen.V1]; after_results
  all_goals rfl

/-- Narrowing changes nothing at the extended reals: the narrowed memory matrix is the memory matrix. -/
theorem V1_v5_apply (i : S8192x1024.Idx) : Gen.V1 m c main_v5 i = m ((c.tc : Thread nD τ).loc main_arg1) i := by
  rw [V1_v5_eq]; rfl

/-- The narrowed concatenation of the two transposed weight matrices, as a term. -/
theorem V1_v4_eq : (Gen.V1 m c main_v4 : S1024x2048.Idx → EReal)
    = truncf (F := Ideal) (s := S1024x2048) (φ := .f32) .bf16 (concatenate S1024x2048 1
        [⟨S1024x1024, transpose S1024x1024 [1, 0] (m ((c.tc : Thread nD τ).loc main_arg2) : FVec Ideal S1024x1024 .f32) transposes_S1024x1024_S1024x1024_1_0⟩,
         ⟨S1024x1024, transpose S1024x1024 [1, 0] (m ((c.tc : Thread nD τ).loc main_arg3) : FVec Ideal S1024x1024 .f32) transposes_S1024x1024_S1024x1024_1_0⟩]
        concatenates_S1024x1024_S1024x1024_S1024x2048_d1 : FVec Ideal S1024x2048 .f32) bitsLt_bf16_f32 := by
  dsimp only [Gen.V1]; after_results
  all_goals rfl

/-- Two transposed square matrices side by side, in the left half: entry (j, e) is the first matrix at (e, j). -/
theorem concatT_left (W2 W3 : S1024x1024.Idx → EReal) (j e : Fin 1024) :
    concatenate S1024x2048 1
        [⟨S1024x1024, transpose S1024x1024 [1, 0] W2 transposes_S1024x1024_S1024x1024_1_0⟩,
         ⟨S1024x1024, transpose S1024x1024 [1, 0] W3 transposes_S1024x1024_S1024x1024_1_0⟩]
        concatenates_S1024x1024_S1024x1024_S1024x2048_d1 (ix2 j (⟨e.val, by have := e.isLt; omega⟩ : Fin 2048))
      = W2 (ix2 e j) := by
  refine (concatenate_pair_apply_left (t := S1024x2048) (s₁ := S1024x1024) (s₂ := S1024x1024) 1
    (transpose S1024x1024 [1, 0] W2 transposes_S1024x1024_S1024x1024_1_0)
    (transpose S1024x1024 [1, 0] W3 transposes_S1024x1024_S1024x1024_1_0)
    concatenates_S1024x1024_S1024x1024_S1024x2048_d1
    (ix2 j (⟨e.val, by have := e.isLt; omega⟩ : Fin 2048)) rfl (ix2 j e) ?_).trans ?_
  · intro b
    match b with
    | ⟨0, _⟩ => rfl
    | ⟨1, _⟩ => rfl
  · exact transpose_ix2_apply W2 _ j e

/-- In the right half: entry (j, 1024 + d) is the second matrix at (d, j). -/
theorem concatT_right (W2 W3 : S1024x1024.Idx → EReal) (j d : Fin 1024) :
    concatenate S1024x2048 1
        [⟨S1024x1024, transpose S1024x1024 [1, 0] W2 transposes_S1024x1024_S1024x1024_1_0⟩,
         ⟨S1024x1024, transpose S1024x1024 [1, 0] W3 transposes_S1024x1024_S1024x1024_1_0⟩]
        concatenates_S1024x1024_S1024x1024_S1024x2048_d1 (ix2 j (⟨1024 + d.val, by have := d.isLt; omega⟩ : Fin 2048))
      = W3 (ix2 d j) := by
  refine (concatenate_pair_apply_right (t := S1024x2048) (s₁ := S1024x1024) (s₂ := S1024x1024) 1
    (transpose S1024x1024 [1, 0] W2 transposes_S1024x1024_S1024x1024_1_0)
    (transpose S1024x1024 [1, 0] W3 transposes_S1024x1024_S1024x1024_1_0)
    concatenates_S1024x1024_S1024x1024_S1024x2048_d1
    (ix2 j (⟨1024 + d.val, by have := d.isLt; omega⟩ : Fin 2048)) rfl rfl (ix2 j d) ?_ ?_).trans ?_
  · intro b hb
    match b, hb with
    | ⟨0, _⟩, _ => rfl
    | ⟨1, _⟩, hb => exact absurd rfl hb
  · show d.val + 1024 = 1024 + d.val
    omega
  · exact transpose_ix2_apply W3 _ j d

/-! ## The projection's product at an entry -/

/-- The printed dimension numbers are the plain ones: rows by contraction times contraction by columns. -/
theorem dot_eq_plain : dot_S2048x1024_S1024x2048_S2048x2048_1_0_0_1_n_n = DotDims.plain 2048 1024 2048 := rfl

/-- What the body stores, at entry (r, q) of the block: the sum over j of the memory block at (r, j) times the weight block
    at (j, q). The two reshapes are to the same shape, narrowing changes nothing, and the accumulator starts at zero. -/
theorem pay_apply (x0 : Vec Ideal S2048x1024 .bf16) (x1 : Vec Ideal S1024x2048 .bf16) (r q : Fin 2048) :
    k0_pay1 x0 x1 (ix2 r q) = ∑ j : Fin 1024, x0 (ix2 r j) * x1 (ix2 j q) := by
  unfold k0_pay1
  simp only [shapeCast_self]
  rw [truncf_apply, dot_eq_plain]
  exact Cert.LibPlainDot.matmul_plain_apply 2048 1024 2048 none x0 x1 r q

/-! ## Block by block to the array -/

theorem hz : (![0, 0] : Fin 2 → Nat) = fun _ => 0 := funext fun a => by fin_cases a <;> rfl

/-- The product of the memory matrix with the concatenated transposed weights, as one function of the two arrays the call
    reads: entry (n, q) is the sum over j of the first at (n, j) times the second at (j, q). -/
def prodOf (A : S8192x1024.Idx → EReal) (B : S1024x2048.Idx → EReal) : S8192x2048.Idx → EReal :=
  fun i => ∑ j : Fin 1024, A (ix2 (⟨(i 0).val, (i 0).isLt⟩ : Fin 8192) j) * B (ix2 j (⟨(i 1).val, (i 1).isLt⟩ : Fin 2048))

/-- The printed index maps over the four grid points: the memory window and the result window are at row block t, column
    block 0; the weight window is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The memory window's block at point t is rows 2048 t to 2048 t + 2047 of the array it reads. -/
theorem iblk0_0_apply (t : Fin cfg0.N) (y : S2048x1024.Idx) (k : S8192x1024.Idx)
    (hk0 : (k 0).val = 2048 * t.val + (y 0).val) (hk1 : (k 1).val = (y 1).val) :
    (R0.iblk0 (Run.Vf1 m) c 0 t : Vec Ideal S2048x1024 .bf16) y = Gen.V1 m c main_v5 k := by
  obtain ⟨e0, e1, -⟩ := idx_facts t
  unfold R0.iblk0
  rw [View.read_apply]
  show Gen.V1 m c main_v5 _ = Gen.V1 m c main_v5 k
  congr 1
  funext a
  apply Fin.ext
  match a with
  | ⟨0, _⟩ => show win0_0.index t 0 * 2048 + 1 * (y 0).val = (k 0).val; rw [e0, hk0]; omega
  | ⟨1, _⟩ => show win0_0.index t 1 * 1024 + 1 * (y 1).val = (k 1).val; rw [e1, hk1]; omega

/-- The weight window's block at every point is the whole array it reads. -/
theorem iblk0_1_apply (t : Fin cfg0.N) (y : S1024x2048.Idx) :
    (R0.iblk0 (Run.Vf1 m) c 1 t : Vec Ideal S1024x2048 .bf16) y = Gen.V1 m c main_v4 y := by
  obtain ⟨-, -, e0, e1, -⟩ := idx_facts t
  unfold R0.iblk0
  rw [View.read_apply]
  show Gen.V1 m c main_v4 _ = Gen.V1 m c main_v4 y
  congr 1
  funext a
  apply Fin.ext
  match a with
  | ⟨0, _⟩ => show win0_1.index t 0 * 1024 + 1 * (y 0).val = (y 0).val; rw [e0]; omega
  | ⟨1, _⟩ => show win0_1.index t 1 * 2048 + 1 * (y 1).val = (y 1).val; rw [e1]; omega

/-- What point t writes back is block t of the product. -/
theorem flushed_eq (t : Fin cfg0.N) :
    (R0.dat0 (Run.Vf1 m) c).flushed 2 t
      = ((cfg0.win 2).blk t).view.read (Elt Ideal) (prodOf (Gen.V1 m c main_v5) (Gen.V1 m c main_v4)) := by
  show (cfg0.win 2).cut (grid0.coords t) ((R0.dat0 (Run.Vf1 m) c).after 2 t) = _
  rw [R0.after0_2]
  unfold R0.out0_2
  rw [View.canon_unit_zero hz]
  simp only [View.ld_unit_zero (S := S2048x1024) hz, View.ld_unit_zero (S := S1024x2048) hz]
  funext y
  obtain ⟨-, -, -, -, e0, e1⟩ := idx_facts t
  have hy0 : (y 0).val < 2048 := (y 0).isLt
  have hy1 : (y 1).val < 2048 := (y 1).isLt
  -- the entry of the block, by coordinates
  have hx : (win0 2).xinj (grid0.coords t) y = ix2 (⟨(y 0).val, hy0⟩ : Fin 2048) (⟨(y 1).val, hy1⟩ : Fin 2048) := by
    funext a
    match a with
    | ⟨0, _⟩ => rfl
    | ⟨1, _⟩ => rfl
  -- and where it sits in the array: row 2048 t + its row, its own column
  have h0 : ((((cfg0.win 2).blk t).view.emb y) 0).val = 2048 * t.val + (y 0).val := by
    show win0_2.index t 0 * 2048 + 1 * (y 0).val = 2048 * t.val + (y 0).val
    rw [e0]; omega
  have h1 : ((((cfg0.win 2).blk t).view.emb y) 1).val = (y 1).val := by
    show win0_2.index t 1 * 2048 + 1 * (y 1).val = (y 1).val
    rw [e1]; omega
  show k0_pay1 (R0.iblk0 (Run.Vf1 m) c 0 t) (R0.iblk0 (Run.Vf1 m) c 1 t) ((win0 2).xinj (grid0.coords t) y)
    = prodOf (Gen.V1 m c main_v5) (Gen.V1 m c main_v4) (((cfg0.win 2).blk t).view.emb y)
  rw [hx]
  refine (pay_apply (R0.iblk0 (Run.Vf1 m) c 0 t) (R0.iblk0 (Run.Vf1 m) c 1 t) _ _).trans ?_
  unfold prodOf
  refine Finset.sum_congr rfl fun j _ => ?_
  exact congrArg₂ (· * ·)
    (iblk0_0_apply m c t (ix2 (⟨(y 0).val, hy0⟩ : Fin 2048) j)
      (ix2 (⟨((((cfg0.win 2).blk t).view.emb y) 0).val, ((((cfg0.win 2).blk t).view.emb y) 0).isLt⟩ : Fin 8192) j) h0 rfl)
    ((iblk0_1_apply m c t (ix2 j (⟨(y 1).val, hy1⟩ : Fin 2048))).trans
      (congrArg (fun q' : Fin 2048 => Gen.V1 m c main_v4 (ix2 j q')) (Fin.ext h1.symm)))

/-- An entry of the result array is in point t's block when each coordinate is in the block's range. -/
theorem mem_blk (t : Fin cfg0.N) (i : S8192x2048.Idx) :
    i ∈ ((cfg0.win 2).blk t).view.set
      ↔ ∀ a : Fin 2, win0_2.index t a * S2048x2048.size a ≤ (i a).val
          ∧ (i a).val < win0_2.index t a * S2048x2048.size a + S2048x2048.size a := by
  show i ∈ ((View.whole main_v6).slice (win0_2.rect t)).set ↔ _
  rw [View.set_slice_whole, Rect.mem_set_unit]
  exact Iff.rfl

/-- The four blocks of 2048 rows cover the result array (row r is in block r / 2048), so after the call it holds the
    product. -/
theorem o6_eq : Run.o6 m c = prodOf (Gen.V1 m c main_v5) (Gen.V1 m c main_v4) := by
  unfold Run.o6
  refine (R0.dat0 (Run.Vf1 m) c).arrAt_eq_of_cover 2 _ (fun t _ => flushed_eq m c t) fun i => ?_
  have hi0 : (i 0).val < 8192 := (i 0).isLt
  have hi1 : (i 1).val < 2048 := (i 1).isLt
  have hN : cfg0.N = 4 := Gen.N_0
  have ht : (i 0).val / 2048 < cfg0.N := by rw [hN]; omega
  obtain ⟨-, -, -, -, e0, e1⟩ := idx_facts ⟨(i 0).val / 2048, ht⟩
  refine ⟨⟨(i 0).val / 2048, ht⟩, flush0_2 _, ?_⟩
  rw [mem_blk]
  intro a
  match a with
  | ⟨0, _⟩ =>
    show win0_2.index ⟨(i 0).val / 2048, ht⟩ 0 * 2048 ≤ (i 0).val
      ∧ (i 0).val < win0_2.index ⟨(i 0).val / 2048, ht⟩ 0 * 2048 + 2048
    rw [e0]; show (i 0).val / 2048 * 2048 ≤ (i 0).val ∧ (i 0).val < (i 0).val / 2048 * 2048 + 2048; omega
  | ⟨1, _⟩ =>
    show win0_2.index ⟨(i 0).val / 2048, ht⟩ 1 * 2048 ≤ (i 1).val
      ∧ (i 1).val < win0_2.index ⟨(i 0).val / 2048, ht⟩ 1 * 2048 + 2048
    rw [e1]; omega

/-! ## The product over reals -/

/-- The concatenated weights, left half, from the key weights. -/
theorem V1_v4_left (j e : Fin 1024) :
    Gen.V1 m c main_v4 (ix2 j (⟨e.val, by have := e.isLt; omega⟩ : Fin 2048))
      = m ((c.tc : Thread nD τ).loc main_arg2) (ix2 e j) := by
  rw [V1_v4_eq]
  exact concatT_left _ _ j e

/-- The concatenated weights, right half, from the value weights. -/
theorem V1_v4_right (j d : Fin 1024) :
    Gen.V1 m c main_v4 (ix2 j (⟨1024 + d.val, by have := d.isLt; omega⟩ : Fin 2048))
      = m ((c.tc : Thread nD τ).loc main_arg3) (ix2 d j) := by
  rw [V1_v4_eq]
  exact concatT_right _ _ j d

/-- The product at an entry whose row of the first array and column of the second hold reals: the coerced real sum. -/
theorem prodOf_coe (A : S8192x1024.Idx → EReal) (B : S1024x2048.Idx → EReal) (n : Fin 8192) (q : Fin 2048)
    (f g : Fin 1024 → ℝ) (hA : ∀ j, A (ix2 n j) = ((f j : ℝ) : EReal)) (hB : ∀ j, B (ix2 j q) = ((g j : ℝ) : EReal)) :
    prodOf A B (ix2 n q) = ((∑ j : Fin 1024, f j * g j : ℝ) : EReal) := by
  rw [Cert.Flash.ereal_coe_sum]
  show ∑ j : Fin 1024, A (ix2 n j) * B (ix2 j q) = _
  refine Finset.sum_congr rfl fun j _ => ?_
  rw [hA, hB, EReal.coe_mul]

/-- With real arguments, a left-half entry of the product is the key entry. -/
theorem prodOf_key (M : Cert.Attn.SM.Idx → ℝ) (Wk : Cert.Attn.SW.Idx → ℝ)
    (hM : ∀ i, m ((c.tc : Thread nD τ).loc main_arg1) i = ((M i : ℝ) : EReal))
    (hWk : ∀ i, m ((c.tc : Thread nD τ).loc main_arg2) i = ((Wk i : ℝ) : EReal))
    (n : Fin 8192) (e : Fin 1024) :
    prodOf (Gen.V1 m c main_v5) (Gen.V1 m c main_v4) (ix2 n (⟨e.val, by have := e.isLt; omega⟩ : Fin 2048))
      = ((Cert.Attn.proj M Wk n e : ℝ) : EReal) := by
  unfold Cert.Attn.proj
  exact prodOf_coe (Gen.V1 m c main_v5) (Gen.V1 m c main_v4) n _ (fun j => M (ix2 n j)) (fun j => Wk (ix2 e j))
    (fun j => (V1_v5_apply m c (ix2 n j)).trans (hM (ix2 n j)))
    (fun j => (V1_v4_left m c j e).trans (hWk (ix2 e j)))

/-- With real arguments, a right-half entry of the product is the value entry. -/
theorem prodOf_val (M : Cert.Attn.SM.Idx → ℝ) (Wv : Cert.Attn.SW.Idx → ℝ)
    (hM : ∀ i, m ((c.tc : Thread nD τ).loc main_arg1) i = ((M i : ℝ) : EReal))
    (hWv : ∀ i, m ((c.tc : Thread nD τ).loc main_arg3) i = ((Wv i : ℝ) : EReal))
    (n : Fin 8192) (d : Fin 1024) :
    prodOf (Gen.V1 m c main_v5) (Gen.V1 m c main_v4) (ix2 n (⟨1024 + d.val, by have := d.isLt; omega⟩ : Fin 2048))
      = ((Cert.Attn.proj M Wv n d : ℝ) : EReal) := by
  unfold Cert.Attn.proj
  exact prodOf_coe (Gen.V1 m c main_v5) (Gen.V1 m c main_v4) n _ (fun j => M (ix2 n j)) (fun j => Wv (ix2 d j))
    (fun j => (V1_v5_apply m c (ix2 n j)).trans (hM (ix2 n j)))
    (fun j => (V1_v4_right m c j d).trans (hWv (ix2 d j)))

/-- The projection's result, as the attention call finds it, holds the reals `KVof M Wk Wv`. -/
theorem v6_real (M : Cert.Attn.SM.Idx → ℝ) (Wk Wv : Cert.Attn.SW.Idx → ℝ)
    (hM : ∀ i, m ((c.tc : Thread nD τ).loc main_arg1) i = ((M i : ℝ) : EReal))
    (hWk : ∀ i, m ((c.tc : Thread nD τ).loc main_arg2) i = ((Wk i : ℝ) : EReal))
    (hWv : ∀ i, m ((c.tc : Thread nD τ).loc main_arg3) i = ((Wv i : ℝ) : EReal))
    (i : Cert.Attn.SKV.Idx) : Run.Vf2 m c main_v6 i = ((Cert.Attn.KVof M Wk Wv i : ℝ) : EReal) := by
  rw [Run.Vf2_v6 m c, o6_eq]
  obtain ⟨n, q, rfl⟩ : ∃ (n : Fin 8192) (q : Fin 2048), i = ix2 n q := ⟨i 0, i 1, eq_ix2 i⟩
  by_cases hq : q.val < 1024
  · -- a key column
    obtain ⟨e, rfl⟩ : ∃ e : Fin 1024, q = (⟨e.val, Nat.lt_trans e.isLt (by decide)⟩ : Fin 2048) := ⟨⟨q.val, hq⟩, rfl⟩
    rw [Cert.Attn.KVof_key, prodOf_key m c M Wk hM hWk]
  · -- a value column
    have hq' : q.val < 2048 := q.isLt
    obtain ⟨d, rfl⟩ : ∃ d : Fin 1024, q = (⟨1024 + d.val, Nat.add_lt_add_left d.isLt 1024⟩ : Fin 2048) :=
      ⟨⟨q.val - 1024, by omega⟩, Fin.ext (by show q.val = 1024 + (q.val - 1024); omega)⟩
    rw [Cert.Attn.KVof_val, prodOf_val m c M Wv hM hWv]

end Cert.KernelIdeal.KV

end
-- ==== Proof.HostReshape.lean ====
/-
  The two reshapes of the kernel's program read at an entry, at the extended reals. Before the calls the queries, 4 by 2048
  rows of 1024, are laid out as 8192 rows: row 2048 b + s is query row (b, s). After the calls the 8192 rows the attention call
  leaves are laid out back: result entry (b, s, d) is entry (2048 b + s, d). Both are row-major relabellings; no value changes.
-/
import proofs.«136249_g33603824124095_fold_wed_c4_546_3_alg».proof.Proof.Regs
import proofs.«136249_g33603824124095_fold_wed_c4_546_3_alg».proof.Proof.AttnIdx
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.HostReshape

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-- The reshaped queries: the reshape of the query argument. -/
theorem V1_v0_eq : (Gen.V1 m c main_v0 : S8192x1024.Idx → EReal)
    = shapeCast S8192x1024 (m ((c.tc : Thread nD τ).loc main_arg0) : S4x2048x1024.Idx → EReal) shapeCasts_S4x2048x1024_S8192x1024 := by
  dsimp only [Gen.V1]; after_results; rfl

/-- Row n of the reshaped queries is query row (n / 2048, n % 2048): row-major order keeps the last axis and merges the
    first two. -/
theorem V1_v0_apply (i : S8192x1024.Idx) :
    Gen.V1 m c main_v0 i
      = m ((c.tc : Thread nD τ).loc main_arg0)
          (ix3 (⟨(i 0).val / 2048, by have h : (i 0).val < 8192 := (i 0).isLt; omega⟩ : Fin 4)
            (⟨(i 0).val % 2048, Nat.mod_lt _ (by norm_num)⟩ : Fin 2048) (⟨(i 1).val, (i 1).isLt⟩ : Fin 1024)) := by
  rw [V1_v0_eq]
  refine shapeCast_apply _ _ i _ ?_
  refine (Shape.rowMajor_val_three (d := ![4, 2048, 1024]) _).trans ?_
  rw [Shape.rowMajor_val_two]
  show ((i 0).val / 2048 * 2048 + (i 0).val % 2048) * 1024 + (i 1).val = (i 0).val * 1024 + (i 1).val
  omega

/-- The reshaped queries hold the reals `Qof H`. -/
theorem v0_real (H : Cert.Attn.SH.Idx → ℝ) (hH : ∀ i, m ((c.tc : Thread nD τ).loc main_arg0) i = ((H i : ℝ) : EReal))
    (i : Cert.Attn.SQ.Idx) : Run.Vf2 m c main_v0 i = ((Cert.Attn.Qof H i : ℝ) : EReal) := by
  rw [Run.Vf2_of m c main_v0 (by decide), V1_v0_apply, hH]
  rfl

/-- The closing reshape: the result array is the reshape of what the attention call leaves. -/
theorem V4_v8_eq : (Gen.V4 m (Run.outsK m) c main_v8 : S4x2048x1024.Idx → EReal)
    = shapeCast S4x2048x1024 (Run.o7 m c : S8192x1024.Idx → EReal) shapeCasts_S8192x1024_S4x2048x1024 := by
  have e : Gen.V3 m (Run.outsK m) c main_v7 = Run.o7 m c := by
    unfold Gen.V3; rw [Function.update_self, Run.outsK_v7]
  rw [← e]
  dsimp only [Gen.V4]; after_results; rfl

/-- The result array after the closing reshape, from what the attention call leaves. -/
theorem v8_apply (b : Fin 4) (s : Fin 2048) (d : Fin 1024) :
    Gen.V4 m (Run.outsK m) c main_v8 (ix3 b s d)
      = Run.o7 m c (ix2 (⟨2048 * b.val + s.val, by have := b.isLt; have := s.isLt; omega⟩ : Fin 8192) d) := by
  have hb : b.val < 4 := b.isLt
  have hs : s.val < 2048 := s.isLt
  rw [V4_v8_eq]
  refine shapeCast_apply _ _ _ _ ?_
  refine (Shape.rowMajor_val_two (d := ![8192, 1024]) _).trans ?_
  rw [Shape.rowMajor_val_three]
  show (2048 * b.val + s.val) * 1024 + d.val = (b.val * 2048 + s.val) * 1024 + d.val
  omega

end Cert.KernelIdeal.HostReshape

end
-- ==== Proof.LibDotNT.lean ====
/-
  A matrix product against a transposed right operand, read at one entry. For the dimension numbers "rows × contraction
  by columns × contraction" with no batch axis (both operands contracted on their last axis), the product into a zero
  accumulator, at row `r` and column `q`, is the sum over the contracted coordinate `j` of the left operand at (r, j)
  times the right operand at (q, j). The same holds for the host's `dot_general`. Both are stated over extended reals,
  where the product is the exact sum.
-/
import Idealize.ShloMosaic.PureOps.Ideal.Laws
import Idealize.ShloMosaic.Lib.ValueIdx

noncomputable section

open scoped BigOperators

namespace Cert.LibDotNT

open Idealize.ShloMosaic Idealize.ShloMosaic.ValueIdx

/-- The left operand's index at output entry (r, q) and contracted coordinate `j` is (r, j). -/
theorem nt_lhsIdx (M K N : Nat) (r : Fin M) (q : Fin N) (j : Fin K) :
    (DotDims.transposedRhs M K N).lhsIdx (ix2 r q) ((contrEquiv1 (DotDims.transposedRhs M K N) K rfl rfl).symm j) = ix2 r j := by
  have hj := contrEquiv1_symm_val (DotDims.transposedRhs M K N) K rfl rfl j
  funext a
  apply Fin.ext
  match a with
  | ⟨0, _⟩ => rfl
  | ⟨1, _⟩ => refine Eq.trans ?_ hj; rfl

/-- The right operand's index at output entry (r, q) and contracted coordinate `j` is (q, j): its row is the output's
    column, its column the contracted coordinate. -/
theorem nt_rhsIdx (M K N : Nat) (r : Fin M) (q : Fin N) (j : Fin K) :
    (DotDims.transposedRhs M K N).rhsIdx (ix2 r q) ((contrEquiv1 (DotDims.transposedRhs M K N) K rfl rfl).symm j) = ix2 q j := by
  have hj := contrEquiv1_symm_val (DotDims.transposedRhs M K N) K rfl rfl j
  funext a
  apply Fin.ext
  match a with
  | ⟨0, _⟩ => rfl
  | ⟨1, _⟩ => refine Eq.trans ?_ hj; rfl

/-- The matrix unit's product against a transposed right operand into a zero accumulator, at one entry. -/
theorem matmul_nt_apply {φ₁ φ₂ : FTy} (M K N : Nat) (prec : Option ContractPrecision)
    (A : FVec Ideal ⟨2, ![M, K]⟩ φ₁) (B : FVec Ideal ⟨2, ![N, K]⟩ φ₂) (r : Fin M) (q : Fin N) :
    FloatOps.matmul (DotDims.transposedRhs M K N) prec A B (constant ⟨2, ![M, N]⟩ .f32 0x00000000#32) (ix2 r q)
      = ∑ j : Fin K, A (ix2 r j) * B (ix2 q j) := by
  rw [Ideal.matmul_constant_zero_apply, ← Equiv.sum_comp (contrEquiv1 (DotDims.transposedRhs M K N) K rfl rfl).symm]
  refine Finset.sum_congr rfl fun j _ => ?_
  rw [nt_lhsIdx, nt_rhsIdx]

/-- The host's `dot_general` against a transposed right operand, at one entry. -/
theorem dotGeneral_nt_apply {φ₁ φ₂ : FTy} (M K N : Nat) (prec : Option ContractPrecision) (sched : HostSchedule)
    (A : FVec Ideal ⟨2, ![M, K]⟩ φ₁) (B : FVec Ideal ⟨2, ![N, K]⟩ φ₂) (r : Fin M) (q : Fin N) :
    FloatOps.dotGeneral (DotDims.transposedRhs M K N) prec sched A B (ix2 r q) = ∑ j : Fin K, A (ix2 r j) * B (ix2 q j) := by
  rw [Ideal.dotGeneral_apply, ← Equiv.sum_comp (contrEquiv1 (DotDims.transposedRhs M K N) K rfl rfl).symm]
  refine Finset.sum_congr rfl fun j _ => ?_
  rw [nt_lhsIdx, nt_rhsIdx]

end Cert.LibDotNT

end
-- ==== Proof.StepValue.lean ====
/-
  One point of the attention call read at one entry, at the extended reals, whatever the buffers hold. Fix a row a of the
  query block and an output column d. The logits of that row against the key block's rows are
  xs(b) = sum over e of x(a, e) * k(b, e), and the values of column d are vs(b) = v(b, d). The carried state's three
  entries at that row and column (acc at (a, d), the running maximum and the running sum at row a) go through exactly the
  scalar online-softmax step on xs and vs; the reset stores the scalar start (0, minus infinity, 0); the output store is
  the query entry plus acc divided by the running sum.
-/
import proofs.«136249_g33603824124095_fold_wed_c4_546_3_alg».proof.Proof.R1Body
import proofs.«136249_g33603824124095_fold_wed_c4_546_3_alg».proof.Proof.FlashSpec
import proofs.«136249_g33603824124095_fold_wed_c4_546_3_alg».proof.Proof.LibPlainDot
import proofs.«136249_g33603824124095_fold_wed_c4_546_3_alg».proof.Proof.LibDotNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.StepValue

open Idealize.ShloMosaic Idealize.ShloMosaic.ValueIdx
open Cert.KernelIdeal Cert.KernelIdeal.Gen

/-- The state's three entries at row `a`, column `d`. -/
def at3 (s : R1.St Ideal) (a d : Fin 1024) : Cert.Flash.S3 :=
  (s.1 (ix2 a d), s.2.1 (ix2 a (0 : Fin 1)), s.2.2 (ix2 a (0 : Fin 1)))

/-! ## The operations that are not pointwise, each at one entry -/

/-- The word 0xFF800000 is minus infinity. -/
theorem ofBits_ninf : Ideal.ofBits .f32 0xFF800000#32 = ⊥ := by simp [Ideal.ofBits, Ideal.ieee]

/-- Over row `a`, the index with lane coordinate `k` inserted is (a, k). -/
theorem lift_row (h : S1024x1024.Reduces [1] S1024) (a k : Fin 1024) : h.lift (ix1 a) k = ix2 a k := by
  funext c
  apply Fin.ext
  match c with
  | ⟨0, _⟩ => rfl
  | ⟨1, _⟩ => rfl

/-- A column read as [1024, 1]: entry (a, 0) is entry a. -/
theorem cast_col {α : Type} (v : S1024.Idx → α) (h : S1024.ShapeCasts S1024x1) (a : Fin 1024) :
    shapeCast S1024x1 v h (ix2 a (0 : Fin 1)) = v (ix1 a) :=
  shapeCast_apply v h (ix2 a (0 : Fin 1)) (ix1 a) (by
    rw [Shape.rowMajor_val_two, Shape.rowMajor_val_one]; show a.val = a.val * 1 + 0; omega)

/-- A [1024, 1] column broadcast along the lanes: entry (a, b) is the column's entry (a, 0). -/
theorem bcast_col {α : Type} (x : S1024x1.Idx → α) (h : S1024x1.Broadcasts S1024x1024) (a b : Fin 1024) :
    broadcastTo S1024x1024 x h (ix2 a b) = x (ix2 a (0 : Fin 1)) :=
  broadcastTo_apply x h (ix2 a b) (ix2 a (0 : Fin 1)) (fun c => by
    match c with
    | ⟨0, _⟩ => rfl
    | ⟨1, _⟩ => rfl)

/-- The lane maximum of row `a`, from minus infinity. -/
theorem rowmax_at (src : FVec Ideal S1024x1024 .f32) (h : S1024x1024.Reduces [1] S1024) (hφ : FKind.Formats .f32)
    (hacc : (0xFF800000#32 : BitVec 32) = 0xFF800000#32) (a : Fin 1024) :
    multiReduction (F := Ideal) .maximumf [1] S1024 src 0xFF800000#32 h hφ hacc (ix1 a)
      = Finset.univ.fold max ⊥ (fun b : Fin 1024 => src (ix2 a b)) := by
  refine (Ideal.multiReduction_maximumf_single src 0xFF800000#32 h hφ hacc (ix1 a)).trans ?_
  rw [Ideal.ofBits_def, ofBits_ninf]
  exact congrArg (fun f => Finset.fold max ⊥ f (Finset.univ : Finset (Fin 1024))) (funext fun b => congrArg src (lift_row h a b))

/-- The lane sum of row `a`. -/
theorem rowsum_at (src : FVec Ideal S1024x1024 .f32) (h : S1024x1024.Reduces [1] S1024) (hφ : FKind.Formats .f32)
    (hacc : (0x00000000#32 : BitVec 32) = 0x00000000#32) (a : Fin 1024) :
    multiReduction (F := Ideal) .add [1] S1024 src 0x00000000#32 h hφ hacc (ix1 a)
      = ∑ b : Fin 1024, src (ix2 a b) := by
  refine (Ideal.multiReduction_add_single src 0x00000000#32 h hφ hacc (ix1 a)).trans ?_
  exact Finset.sum_congr rfl fun b _ => congrArg src (lift_row h a b)

/-- An exponential at an index is the exponential of the element. -/
theorem exp_at {s : Shape} {φ : FTy} (v : FVec Ideal s φ) (i : s.Idx) : Idealize.ShloMosaic.exp v i = Ideal.exp (v i) := rfl

/-- The first product's dimension numbers: both operands contracted on their last axis. -/
theorem dotNT_eq : dot_S1024x1024_S1024x1024_S1024x1024_1_1_0_0_n_n = DotDims.transposedRhs 1024 1024 1024 := rfl
/-- The second product's dimension numbers: the plain product. -/
theorem dotNN_eq : dot_S1024x1024_S1024x1024_S1024x1024_1_0_0_1_n_n = DotDims.plain 1024 1024 1024 := rfl

/-! ## The payloads of one point, each at one entry -/

/-- The logits: query row `a` against key row `b`. -/
theorem pay6_at (x : Vec Ideal S1024x1024 .f32) (k : Vec Ideal S1024x1024 .bf16) (a b : Fin 1024) :
    k1_pay6 x k (ix2 a b) = ∑ e : Fin 1024, x (ix2 a e) * k (ix2 b e) := by
  unfold k1_pay6
  rw [shapeCast_self, shapeCast_self, dotNT_eq]
  exact Cert.LibDotNT.matmul_nt_apply 1024 1024 1024 none (truncf .bf16 x bitsLt_bf16_f32) k a b

/-- The new running maximum of row `a`. -/
theorem pay7_at (x : Vec Ideal S1024x1024 .f32) (k : Vec Ideal S1024x1024 .bf16) (m : Vec Ideal S1024x1 .f32) (a : Fin 1024) :
    k1_pay7 x k m (ix2 a (0 : Fin 1))
      = max (m (ix2 a (0 : Fin 1))) (Finset.univ.fold max ⊥ (fun b : Fin 1024 => ∑ e : Fin 1024, x (ix2 a e) * k (ix2 b e))) := by
  unfold k1_pay7
  rw [maximumf_apply, cast_col, rowmax_at]
  simp only [pay6_at]

/-- The rescaling factor of row `a`. -/
theorem pay8_at (x : Vec Ideal S1024x1024 .f32) (k : Vec Ideal S1024x1024 .bf16) (m : Vec Ideal S1024x1 .f32) (a : Fin 1024) :
    k1_pay8 x k m (ix2 a (0 : Fin 1))
      = Ideal.exp (m (ix2 a (0 : Fin 1))
          - max (m (ix2 a (0 : Fin 1))) (Finset.univ.fold max ⊥ (fun b : Fin 1024 => ∑ e : Fin 1024, x (ix2 a e) * k (ix2 b e)))) := by
  unfold k1_pay8
  rw [exp_at, subf_apply, pay7_at]

/-- The block's weights. -/
theorem pay9_at (x : Vec Ideal S1024x1024 .f32) (k : Vec Ideal S1024x1024 .bf16) (m : Vec Ideal S1024x1 .f32) (a b : Fin 1024) :
    k1_pay9 x k m (ix2 a b)
      = Ideal.exp ((∑ e : Fin 1024, x (ix2 a e) * k (ix2 b e))
          - max (m (ix2 a (0 : Fin 1))) (Finset.univ.fold max ⊥ (fun b : Fin 1024 => ∑ e : Fin 1024, x (ix2 a e) * k (ix2 b e)))) := by
  unfold k1_pay9
  rw [exp_at, subf_apply, bcast_col, pay7_at, pay6_at]

/-- The new running sum of row `a`. -/
theorem pay10_at (x : Vec Ideal S1024x1024 .f32) (k : Vec Ideal S1024x1024 .bf16) (m l : Vec Ideal S1024x1 .f32) (a : Fin 1024) :
    k1_pay10 x k m l (ix2 a (0 : Fin 1))
      = l (ix2 a (0 : Fin 1)) * Ideal.exp (m (ix2 a (0 : Fin 1))
          - max (m (ix2 a (0 : Fin 1))) (Finset.univ.fold max ⊥ (fun b : Fin 1024 => ∑ e : Fin 1024, x (ix2 a e) * k (ix2 b e))))
        + ∑ b : Fin 1024, Ideal.exp ((∑ e : Fin 1024, x (ix2 a e) * k (ix2 b e))
          - max (m (ix2 a (0 : Fin 1))) (Finset.univ.fold max ⊥ (fun b : Fin 1024 => ∑ e : Fin 1024, x (ix2 a e) * k (ix2 b e)))) := by
  unfold k1_pay10
  rw [shapeCast_self, addf_apply, mulf_apply, cast_col, rowsum_at, pay8_at]
  simp only [pay9_at]

/-- The stored running maximum is the new one. -/
theorem pay11_at (x : Vec Ideal S1024x1024 .f32) (k : Vec Ideal S1024x1024 .bf16) (m : Vec Ideal S1024x1 .f32) (a : Fin 1024) :
    k1_pay11 x k m (ix2 a (0 : Fin 1))
      = max (m (ix2 a (0 : Fin 1))) (Finset.univ.fold max ⊥ (fun b : Fin 1024 => ∑ e : Fin 1024, x (ix2 a e) * k (ix2 b e))) := by
  unfold k1_pay11
  rw [shapeCast_self, pay7_at]

/-- The rescaled accumulator. -/
theorem pay12_at (x : Vec Ideal S1024x1024 .f32) (k : Vec Ideal S1024x1024 .bf16) (m : Vec Ideal S1024x1 .f32)
    (acc : Vec Ideal S1024x1024 .f32) (a d : Fin 1024) :
    k1_pay12 x k m acc (ix2 a d)
      = acc (ix2 a d) * Ideal.exp (m (ix2 a (0 : Fin 1))
          - max (m (ix2 a (0 : Fin 1))) (Finset.univ.fold max ⊥ (fun b : Fin 1024 => ∑ e : Fin 1024, x (ix2 a e) * k (ix2 b e)))) := by
  unfold k1_pay12
  rw [mulf_apply, bcast_col, pay8_at]

/-- The weights as the second product's left operand. -/
theorem pay13_at (x : Vec Ideal S1024x1024 .f32) (k : Vec Ideal S1024x1024 .bf16) (m : Vec Ideal S1024x1 .f32) (a b : Fin 1024) :
    k1_pay13 x k m (ix2 a b)
      = Ideal.exp ((∑ e : Fin 1024, x (ix2 a e) * k (ix2 b e))
          - max (m (ix2 a (0 : Fin 1))) (Finset.univ.fold max ⊥ (fun b : Fin 1024 => ∑ e : Fin 1024, x (ix2 a e) * k (ix2 b e)))) := by
  unfold k1_pay13
  rw [truncf_apply, pay9_at]

/-- The accumulator plus the weights times the values. -/
theorem pay1_at (A : FVec Ideal S1024x1024 .f32) (P : FVec Ideal S1024x1024 .bf16) (v : Vec Ideal S1024x1024 .bf16) (a d : Fin 1024) :
    k1_pay1 A P v (ix2 a d) = A (ix2 a d) + ∑ b : Fin 1024, P (ix2 a b) * v (ix2 b d) := by
  unfold k1_pay1
  rw [shapeCast_self, shapeCast_self, addf_apply, dotNN_eq]
  exact congrArg (A (ix2 a d) + ·) (Cert.LibPlainDot.matmul_plain_apply 1024 1024 1024 none P v a d)

/-- The output entry. -/
theorem pay2_at (x acc : Vec Ideal S1024x1024 .f32) (l : Vec Ideal S1024x1 .f32) (a d : Fin 1024) :
    k1_pay2 x acc l (ix2 a d) = x (ix2 a d) + Ideal.div (acc (ix2 a d)) (l (ix2 a (0 : Fin 1))) := by
  unfold k1_pay2
  rw [shapeCast_self, addf_apply, divf_apply, bcast_col]

/-! ## The reset's three stores -/

/-- The reset accumulator is zero everywhere. -/
theorem pay3_at (a d : Fin 1024) : (k1_pay3 (F := Ideal)) (ix2 a d) = 0 := by
  unfold k1_pay3
  rw [shapeCast_self, broadcast_apply]
  exact Ideal.ofBits_zero_f32

/-- The reset running maximum is minus infinity everywhere. -/
theorem pay4_at (a : Fin 1024) : (k1_pay4 (F := Ideal)) (ix2 a (0 : Fin 1)) = ⊥ := by
  unfold k1_pay4
  rw [shapeCast_self, broadcast_apply]
  exact ofBits_ninf

/-- The reset running sum is zero everywhere. -/
theorem pay5_at (a : Fin 1024) : (k1_pay5 (F := Ideal)) (ix2 a (0 : Fin 1)) = 0 := by
  unfold k1_pay5
  rw [shapeCast_self, broadcast_apply]
  exact Ideal.ofBits_zero_f32

/-! ## The three statements -/

/-- The reset stores the scalar start at every entry. -/
theorem init1_at (a d : Fin 1024) : at3 (R1.init1 (F := Ideal)) a d = Cert.Flash.init := by
  unfold at3 R1.init1 Cert.Flash.init
  dsimp only
  rw [pay3_at, pay4_at, pay5_at]

/-- One point's update is the scalar step on the row's logits and the column's values. -/
theorem step1_at (x : Vec Ideal S1024x1024 .f32) (k v : Vec Ideal S1024x1024 .bf16) (s : R1.St Ideal) (a d : Fin 1024) :
    at3 (R1.step1 x k v s) a d
      = Cert.Flash.step (fun b : Fin 1024 => ∑ e : Fin 1024, x (ix2 a e) * k (ix2 b e)) (fun b : Fin 1024 => v (ix2 b d)) (at3 s a d) := by
  unfold at3 R1.step1 Cert.Flash.step
  dsimp only
  rw [pay1_at, pay11_at, pay10_at]
  simp only [pay12_at, pay13_at]

/-- The output store: the query entry plus acc divided by the running sum. -/
theorem outOf_at (x : Vec Ideal S1024x1024 .f32) (s : R1.St Ideal) (a d : Fin 1024) :
    R1.outOf x s (ix2 a d) = x (ix2 a d) + Ideal.div (s.1 (ix2 a d)) (s.2.2 (ix2 a (0 : Fin 1))) := by
  unfold R1.outOf
  exact pay2_at x s.1 s.2.2 a d

end Cert.KernelIdeal.StepValue

end
-- ==== Proof.AttnValue.lean ====
/-
  What the attention call leaves in its result array, entry by entry, at the extended reals, when the queries and the
  projection's result it reads hold reals. Row r of the result lies in query block r / 1024; along that block's eight
  points the carried state at row r % 1024 and column d is the scalar online-softmax triple of the row's logits
  x(n) = sum over e of Q(r, e) * KV(n, e) against the values KV(n, 1024 + d), taken key/value block by block; the last
  point stores the query entry plus acc / l, and that block is written back; so the entry is the query entry plus the
  softmax-weighted mean of the values.
-/
import proofs.«136249_g33603824124095_fold_wed_c4_546_3_alg».proof.Proof.Regs
import proofs.«136249_g33603824124095_fold_wed_c4_546_3_alg».proof.Proof.AttnIdx
import proofs.«136249_g33603824124095_fold_wed_c4_546_3_alg».proof.Proof.LibPlainDot
import proofs.«136249_g33603824124095_fold_wed_c4_546_3_alg».proof.Proof.StepValue
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.AttnValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-! ## Where the blocks sit in their arrays -/

/-- The four windows' block indices at point `t`: the queries' and the result's follow the query block `t / 8`, the keys'
    and the values' follow the key/value block `t % 8`, at block columns 0 and 1 of the projection's result. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 1
    ∧ win1_3.index t (0 : Fin 2) = t.val / 8 ∧ win1_3.index t (1 : Fin 2) = 0 :=
  (by decide +kernel : ∀ t : Fin grid1.N, _)

section Blocks

variable (V : (c : Dev nD) → (b : Ref sig .tc) → Buf (Elt Ideal) ((c : Thread nD τ).loc b))

/-- The query block at point `t` is rows `1024 (t / 8) …` of the queries. -/
theorem qblk_apply (t : Fin cfg1.N) (a e : Fin 1024) (r : Fin 8192) (hr : r.val = 1024 * (t.val / 8) + a.val) :
    (R1.iblk1 V c 0 t : Vec Ideal S1024x1024 .f32) (ix2 a e) = (V c main_v0 : S8192x1024.Idx → EReal) (ix2 r e) := by
  obtain ⟨h0, h1, -⟩ := idx_facts t
  unfold R1.iblk1
  rw [View.read_apply]
  show V c main_v0 _ = V c main_v0 _
  congr 1
  funext x
  apply Fin.ext
  match x with
  | ⟨0, _⟩ => show win1_0.index t (0 : Fin 2) * 1024 + 1 * a.val = r.val; rw [h0, hr]; omega
  | ⟨1, _⟩ => show win1_0.index t (1 : Fin 2) * 1024 + 1 * e.val = e.val; rw [h1]; omega

/-- The key block at point `t` is rows `1024 (t % 8) …`, columns `0 … 1023`, of the projection's result. -/
theorem kblk_apply (t : Fin cfg1.N) (b e : Fin 1024) (n : Fin 8192) (q : Fin 2048) (hn : n.val = 1024 * (t.val % 8) + b.val)
    (hq : q.val = e.val) :
    (R1.iblk1 V c 1 t : Vec Ideal S1024x1024 .bf16) (ix2 b e) = (V c main_v6 : S8192x2048.Idx → EReal) (ix2 n q) := by
  obtain ⟨-, -, h0, h1, -⟩ := idx_facts t
  unfold R1.iblk1
  rw [View.read_apply]
  show V c main_v6 _ = V c main_v6 _
  congr 1
  funext x
  apply Fin.ext
  match x with
  | ⟨0, _⟩ => show win1_1.index t (0 : Fin 2) * 1024 + 1 * b.val = n.val; rw [h0, hn]; omega
  | ⟨1, _⟩ => show win1_1.index t (1 : Fin 2) * 1024 + 1 * e.val = q.val; rw [h1, hq]; omega

/-- The value block at point `t` is rows `1024 (t % 8) …`, columns `1024 … 2047`, of the projection's result. -/
theorem vblk_apply (t : Fin cfg1.N) (b d : Fin 1024) (n : Fin 8192) (q : Fin 2048) (hn : n.val = 1024 * (t.val % 8) + b.val)
    (hq : q.val = 1024 + d.val) :
    (R1.iblk1 V c 2 t : Vec Ideal S1024x1024 .bf16) (ix2 b d) = (V c main_v6 : S8192x2048.Idx → EReal) (ix2 n q) := by
  obtain ⟨-, -, -, -, h0, h1, -⟩ := idx_facts t
  unfold R1.iblk1
  rw [View.read_apply]
  show V c main_v6 _ = V c main_v6 _
  congr 1
  funext x
  apply Fin.ext
  match x with
  | ⟨0, _⟩ => show win1_2.index t (0 : Fin 2) * 1024 + 1 * b.val = n.val; rw [h0, hn]; omega
  | ⟨1, _⟩ => show win1_2.index t (1 : Fin 2) * 1024 + 1 * d.val = q.val; rw [h1, hq]; omega

end Blocks

/-! ## The row's logits and values, block by block -/

/-- Row `b` of key/value block `j`. -/
def kvRow (j : Fin 8) (b : Fin 1024) : Fin 8192 := ⟨1024 * j.val + b.val, by have := j.isLt; have := b.isLt; omega⟩

/-- Column `e` among the key columns; column `d` among the value columns. -/
def keyCol (e : Fin 1024) : Fin 2048 := ⟨e.val, by have := e.isLt; omega⟩
def valCol (d : Fin 1024) : Fin 2048 := ⟨1024 + d.val, by have := d.isLt; omega⟩

/-- The logits of query row `r`, key block by key block, -/
def lgt (Q : Cert.Attn.SQ.Idx → ℝ) (KV : Cert.Attn.SKV.Idx → ℝ) (r : Fin 8192) : Fin 8 → Fin 1024 → ℝ :=
  fun j b => ∑ e : Fin 1024, Q (ix2 r e) * KV (ix2 (kvRow j b) (keyCol e))

/-- and the values of column `d`, value block by value block. -/
def vls (KV : Cert.Attn.SKV.Idx → ℝ) (d : Fin 1024) : Fin 8 → Fin 1024 → ℝ :=
  fun j b => KV (ix2 (kvRow j b) (valCol d))

section State

variable (V : (c : Dev nD) → (b : Ref sig .tc) → Buf (Elt Ideal) ((c : Thread nD τ).loc b))
variable (Q : Cert.Attn.SQ.Idx → ℝ) (KV : Cert.Attn.SKV.Idx → ℝ)
variable (hQ : ∀ i, V c main_v0 i = ((Q i : ℝ) : EReal)) (hKV : ∀ i, V c main_v6 i = ((KV i : ℝ) : EReal))

include hQ hKV in
/-- One point, read at row `a` and column `d`: the scalar step on the row's logits against key block `t % 8` and on that
    block's values. The logits are real: a finite sum of products of reals. -/
theorem point_at (t : Fin cfg1.N) (a d : Fin 1024) (r : Fin 8192) (hr : r.val = 1024 * (t.val / 8) + a.val)
    (j : Fin 8) (hj : j.val = t.val % 8) (s : R1.St Ideal) :
    StepValue.at3 (R1.step1 (R1.iblk1 V c 0 t) (R1.iblk1 V c 1 t) (R1.iblk1 V c 2 t) s) a d
      = Cert.Flash.step (fun b => ((lgt Q KV r j b : ℝ) : EReal)) (fun b => ((vls KV d j b : ℝ) : EReal)) (StepValue.at3 s a d) := by
  refine (StepValue.step1_at (R1.iblk1 V c 0 t) (R1.iblk1 V c 1 t) (R1.iblk1 V c 2 t) s a d).trans ?_
  have hn : ∀ b : Fin 1024, (kvRow j b).val = 1024 * (t.val % 8) + b.val := fun b => by
    show 1024 * j.val + b.val = _; rw [hj]
  congr 1
  · funext b
    unfold lgt
    rw [Cert.Flash.ereal_coe_sum]
    refine Finset.sum_congr rfl fun e _ => ?_
    rw [qblk_apply c V t a e r hr, kblk_apply c V t b e (kvRow j b) (keyCol e) (hn b) rfl, EReal.coe_mul]
    exact congrArg₂ (· * ·) (hQ _) (hKV _)
  · funext b
    rw [vblk_apply c V t b d (kvRow j b) (valCol d) (hn b) rfl]
    exact hKV _

/-- The carried state one point on, without a subtraction in the point's number. -/
theorem stAt1_succ (n : ℕ) (hn : n + 1 < cfg1.N) (h : ¬(n + 1) % 8 = 0) :
    R1.stAt1 V c (n + 1) hn
      = R1.step1 (R1.iblk1 V c 0 ⟨n + 1, hn⟩) (R1.iblk1 V c 1 ⟨n + 1, hn⟩) (R1.iblk1 V c 2 ⟨n + 1, hn⟩)
          (R1.stAt1 V c n (Nat.lt_of_succ_lt hn)) :=
  R1.stAt1_next V c ⟨n + 1, hn⟩ h

include hQ hKV in
/-- THE INVARIANT. After the point numbered `n`, the carried state at row `a` and column `d` is the scalar triple after
    the first `n % 8 + 1` blocks of the logits of query row `1024 (n / 8) + a` and of the values of column `d`. -/
theorem state_at (a d : Fin 1024) : ∀ (n : ℕ) (hn : n < cfg1.N) (r : Fin 8192), r.val = 1024 * (n / 8) + a.val →
    StepValue.at3 (R1.stAt1 V c n hn) a d
      = Cert.Flash.run (fun j b => ((lgt Q KV r j b : ℝ) : EReal)) (fun j b => ((vls KV d j b : ℝ) : EReal)) (n % 8 + 1) := by
  have hreset : ∀ (n : ℕ) (hn : n < cfg1.N) (r : Fin 8192), r.val = 1024 * (n / 8) + a.val → n % 8 = 0 →
      StepValue.at3 (R1.stAt1 V c n hn) a d
        = Cert.Flash.run (fun j b => ((lgt Q KV r j b : ℝ) : EReal)) (fun j b => ((vls KV d j b : ℝ) : EReal)) (n % 8 + 1) := by
    intro n hn r hr h0
    rw [R1.stAt1_reset V c ⟨n, hn⟩ h0, point_at c V Q KV hQ hKV ⟨n, hn⟩ a d r hr ⟨0, by norm_num⟩ h0.symm, StepValue.init1_at, h0,
      Cert.Flash.run_succ _ _ 0 (by norm_num), Cert.Flash.run_zero]
  intro n
  induction n with
  | zero => exact fun hn r hr => hreset 0 hn r hr rfl
  | succ n ih =>
    intro hn r hr
    by_cases h0 : (n + 1) % 8 = 0
    · exact hreset (n + 1) hn r hr h0
    · have hlt : (n + 1) % 8 < 8 := Nat.mod_lt _ (by norm_num)
      have hdiv : (n + 1) / 8 = n / 8 := by omega
      have hmod : (n + 1) % 8 = n % 8 + 1 := by omega
      rw [stAt1_succ c V n hn h0, point_at c V Q KV hQ hKV ⟨n + 1, hn⟩ a d r hr ⟨(n + 1) % 8, hlt⟩ rfl,
        ih (Nat.lt_of_succ_lt hn) r (by rw [hr, hdiv]), Cert.Flash.run_succ _ _ ((n + 1) % 8) hlt, ← hmod]

end State

/-! ## The flushed blocks and the whole array -/

/-- The result, entry by entry: the query entry plus the softmax-weighted mean of the column's values under the row's
    logits. -/
def Gout (Q : Cert.Attn.SQ.Idx → ℝ) (KV : Cert.Attn.SKV.Idx → ℝ) : S8192x1024.Idx → EReal := fun i =>
  ((Q i + Cert.Flash.softMean
      (fun n => ∑ e : Fin 1024, Q (ix2 (⟨(i 0).val, idx2_lt0 i⟩ : Fin 8192) e) * KV (ix2 n (keyCol e)))
      (fun n => KV (ix2 n (valCol (⟨(i 1).val, idx2_lt1 i⟩ : Fin 1024)))) : ℝ) : EReal)

/-- Entry `n % 1024` of block `n / 1024` is row `n`. -/
theorem kvRow_divmod (n : Fin 8192) :
    kvRow ⟨n.val / 1024, by have := n.isLt; omega⟩ ⟨n.val % 1024, Nat.mod_lt _ (by norm_num)⟩ = n :=
  Fin.ext (by show 1024 * (n.val / 1024) + n.val % 1024 = n.val; omega)

/-- The blockwise logits, read as one row of 8192. -/
theorem flat_lgt (Q : Cert.Attn.SQ.Idx → ℝ) (KV : Cert.Attn.SKV.Idx → ℝ) (r : Fin 8192) :
    Cert.Flash.flat (lgt Q KV r) = fun n => ∑ e : Fin 1024, Q (ix2 r e) * KV (ix2 n (keyCol e)) := by
  funext n
  show (∑ e : Fin 1024, Q (ix2 r e) * KV (ix2 (kvRow _ _) (keyCol e))) = _
  rw [kvRow_divmod]

/-- The blockwise values, read as one row of 8192. -/
theorem flat_vls (KV : Cert.Attn.SKV.Idx → ℝ) (d : Fin 1024) :
    Cert.Flash.flat (vls KV d) = fun n => KV (ix2 n (valCol d)) := by
  funext n
  show KV (ix2 (kvRow _ _) (valCol d)) = _
  rw [kvRow_divmod]

/-- An index of the result is in point `t`'s block iff each coordinate is in the block's range on its axis. -/
theorem mem_blk3 (t : Fin cfg1.N) (i : S8192x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v7).slice (win1_3.rect t)).set ↔ _
  rw [View.set_slice_whole, Rect.mem_set_unit]
  exact Iff.rfl

/-- Every entry of the result lies in the block written back at the last point of its query block. -/
theorem cover3 (i : S8192x1024.Idx) :
    ∃ t : Fin cfg1.N, (cfg1.win 3).flush t = true ∧ i ∈ ((cfg1.win 3).blk t).view.set := by
  have hi0 : (i 0).val < 8192 := idx2_lt0 i
  have hi1 : (i 1).val < 1024 := idx2_lt1 i
  have hN : cfg1.N = 64 := N_1
  have ht : 8 * ((i 0).val / 1024) + 7 < cfg1.N := by rw [hN]; omega
  refine ⟨⟨8 * ((i 0).val / 1024) + 7, ht⟩, (flush1_3 _).mpr (by show (8 * ((i 0).val / 1024) + 7) % 8 = 7; omega), ?_⟩
  obtain ⟨-, -, -, -, -, -, j0, j1⟩ := idx_facts ⟨8 * ((i 0).val / 1024) + 7, ht⟩
  have j0' : win1_3.index ⟨8 * ((i 0).val / 1024) + 7, ht⟩ (0 : Fin 2) = (i 0).val / 1024 := by
    rw [j0]; show (8 * ((i 0).val / 1024) + 7) / 8 = _; omega
  rw [mem_blk3]
  intro a
  match a with
  | ⟨0, _⟩ =>
    show win1_3.index ⟨8 * ((i 0).val / 1024) + 7, ht⟩ (0 : Fin 2) * 1024 ≤ (i 0).val
      ∧ (i 0).val < win1_3.index ⟨8 * ((i 0).val / 1024) + 7, ht⟩ (0 : Fin 2) * 1024 + 1024
    rw [j0']; omega
  | ⟨1, _⟩ =>
    show win1_3.index ⟨8 * ((i 0).val / 1024) + 7, ht⟩ (1 : Fin 2) * 1024 ≤ (i 1).val
      ∧ (i 1).val < win1_3.index ⟨8 * ((i 0).val / 1024) + 7, ht⟩ (1 : Fin 2) * 1024 + 1024
    rw [j1]; omega

section Array

variable (V : (c : Dev nD) → (b : Ref sig .tc) → Buf (Elt Ideal) ((c : Thread nD τ).loc b))
variable (Q : Cert.Attn.SQ.Idx → ℝ) (KV : Cert.Attn.SKV.Idx → ℝ)
variable (hQ : ∀ i, V c main_v0 i = ((Q i : ℝ) : EReal)) (hKV : ∀ i, V c main_v6 i = ((KV i : ℝ) : EReal))

include hQ hKV in
/-- WHAT A WRITE-BACK POINT WRITES BACK is its block of `Gout`: the point is the last of its query block, the state there
    is the scalar triple after all eight blocks, and `acc / l` of that is the softmax-weighted mean. -/
theorem flushed_eq (t : Fin cfg1.N) (hf : (cfg1.win 3).flush t = true) :
    (R1.dat1 V c).flushed 3 t = ((cfg1.win 3).blk t).view.read (Elt Ideal) (Gout Q KV) := by
  have h7 : t.val % 8 = 7 := (flush1_3 t).mp hf
  have hN : t.val < 64 := lt_of_lt_of_eq t.isLt N_1
  obtain ⟨-, -, -, -, -, -, i0, i1⟩ := idx_facts t
  show (cfg1.win 3).cut (grid1.coords t) ((R1.dat1 V c).after 3 t) = _
  rw [R1.after1_3]
  funext y
  obtain ⟨a, d, rfl⟩ : ∃ (a d : Fin 1024), y = ix2 a d := ⟨y 0, y 1, eq_ix2 y⟩
  rw [View.read_apply]
  have hr : 1024 * (t.val / 8) + a.val < 8192 := by have := a.isLt; omega
  have hemb : ((cfg1.win 3).blk t).view.emb (ix2 a d) = (ix2 (⟨1024 * (t.val / 8) + a.val, hr⟩ : Fin 8192) d : S8192x1024.Idx) := by
    funext x
    apply Fin.ext
    match x with
    | ⟨0, _⟩ => show win1_3.index t (0 : Fin 2) * 1024 + 1 * a.val = 1024 * (t.val / 8) + a.val; rw [i0]; omega
    | ⟨1, _⟩ => show win1_3.index t (1 : Fin 2) * 1024 + 1 * d.val = d.val; rw [i1]; omega
  show R1.outOf (R1.iblk1 V c 0 t) (R1.stAt1 V c t.val t.isLt) (ix2 a d) = Gout Q KV (((cfg1.win 3).blk t).view.emb (ix2 a d))
  rw [hemb]
  refine (StepValue.outOf_at (R1.iblk1 V c 0 t) (R1.stAt1 V c t.val t.isLt) a d).trans ?_
  have h3 := state_at c V Q KV hQ hKV a d t.val t.isLt ⟨1024 * (t.val / 8) + a.val, hr⟩ rfl
  rw [h7] at h3
  have e1 : (R1.stAt1 V c t.val t.isLt).1 (ix2 a d) = _ := congrArg Prod.fst h3
  have e2 : (R1.stAt1 V c t.val t.isLt).2.2 (ix2 a (0 : Fin 1)) = _ := congrArg (fun p : Cert.Flash.S3 => p.2.2) h3
  rw [e1, e2, Cert.Flash.run_div, qblk_apply c V t a d ⟨1024 * (t.val / 8) + a.val, hr⟩ rfl, hQ, ← EReal.coe_add, flat_lgt, flat_vls]
  rfl

include hQ hKV in
/-- So the result array ends holding `Gout`. -/
theorem final : (R1.dat1 V c).arrAt 3 cfg1.N = Gout Q KV :=
  (R1.dat1 V c).arrAt_eq_of_cover 3 (Gout Q KV) (fun t ht => flushed_eq c V Q KV hQ hKV t ht) cover3

end Array

/-- The entry (r, d) of what the attention call leaves. -/
theorem o7_apply (Q : Cert.Attn.SQ.Idx → ℝ) (KV : Cert.Attn.SKV.Idx → ℝ)
    (hQ : ∀ i, Run.Vf2 m c main_v0 i = ((Q i : ℝ) : EReal)) (hKV : ∀ i, Run.Vf2 m c main_v6 i = ((KV i : ℝ) : EReal))
    (r : Fin 8192) (d : Fin 1024) :
    Run.o7 m c (ix2 r d)
      = (((Q (ix2 r d) + Cert.Flash.softMean
            (fun n => ∑ e : Fin 1024, Q (ix2 r e) * KV (ix2 n (⟨e.val, by have := e.isLt; omega⟩ : Fin 2048)))
            (fun n => KV (ix2 n (⟨1024 + d.val, by have := d.isLt; omega⟩ : Fin 2048)))) : ℝ) : EReal) := by
  unfold Run.o7
  rw [final c (Run.Vf2 m) Q KV hQ hKV]
  rfl

end Cert.KernelIdeal.AttnValue

end
-- ==== Proof.RefValue.lean ====
/-
  The reference's result, entry by entry, at the extended reals, when the argument arrays hold reals: the keys and the
  values are the memory matrix times the transposed weight matrices, the logits of a query row are its products with all
  8192 key rows, their softmax (each exponential of a logit minus the row's maximum, divided by the sum of them all)
  weights the value rows, and the weighted sum is added to the query entry.
-/
import proofs.«136249_g33603824124095_fold_wed_c4_546_3_alg».proof.Proof.Gen.ReferenceIdeal.Run
import proofs.«136249_g33603824124095_fold_wed_c4_546_3_alg».proof.Proof.Gen.ReferenceIdeal.Read
import proofs.«136249_g33603824124095_fold_wed_c4_546_3_alg».proof.Proof.AttnSpec
import proofs.«136249_g33603824124095_fold_wed_c4_546_3_alg».proof.Proof.LibPlainDot
import Idealize.ShloMosaic.Lib.ValueIdx
import Idealize.ShloMosaic.PureOps.Ideal.Laws

set_option maxRecDepth 16384

noncomputable section

open scoped BigOperators

namespace Cert.RefValue

open Idealize.ShloMosaic Idealize.ShloMosaic.ValueIdx
open Cert.ReferenceIdeal Cert.ReferenceIdeal.Gen

open Cert.ReferenceIdeal.Read

/-! ### The generated index functions at an entry given by its coordinates -/

theorem lidx1_ix (n : Fin 8192) (d k : Fin 1024) : lidx_main_v1 (ix2 n d) k = ix2 n k :=
  funext fun a => Fin.ext (by match a with | ⟨0, _⟩ => rfl | ⟨1, _⟩ => rfl)
theorem ridx1_ix (n : Fin 8192) (d k : Fin 1024) : idx_main_v0 (ridx_main_v1 (ix2 n d) k) = ix2 d k :=
  funext fun a => Fin.ext (by match a with | ⟨0, _⟩ => rfl | ⟨1, _⟩ => rfl)
theorem lidx3_ix (n : Fin 8192) (d k : Fin 1024) : lidx_main_v3 (ix2 n d) k = ix2 n k :=
  funext fun a => Fin.ext (by match a with | ⟨0, _⟩ => rfl | ⟨1, _⟩ => rfl)
theorem ridx3_ix (n : Fin 8192) (d k : Fin 1024) : idx_main_v2 (ridx_main_v3 (ix2 n d) k) = ix2 d k :=
  funext fun a => Fin.ext (by match a with | ⟨0, _⟩ => rfl | ⟨1, _⟩ => rfl)
theorem lidx4_ix (b : Fin 4) (s : Fin 2048) (n : Fin 8192) (k : Fin 1024) : lidx_main_v4 (ix3 b s n) k = ix3 b s k :=
  funext fun a => Fin.ext (by match a with | ⟨0, _⟩ => rfl | ⟨1, _⟩ => rfl | ⟨2, _⟩ => rfl)
theorem ridx4_ix (b : Fin 4) (s : Fin 2048) (n : Fin 8192) (k : Fin 1024) : ridx_main_v4 (ix3 b s n) k = ix2 n k :=
  funext fun a => Fin.ext (by match a with | ⟨0, _⟩ => rfl | ⟨1, _⟩ => rfl)

/-! ### Keys, values, logits -/

/-- The key entry (n, d). -/
theorem keys_apply (M : Cert.Attn.SM.Idx → ℝ) (Wk : Cert.Attn.SW.Idx → ℝ)
    (x1 : (⟨S8192x1024, .f32⟩ : BufTy).Contents (Elt Ideal)) (x2 : (⟨S1024x1024, .f32⟩ : BufTy).Contents (Elt Ideal))
    (h1 : ∀ i, x1 i = ((M i : ℝ) : EReal)) (h2 : ∀ i, x2 i = ((Wk i : ℝ) : EReal)) (n : Fin 8192) (d : Fin 1024) :
    val_main_v1 (F := Ideal) x1 x2 (ix2 n d) = ((Cert.Attn.proj M Wk n d : ℝ) : EReal) := by
  rw [val_main_v1_apply, Cert.Attn.proj, Cert.Flash.ereal_coe_sum]
  refine Finset.sum_congr rfl fun k _ => ?_
  rw [val_main_v0_apply, lidx1_ix, ridx1_ix, h1, h2, EReal.coe_mul]

/-- The value entry (n, d). -/
theorem values_apply (M : Cert.Attn.SM.Idx → ℝ) (Wv : Cert.Attn.SW.Idx → ℝ)
    (x1 : (⟨S8192x1024, .f32⟩ : BufTy).Contents (Elt Ideal)) (x3 : (⟨S1024x1024, .f32⟩ : BufTy).Contents (Elt Ideal))
    (h1 : ∀ i, x1 i = ((M i : ℝ) : EReal)) (h3 : ∀ i, x3 i = ((Wv i : ℝ) : EReal)) (n : Fin 8192) (d : Fin 1024) :
    val_main_v3 (F := Ideal) x1 x3 (ix2 n d) = ((Cert.Attn.proj M Wv n d : ℝ) : EReal) := by
  rw [val_main_v3_apply, Cert.Attn.proj, Cert.Flash.ereal_coe_sum]
  refine Finset.sum_congr rfl fun k _ => ?_
  rw [val_main_v2_apply, lidx3_ix, ridx3_ix, h1, h3, EReal.coe_mul]

/-- The logit of query row (b, s) against key row n. -/
theorem logits_apply (H : Cert.Attn.SH.Idx → ℝ) (M : Cert.Attn.SM.Idx → ℝ) (Wk : Cert.Attn.SW.Idx → ℝ)
    (x0 : (⟨S4x2048x1024, .f32⟩ : BufTy).Contents (Elt Ideal)) (x1 : (⟨S8192x1024, .f32⟩ : BufTy).Contents (Elt Ideal))
    (x2 : (⟨S1024x1024, .f32⟩ : BufTy).Contents (Elt Ideal))
    (h0 : ∀ i, x0 i = ((H i : ℝ) : EReal)) (h1 : ∀ i, x1 i = ((M i : ℝ) : EReal)) (h2 : ∀ i, x2 i = ((Wk i : ℝ) : EReal))
    (b : Fin 4) (s : Fin 2048) (n : Fin 8192) :
    val_main_v4 (F := Ideal) x0 x1 x2 (ix3 b s n) = ((Cert.Attn.logit H M Wk b s n : ℝ) : EReal) := by
  rw [val_main_v4_apply, Cert.Attn.logit, Cert.Flash.ereal_coe_sum]
  refine Finset.sum_congr rfl fun k _ => ?_
  rw [lidx4_ix, ridx4_ix, keys_apply M Wk x1 x2 h1 h2 n k, h0, EReal.coe_mul]

/-! ### The row maximum -/

/-- The bit pattern of minus infinity. -/
theorem ofBits_ninf : Ideal.ofBits .f32 0xFF800000#32 = (⊥ : EReal) := by simp [Ideal.ofBits, Ideal.ieee]

/-- Row (b, s) with the coordinate k put back on the last axis. -/
theorem lift_ix (h : S4x2048x8192.Reduces [2] S4x2048) (b : Fin 4) (s : Fin 2048) (k : Fin (S4x2048x8192.size 2)) :
    h.lift (ix2 b s) k = ix3 b s (⟨k.val, k.isLt⟩ : Fin 8192) := by
  funext c
  apply Fin.ext
  match c with
  | ⟨0, _⟩ => rfl
  | ⟨1, _⟩ => rfl
  | ⟨2, _⟩ => rfl

/-- The maximum-reduce over the last axis from minus infinity, at row (b, s), is the fold of max over that row. -/
theorem reduce_max_apply (y : (⟨S4x2048x8192, .f32⟩ : BufTy).Contents (Elt Ideal)) (b : Fin 4) (s : Fin 2048) :
    Host.reduce (FloatOps.maximumf (F := Ideal) (φ := .f32)) y (val_main_cst (F := Ideal))
        reducesTo_S4x2048x8192_S4x2048_d2 h_S_ (ix2 b s)
      = Finset.univ.fold max (⊥ : EReal) (fun n : Fin 8192 => y (ix3 b s n)) := by
  have h : S4x2048x8192.Reduces [2] S4x2048 := by decide
  rw [Host.reduce_eq_fold_single (FloatOps.maximumf (F := Ideal) (φ := .f32)) y _ reducesTo_S4x2048x8192_S4x2048_d2 h h_S_]
  have hf : (y ∘ h.lift (ix2 b s)) = fun k : Fin 8192 => y (ix3 b s k) :=
    funext fun k => congrArg y (lift_ix h b s k)
  rw [hf, val_main_cst_apply]
  exact congrArg (fun z => Finset.fold max z (fun n : Fin 8192 => y (ix3 b s n)) Finset.univ) ofBits_ninf

/-! ### The generated index functions of the later operations -/

theorem idx9_ix (b : Fin 4) (s : Fin 2048) (n : Fin 8192) : idx_main_v8 (idx_main_v9 (ix3 b s n)) = ix2 b s :=
  funext fun a => Fin.ext (by match a with | ⟨0, _⟩ => rfl | ⟨1, _⟩ => rfl)
theorem idx14_ix (b : Fin 4) (s : Fin 2048) (n : Fin 8192) : idx_main_v13 (idx_main_v14 (ix3 b s n)) = ix2 b s :=
  funext fun a => Fin.ext (by match a with | ⟨0, _⟩ => rfl | ⟨1, _⟩ => rfl)
theorem idx12_ix (b : Fin 4) (s : Fin 2048) (k : Fin 8192) : idx_main_v12 (ix2 b s) k = ix3 b s k :=
  funext fun a => Fin.ext (by match a with | ⟨0, _⟩ => rfl | ⟨1, _⟩ => rfl | ⟨2, _⟩ => rfl)
theorem lidx16_ix (b : Fin 4) (s : Fin 2048) (d : Fin 1024) (k : Fin 8192) : lidx_main_v16 (ix3 b s d) k = ix3 b s k :=
  funext fun a => Fin.ext (by match a with | ⟨0, _⟩ => rfl | ⟨1, _⟩ => rfl | ⟨2, _⟩ => rfl)
theorem ridx16_ix (b : Fin 4) (s : Fin 2048) (d : Fin 1024) (k : Fin 8192) : ridx_main_v16 (ix3 b s d) k = ix2 k d :=
  funext fun a => Fin.ext (by match a with | ⟨0, _⟩ => rfl | ⟨1, _⟩ => rfl)

/-! ### The softmax of a row -/

section Row

variable (H : Cert.Attn.SH.Idx → ℝ) (M : Cert.Attn.SM.Idx → ℝ) (Wk : Cert.Attn.SW.Idx → ℝ)
  (x0 : (⟨S4x2048x1024, .f32⟩ : BufTy).Contents (Elt Ideal)) (x1 : (⟨S8192x1024, .f32⟩ : BufTy).Contents (Elt Ideal))
  (x2 : (⟨S1024x1024, .f32⟩ : BufTy).Contents (Elt Ideal))
  (h0 : ∀ i, x0 i = ((H i : ℝ) : EReal)) (h1 : ∀ i, x1 i = ((M i : ℝ) : EReal)) (h2 : ∀ i, x2 i = ((Wk i : ℝ) : EReal))
  (b : Fin 4) (s : Fin 2048)

include h0 h1 h2

/-- The row's maximum as the program computes it: the larger of minus infinity and the fold of max from minus infinity. -/
theorem rowmax_apply :
    val_main_v7 (F := Ideal) x0 x1 x2 (ix2 b s)
      = max (⊥ : EReal) (Finset.univ.fold max ⊥ fun n' => ((Cert.Attn.logit H M Wk b s n' : ℝ) : EReal)) := by
  rw [val_main_v7_apply, Ideal.maximumf_def, val_main_v6_apply, val_main_cst_0_apply]
  unfold val_main_v5
  rw [reduce_max_apply]
  simp only [logits_apply H M Wk x0 x1 x2 h0 h1 h2]
  exact congrArg (fun z => max z _) ofBits_ninf

/-- The exponential of a logit minus the row's maximum. -/
theorem exp_apply (n : Fin 8192) :
    val_main_v11 (F := Ideal) x0 x1 x2 (ix3 b s n)
      = Ideal.exp (((Cert.Attn.logit H M Wk b s n : ℝ) : EReal)
          - max ⊥ (Finset.univ.fold max ⊥ fun n' => ((Cert.Attn.logit H M Wk b s n' : ℝ) : EReal))) := by
  rw [val_main_v11_apply, Ideal.hostUnary_exp_def, val_main_v10_apply, Ideal.subf_def, val_main_v9_apply,
    val_main_v8_apply, idx9_ix, rowmax_apply H M Wk x0 x1 x2 h0 h1 h2, logits_apply H M Wk x0 x1 x2 h0 h1 h2]

/-- The sum of the row's exponentials, from a zero initial value. -/
theorem expsum_apply :
    val_main_v12 (F := Ideal) x0 x1 x2 (ix2 b s)
      = (0 : EReal) + ∑ n'' : Fin 8192, Ideal.exp (((Cert.Attn.logit H M Wk b s n'' : ℝ) : EReal)
          - max ⊥ (Finset.univ.fold max ⊥ fun n' => ((Cert.Attn.logit H M Wk b s n' : ℝ) : EReal))) := by
  rw [val_main_v12_apply, val_main_cst_1_apply]
  refine congrArg₂ (· + ·) Ideal.ofBits_zero_f32 (Finset.sum_congr rfl fun k _ => ?_)
  rw [idx12_ix, exp_apply H M Wk x0 x1 x2 h0 h1 h2]

/-- The normalised weight of key row n. -/
theorem weight_apply (n : Fin 8192) :
    val_main_v15 (F := Ideal) x0 x1 x2 (ix3 b s n)
      = Ideal.div (Ideal.exp (((Cert.Attn.logit H M Wk b s n : ℝ) : EReal)
            - max ⊥ (Finset.univ.fold max ⊥ fun n' => ((Cert.Attn.logit H M Wk b s n' : ℝ) : EReal))))
          ((0 : EReal) + ∑ n'' : Fin 8192, Ideal.exp (((Cert.Attn.logit H M Wk b s n'' : ℝ) : EReal)
            - max ⊥ (Finset.univ.fold max ⊥ fun n' => ((Cert.Attn.logit H M Wk b s n' : ℝ) : EReal)))) := by
  rw [val_main_v15_apply, Ideal.hostDivf_def, val_main_v14_apply, val_main_v13_apply, idx14_ix,
    expsum_apply H M Wk x0 x1 x2 h0 h1 h2, exp_apply H M Wk x0 x1 x2 h0 h1 h2]

end Row

/-- The reference's result entry (b, s, d) is the attention's real result there. -/
theorem ref_apply (H : Cert.Attn.SH.Idx → ℝ) (M : Cert.Attn.SM.Idx → ℝ) (Wk Wv : Cert.Attn.SW.Idx → ℝ)
    (x0 : (⟨S4x2048x1024, .f32⟩ : BufTy).Contents (Elt Ideal)) (x1 : (⟨S8192x1024, .f32⟩ : BufTy).Contents (Elt Ideal))
    (x2 x3 : (⟨S1024x1024, .f32⟩ : BufTy).Contents (Elt Ideal))
    (h0 : ∀ i, x0 i = ((H i : ℝ) : EReal)) (h1 : ∀ i, x1 i = ((M i : ℝ) : EReal))
    (h2 : ∀ i, x2 i = ((Wk i : ℝ) : EReal)) (h3 : ∀ i, x3 i = ((Wv i : ℝ) : EReal))
    (b : Fin 4) (s : Fin 2048) (d : Fin 1024) :
    Cert.ReferenceIdeal.Read.val_main_v17 (F := Ideal) x0 x1 x2 x3 (ix3 b s d)
      = ((Cert.Attn.out H M Wk Wv b s d : ℝ) : EReal) := by
  rw [val_main_v17_apply, Ideal.addf_def, val_main_v16_apply, h0, Cert.Attn.out, EReal.coe_add,
    ← Cert.Flash.softmax_sum (Cert.Attn.logit H M Wk b s) (fun n => Cert.Attn.proj M Wv n d)]
  refine congrArg (_ + ·) (Finset.sum_congr rfl fun k _ => ?_)
  rw [lidx16_ix, ridx16_ix, weight_apply H M Wk x0 x1 x2 h0 h1 h2, values_apply M Wv x1 x3 h1 h3]

end Cert.RefValue

end
-- ==== Proof.Finite.lean ====
/-
  Under the precondition every entry of every argument array is a real number (not plus or minus infinity): the printed
  precondition says, array by array, that the absolute value of every entry is below plus infinity.
-/
import proofs.«136249_g33603824124095_fold_wed_c4_546_3_alg».proof.Defs
import proofs.«136249_g33603824124095_fold_wed_c4_546_3_alg».proof.Proof.Gen.Pre_finite_inputs
import Idealize.ShloMosaic.Lib.ReduceAll
import Idealize.ShloMosaic.Lib.ValueIdx

noncomputable section

namespace Cert.Finite

open Idealize.ShloMosaic Idealize.SL.Sem

/-- The word 0x7F800000 read as an extended real is plus infinity: all exponent bits set, no fraction bit, sign clear. -/
theorem inf_word_eq_top : Ideal.ofBits .f32 0x7F800000#32 = (⊤ : EReal) := by
  simp [Ideal.ofBits, Ideal.ieee]

/-- An extended real whose absolute value, max x (-x), is strictly below plus infinity is a real number: at minus
    infinity and at plus infinity that maximum is plus infinity itself. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- One array's part of the precondition, at any shape: if the conjunction over all entries of "the absolute value
    of the entry is below plus infinity" holds, every entry is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ValueIdx.ix0 = 1#1)
    (i : s.Idx) : ∃ r : ℝ, x i = (r : EReal) := by
  haveI : Subsingleton (⟨0, ![]⟩ : Shape).Idx := ⟨fun a b => funext fun d => d.elim0⟩
  have hi := Host.reduce_andi_all
    (cmpf .olt (Host.absf x) (broadcastInDim s ![] hb (constant (F := Ideal) (⟨0, ![]⟩ : Shape) .f32 0x7F800000#32)))
    (constantI (⟨0, ![]⟩ : Shape) 1 1#1) hr h0 ValueIdx.ix0 e i
  -- at the entry i the compare reads: max (x i) (-(x i)) against the constant's value
  have hi' : Ideal.cmp .olt (max (x i) (-(x i))) (Ideal.ofBits .f32 0x7F800000#32) = 1#1 := hi
  rw [inf_word_eq_top] at hi'
  exact real_of_abs_lt_top (x i) hi'

variable [hP : Cert.Pre_finite_inputs.Facts]

open Cert.Pre_finite_inputs in
/-- The printed predicate at its one index is the conjunction of four reductions, one per argument array: each the
    conjunction over all entries of "the absolute value of the entry is below plus infinity". -/
theorem fn_split (a0 : FVec Ideal S4x2048x1024 .f32) (a1 : FVec Ideal S8192x1024 .f32)
    (a2 : FVec Ideal S1024x1024 .f32) (a3 : FVec Ideal S1024x1024 .f32)
    (h : Cert.Pre_finite_inputs.fn (F := Ideal) a0 a1 a2 a3 ValueIdx.ix0 = 1#1) :
    (((Host.reduce IntOp.andi
          (cmpf .olt (Host.absf a0) (broadcastInDim S4x2048x1024 ![] Facts.bcast_S_S4x2048x1024 (constant (F := Ideal) S_ .f32 0x7F800000#32)))
          (constantI S_ 1 1#1) Facts.reducesTo_S4x2048x1024_S_d0_1_2 Facts.h_S_ ValueIdx.ix0 = 1#1
      ∧ Host.reduce IntOp.andi
          (cmpf .olt (Host.absf a1) (broadcastInDim S8192x1024 ![] Facts.bcast_S_S8192x1024 (constant (F := Ideal) S_ .f32 0x7F800000#32)))
          (constantI S_ 1 1#1) Facts.reducesTo_S8192x1024_S_d0_1 Facts.h_S_ ValueIdx.ix0 = 1#1)
      ∧ Host.reduce IntOp.andi
          (cmpf .olt (Host.absf a2) (broadcastInDim S1024x1024 ![] Facts.bcast_S_S1024x1024 (constant (F := Ideal) S_ .f32 0x7F800000#32)))
          (constantI S_ 1 1#1) Facts.reducesTo_S1024x1024_S_d0_1 Facts.h_S_ ValueIdx.ix0 = 1#1)
      ∧ Host.reduce IntOp.andi
          (cmpf .olt (Host.absf a3) (broadcastInDim S1024x1024 ![] Facts.bcast_S_S1024x1024 (constant (F := Ideal) S_ .f32 0x7F800000#32)))
          (constantI S_ 1 1#1) Facts.reducesTo_S1024x1024_S_d0_1 Facts.h_S_ ValueIdx.ix0 = 1#1) := by
  simp only [Cert.Pre_finite_inputs.fn, Cert.Pre_finite_inputs.fn_part1, andi, IntOp.andi_eq_one] at h
  exact h

/-- The queries. -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4x2048x1024.Idx) :
    ∃ r : ℝ, m ((c.tc : Thread Cert.KernelIdeal.nD Cert.KernelIdeal.τ).loc Cert.KernelIdeal.main_arg0) i = (r : EReal) := by
  have hc := fn_split
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (congrFun (h c) ValueIdx.ix0)
  exact all_real
    (m ((c.tc : Thread Cert.KernelIdeal.nD Cert.KernelIdeal.τ).loc Cert.KernelIdeal.main_arg0))
    Cert.Pre_finite_inputs.Facts.bcast_S_S4x2048x1024 Cert.Pre_finite_inputs.Facts.reducesTo_S4x2048x1024_S_d0_1_2 Cert.Pre_finite_inputs.Facts.h_S_ hc.1.1.1 i

/-- The memory matrix. -/
theorem arg1_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8192x1024.Idx) :
    ∃ r : ℝ, m ((c.tc : Thread Cert.KernelIdeal.nD Cert.KernelIdeal.τ).loc Cert.KernelIdeal.main_arg1) i = (r : EReal) := by
  have hc := fn_split
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (congrFun (h c) ValueIdx.ix0)
  exact all_real
    (m ((c.tc : Thread Cert.KernelIdeal.nD Cert.KernelIdeal.τ).loc Cert.KernelIdeal.main_arg1))
    Cert.Pre_finite_inputs.Facts.bcast_S_S8192x1024 Cert.Pre_finite_inputs.Facts.reducesTo_S8192x1024_S_d0_1 Cert.Pre_finite_inputs.Facts.h_S_ hc.1.1.2 i

/-- The key weights. -/
theorem arg2_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S1024x1024.Idx) :
    ∃ r : ℝ, m ((c.tc : Thread Cert.KernelIdeal.nD Cert.KernelIdeal.τ).loc Cert.KernelIdeal.main_arg2) i = (r : EReal) := by
  have hc := fn_split
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (congrFun (h c) ValueIdx.ix0)
  exact all_real
    (m ((c.tc : Thread Cert.KernelIdeal.nD Cert.KernelIdeal.τ).loc Cert.KernelIdeal.main_arg2))
    Cert.Pre_finite_inputs.Facts.bcast_S_S1024x1024 Cert.Pre_finite_inputs.Facts.reducesTo_S1024x1024_S_d0_1 Cert.Pre_finite_inputs.Facts.h_S_ hc.1.2 i

/-- The value weights. -/
theorem arg3_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S1024x1024.Idx) :
    ∃ r : ℝ, m ((c.tc : Thread Cert.KernelIdeal.nD Cert.KernelIdeal.τ).loc Cert.KernelIdeal.main_arg3) i = (r : EReal) := by
  have hc := fn_split
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (congrFun (h c) ValueIdx.ix0)
  exact all_real
    (m ((c.tc : Thread Cert.KernelIdeal.nD Cert.KernelIdeal.τ).loc Cert.KernelIdeal.main_arg3))
    Cert.Pre_finite_inputs.Facts.bcast_S_S1024x1024 Cert.Pre_finite_inputs.Facts.reducesTo_S1024x1024_S_d0_1 Cert.Pre_finite_inputs.Facts.h_S_ hc.2 i

end Cert.Finite

end
-- ==== Proof.Bridge.lean ====
/-
  The two programs compute one function. Under the precondition the four argument arrays hold reals H, M, Wk, Wv. The
  kernel's result entry (b, s, d) is entry (2048 b + s, d) of what the attention call leaves, which is the query entry plus the
  softmax-weighted mean of the values over the row's logits, read through the reshaped queries and the projection's result;
  written over H, M, Wk, Wv that is the attention's real result. The reference's result entry is the same real. So the two
  result arrays are equal, entry by entry.
-/
import proofs.«136249_g33603824124095_fold_wed_c4_546_3_alg».proof.Proof.KVValue
import proofs.«136249_g33603824124095_fold_wed_c4_546_3_alg».proof.Proof.HostReshape
import proofs.«136249_g33603824124095_fold_wed_c4_546_3_alg».proof.Proof.AttnValue
import proofs.«136249_g33603824124095_fold_wed_c4_546_3_alg».proof.Proof.RefValue
import proofs.«136249_g33603824124095_fold_wed_c4_546_3_alg».proof.Proof.Finite

noncomputable section

open scoped BigOperators

namespace Cert.Bridge

open Idealize.ShloMosaic Idealize.ShloMosaic.TcCoe Idealize.ShloMosaic.ValueIdx Idealize.SL.Sem
open Cert.KernelIdeal Cert.KernelIdeal.Gen

/-- The kernel's result entry (b, s, d), when the argument arrays hold the reals H, M, Wk, Wv. -/
theorem kernel_entry (m : (ℓ : Loc nD τ sig) → Buf (Elt Ideal) ℓ) (c : Dev nD)
    (H : Cert.Attn.SH.Idx → ℝ) (M : Cert.Attn.SM.Idx → ℝ) (Wk Wv : Cert.Attn.SW.Idx → ℝ)
    (hH : ∀ i, m ((c.tc : Thread nD τ).loc main_arg0) i = ((H i : ℝ) : EReal))
    (hM : ∀ i, m ((c.tc : Thread nD τ).loc main_arg1) i = ((M i : ℝ) : EReal))
    (hWk : ∀ i, m ((c.tc : Thread nD τ).loc main_arg2) i = ((Wk i : ℝ) : EReal))
    (hWv : ∀ i, m ((c.tc : Thread nD τ).loc main_arg3) i = ((Wv i : ℝ) : EReal))
    (b : Fin 4) (s : Fin 2048) (d : Fin 1024) :
    Gen.V4 m (Run.outsK m) c main_v8 (ix3 b s d) = ((Cert.Attn.out H M Wk Wv b s d : ℝ) : EReal) := by
  rw [HostReshape.v8_apply m c b s d,
    AttnValue.o7_apply m c (Cert.Attn.Qof H) (Cert.Attn.KVof M Wk Wv) (HostReshape.v0_real m c H hH) (KV.v6_real m c M Wk Wv hM hWk hWv)]
  congr 1
  unfold Cert.Attn.out Cert.Attn.logit
  simp only [Cert.Attn.Qof_ix, Cert.Attn.KVof_key, Cert.Attn.KVof_val]

/-- The reference's result array, computed from a memory that agrees with the kernel's on the arguments, is the kernel's. -/
theorem result_eq [hP : Cert.Pre_finite_inputs.Facts]
    (m : (ℓ : Loc nD τ sig) → Buf (Elt Ideal) ℓ) (hpre : Cert.Pre_KernelIdeal m) (c : Dev nD)
    (x0 : (⟨Cert.ReferenceIdeal.S4x2048x1024, .f32⟩ : BufTy).Contents (Elt Ideal))
    (x1 : (⟨Cert.ReferenceIdeal.S8192x1024, .f32⟩ : BufTy).Contents (Elt Ideal))
    (x2 x3 : (⟨Cert.ReferenceIdeal.S1024x1024, .f32⟩ : BufTy).Contents (Elt Ideal))
    (e0 : x0 = m ((c.tc : Thread nD τ).loc main_arg0)) (e1 : x1 = m ((c.tc : Thread nD τ).loc main_arg1))
    (e2 : x2 = m ((c.tc : Thread nD τ).loc main_arg2)) (e3 : x3 = m ((c.tc : Thread nD τ).loc main_arg3)) :
    Cert.ReferenceIdeal.Read.val_main_v17 (F := Ideal) x0 x1 x2 x3 = Gen.V4 m (Run.outsK m) c main_v8 := by
  choose H hH using fun i => Cert.Finite.arg0_real m hpre c i
  choose M hM using fun i => Cert.Finite.arg1_real m hpre c i
  choose Wk hWk using fun i => Cert.Finite.arg2_real m hpre c i
  choose Wv hWv using fun i => Cert.Finite.arg3_real m hpre c i
  funext i
  obtain ⟨b, s, d, rfl⟩ : ∃ (b : Fin 4) (s : Fin 2048) (d : Fin 1024), i = ix3 b s d := ⟨i 0, i 1, i 2, eq_ix3 i⟩
  rw [Cert.RefValue.ref_apply H M Wk Wv x0 x1 x2 x3 (fun i => by rw [e0]; exact hH i) (fun i => by rw [e1]; exact hM i)
      (fun i => by rw [e2]; exact hWk i) (fun i => by rw [e3]; exact hWv i) b s d]
  exact (kernel_entry m c H M Wk Wv hH hM hWk hWv b s d).symm

end Cert.Bridge

end
-- ==== Proof.lean ====
/-
  The certificate of a flash-attention kernel against its reference, over the extended reals.
  The kernel: the memory matrix M (8192 by 1024) is multiplied by the concatenated transposed weight matrices in one call
  (keys in the left half of the columns, values in the right half); a second call walks, for each block of 1024 query rows,
  over the eight blocks of 1024 key/value rows, keeping a running row maximum, a running row sum and an unnormalised output
  that it rescales by the exponential of the old maximum minus the new one before adding each block's contribution, and at
  the last block stores the query block plus the output divided by the sum. The reference: keys and values by two products,
  the logits of every query row against all 8192 keys, their softmax, the weighted sum of the values, added to the queries.
  The three frames: each program runs to the end from any memory, faults nowhere and leaves its four argument arrays as they
  were (the kernel's two programs by one run of their items: the host operations, the two calls, the closing reshape; the
  reference's by its run of host operations). The idealization rewrote nothing, so there is nothing to preserve. The
  algebraic claim: under the precondition the argument arrays hold reals, every logit is a real, the rescaling telescopes
  (exp (a - M) * exp (M - M') = exp (a - M')), the first block's factor exp (minus infinity) is zero against a zero state, the
  final divisor is a positive real, and (the sum of e_n * v_n) / S = the sum of (e_n / S) * v_n: both programs end at the query
  entry plus the softmax-weighted mean of the values.
-/
import proofs.«136249_g33603824124095_fold_wed_c4_546_3_alg».proof.Defs
import proofs.«136249_g33603824124095_fold_wed_c4_546_3_alg».proof.Proof.Gen.Kernel
import proofs.«136249_g33603824124095_fold_wed_c4_546_3_alg».proof.Proof.Gen.KernelIdeal
import proofs.«136249_g33603824124095_fold_wed_c4_546_3_alg».proof.Proof.Gen.ReferenceIdeal
import proofs.«136249_g33603824124095_fold_wed_c4_546_3_alg».proof.Proof.Gen.Pre_finite_inputs
import proofs.«136249_g33603824124095_fold_wed_c4_546_3_alg».proof.Proof.Gen.ReferenceIdeal.Run
import proofs.«136249_g33603824124095_fold_wed_c4_546_3_alg».proof.Proof.Gen.ReferenceIdeal.Read
import proofs.«136249_g33603824124095_fold_wed_c4_546_3_alg».proof.Proof.Regs
import proofs.«136249_g33603824124095_fold_wed_c4_546_3_alg».proof.Proof.Bits.Regs
import proofs.«136249_g33603824124095_fold_wed_c4_546_3_alg».proof.Proof.Bridge

noncomputable section

namespace Cert.Proof

open Idealize.ShloMosaic Idealize.ShloMosaic.TcCoe Idealize.SL.Sem

/-- The bit-level program runs and keeps its arguments: its run, the result's value dropped. -/
theorem frame_k : Cert.frame_Kernel := fun m ρ _ =>
  (θ_run (Cert.Kernel.defs (F := Bits)) _ _).mono (fun _ h c => (h c).2) (Cert.Kernel.Run.run_main (F := Bits) m ρ)

/-- The same program read at the extended reals. -/
theorem frame_ki : Cert.frame_KernelIdeal := fun m ρ _ =>
  (θ_run (Cert.KernelIdeal.defs (F := Ideal)) _ _).mono (fun _ h c => (h c).2) (Cert.KernelIdeal.Run.run_main (F := Ideal) m ρ)

/-- The reference runs and keeps its arguments: its run of host operations, the result's value dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- From memories agreeing on the arguments both programs end, the kernel's result array at the last valuation of its run and
    the reference's at its operations' term of the arguments: one array, entry by entry the attention's real result. -/
theorem algebraic : Cert.algebraic_KernelIdeal_ReferenceIdeal := by
  intro m ρ m' ρ' hpre hagree
  refine ⟨fun c => Cert.KernelIdeal.Gen.V4 m (Cert.KernelIdeal.Run.outsK m) c Cert.KernelIdeal.main_v8,
    Cert.KernelIdeal.Run.run_main (F := Ideal) m ρ, ?_⟩
  refine (θ_run (Cert.ReferenceIdeal.defs (F := Ideal)) _ _).mono
    (fun _ h c => ⟨((h c).1.trans (Cert.ReferenceIdeal.Read.val_main_v17_eq _ _ _ _)).trans ?_, (h c).2⟩)
    (Cert.ReferenceIdeal.Value.run (F := Ideal) m' ρ')
  exact Cert.Bridge.result_eq m hpre c _ _ _ _ (hagree c).1 (hagree c).2.1 (hagree c).2.2.1 (hagree c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
